-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S12288x32 : Shape := ⟨2, ![12288, 32]⟩
abbrev S12288x32x128 : Shape := ⟨3, ![12288, 32, 128]⟩
abbrev S500000x64 : Shape := ⟨2, ![500000, 64]⟩
abbrev S1000000x64 : Shape := ⟨2, ![1000000, 64]⟩
abbrev S64 : Shape := ⟨1, ![64]⟩
abbrev S384x128 : Shape := ⟨2, ![384, 128]⟩
abbrev S384 : Shape := ⟨1, ![384]⟩
abbrev S64x192 : Shape := ⟨2, ![64, 192]⟩
abbrev S64x128 : Shape := ⟨2, ![64, 128]⟩
abbrev S1x64 : Shape := ⟨2, ![1, 64]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S12288x32 : S_.BroadcastsInDim S12288x32 (![] : Fin 0 → Fin S12288x32.rank)
  reducesTo_S12288x32_S_d0_1 : S12288x32.ReducesTo [0, 1] S_
  bcast_S_S12288x32x128 : S_.BroadcastsInDim S12288x32x128 (![] : Fin 0 → Fin S12288x32x128.rank)
  reducesTo_S12288x32x128_S_d0_1_2 : S12288x32x128.ReducesTo [0, 1, 2] S_
  bcast_S_S500000x64 : S_.BroadcastsInDim S500000x64 (![] : Fin 0 → Fin S500000x64.rank)
  reducesTo_S500000x64_S_d0_1 : S500000x64.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S64x192 : S_.BroadcastsInDim S64x192 (![] : Fin 0 → Fin S64x192.rank)
  reducesTo_S64x192_S_d0_1 : S64x192.ReducesTo [0, 1] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg5 : IVec S12288x32 32) (main_v97 : IVec S_ 1) (main_v99 : IVec S4096 1) (main_v101 : IVec S4096 1) : IVec S_ 1 :=
  let main_v102 : IVec S4096 1 := andi main_v99 main_v101
  let main_c_40 : IVec S_ 1 := constantI S_ 1 1#1
  let main_v103 : IVec S_ 1 := (fun x v => Host.reduce IntOp.andi x v reducesTo_S4096_S_d0 h_S_) main_v102 main_c_40
  let main_v104 : IVec S_ 1 := andi main_v97 main_v103
  let main_c_41 : IVec S_ 32 := constantI S_ 32 0#32
  let main_v105 : IVec S12288x32 32 := broadcastInDim S12288x32 ![] bcast_S_S12288x32 main_c_41
  let main_v106 : IVec S12288x32 1 := cmpi .sge main_arg5 main_v105
  let main_c_42 : IVec S_ 32 := constantI S_ 32 1000000#32
  let main_v107 : IVec S12288x32 32 := broadcastInDim S12288x32 ![] bcast_S_S12288x32 main_c_42
  let main_v108 : IVec S12288x32 1 := cmpi .slt main_arg5 main_v107
  let main_v109 : IVec S12288x32 1 := andi main_v106 main_v108
  let main_c_43 : IVec S_ 1 := constantI S_ 1 1#1
  let main_v110 : IVec S_ 1 := (fun x v => Host.reduce IntOp.andi x v reducesTo_S12288x32_S_d0_1 h_S_) main_v109 main_c_43
  let main_v111 : IVec S_ 1 := andi main_v104 main_v110
  main_v111

def fn_part5 {F : FTy → Type} [FloatOps F] (main_arg0 : IVec S4096 32) (main_arg1 : IVec S4096 32) (main_arg2 : IVec S4096 32) (main_arg5 : IVec S12288x32 32) (main_v83 : IVec S_ 1) (main_v84 : IVec S4096 32) : IVec S_ 1 :=
  let main_v85 : IVec S4096 1 := cmpi .sge main_arg0 main_v84
  let main_c_33 : IVec S_ 32 := constantI S_ 32 500000#32
  let main_v86 : IVec S4096 32 := broadcastInDim S4096 ![] bcast_S_S4096 main_c_33
  let main_v87 : IVec S4096 1 := cmpi .slt main_arg0 main_v86
  let main_v88 : IVec S4096 1 := andi main_v85 main_v87
  let main_c_34 : IVec S_ 1 := constantI S_ 1 1#1
  let main_v89 : IVec S_ 1 := (fun x v => Host.reduce IntOp.andi x v reducesTo_S4096_S_d0 h_S_) main_v88 main_c_34
  let main_v90 : IVec S_ 1 := andi main_v83 main_v89
  let main_c_35 : IVec S_ 32 := constantI S_ 32 0#32
  let main_v91 : IVec S4096 32 := broadcastInDim S4096 ![] bcast_S_S4096 main_c_35
  let main_v92 : IVec S4096 1 := cmpi .sge main_arg1 main_v91
  let main_c_36 : IVec S_ 32 := constantI S_ 32 500000#32
  let main_v93 : IVec S4096 32 := broadcastInDim S4096 ![] bcast_S_S4096 main_c_36
  let main_v94 : IVec S4096 1 := cmpi .slt main_arg1 main_v93
  let main_v95 : IVec S4096 1 := andi main_v92 main_v94
  let main_c_37 : IVec S_ 1 := constantI S_ 1 1#1
  let main_v96 : IVec S_ 1 := (fun x v => Host.reduce IntOp.andi x v reducesTo_S4096_S_d0 h_S_) main_v95 main_c_37
  let main_v97 : IVec S_ 1 := andi main_v90 main_v96
  let main_c_38 : IVec S_ 32 := constantI S_ 32 0#32
  let main_v98 : IVec S4096 32 := broadcastInDim S4096 ![] bcast_S_S4096 main_c_38
  let main_v99 : IVec S4096 1 := cmpi .sge main_arg2 main_v98
  let main_c_39 : IVec S_ 32 := constantI S_ 32 500000#32
  let main_v100 : IVec S4096 32 := broadcastInDim S4096 ![] bcast_S_S4096 main_c_39
  let main_v101 : IVec S4096 1 := cmpi .slt main_arg2 main_v100
  fn_part6 (F := F) main_arg5 main_v97 main_v99 main_v101

def fn_part4 {F : FTy → Type} [FloatOps F] (main_arg0 : IVec S4096 32) (main_arg1 : IVec S4096 32) (main_arg2 : IVec S4096 32) (main_arg5 : IVec S12288x32 32) (main_arg19 : FVec F S64 .f32) (main_arg20 : FVec F S1x64 .f32) (main_arg21 : FVec F S1 .f32) (main_v63 : IVec S_ 1) (main_v67 : IVec S_ 1) : IVec S_ 1 :=
  let main_v68 : IVec S_ 1 := andi main_v63 main_v67
  let main_v69 : FVec F S64 .f32 := Host.absf main_arg19
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg20
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg21
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S4096 32 := broadcastInDim S4096 ![] bcast_S_S4096 main_c_32
  fn_part5 (F := F) main_arg0 main_arg1 main_arg2 main_arg5 main_v83 main_v84

def fn_part3 {F : FTy → Type} [FloatOps F] (main_arg0 : IVec S4096 32) (main_arg1 : IVec S4096 32) (main_arg2 : IVec S4096 32) (main_arg5 : IVec S12288x32 32) (main_arg16 : FVec F S64x192 .f32) (main_arg17 : FVec F S64 .f32) (main_arg18 : FVec F S64x128 .f32) (main_arg19 : FVec F S64 .f32) (main_arg20 : FVec F S1x64 .f32) (main_arg21 : FVec F S1 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S64x192 .f32 := Host.absf main_arg16
  let main_cst_20 : FVec F S_ .f32 := constant S_ .f32 0x7F800000#32
  let main_v55 : FVec F S64x192 .f32 := broadcastInDim S64x192 ![] bcast_S_S64x192 main_cst_20
  let main_v56 : IVec S64x192 1 := cmpf .olt main_v54 main_v55
  let main_c_21 : IVec S_ 1 := constantI S_ 1 1#1
  let main_v57 : IVec S_ 1 := (fun x v => Host.reduce IntOp.andi x v reducesTo_S64x192_S_d0_1 h_S_) main_v56 main_c_21
  let main_v58 : IVec S_ 1 := andi main_v53 main_v57
  let main_v59 : FVec F S64 .f32 := Host.absf main_arg17
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg18
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg0 main_arg1 main_arg2 main_arg5 main_arg19 main_arg20 main_arg21 main_v63 main_v67

def fn_part2 {F : FTy → Type} [FloatOps F] (main_arg0 : IVec S4096 32) (main_arg1 : IVec S4096 32) (main_arg2 : IVec S4096 32) (main_arg5 : IVec S12288x32 32) (main_arg12 : FVec F S384x128 .f32) (main_arg13 : FVec F S384x128 .f32) (main_arg14 : FVec F S384 .f32) (main_arg15 : FVec F S384 .f32) (main_arg16 : FVec F S64x192 .f32) (main_arg17 : FVec F S64 .f32) (main_arg18 : FVec F S64x128 .f32) (main_arg19 : FVec F S64 .f32) (main_arg20 : FVec F S1x64 .f32) (main_arg21 : FVec F S1 .f32) (main_v33 : IVec S_ 1) : IVec S_ 1 :=
  let main_v34 : FVec F S384x128 .f32 := Host.absf main_arg12
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384x128 .f32 := Host.absf main_arg13
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg14
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg15
  let main_cst_18 : FVec F S_ .f32 := constant S_ .f32 0x7F800000#32
  let main_v50 : FVec F S384 .f32 := broadcastInDim S384 ![] bcast_S_S384 main_cst_18
  fn_part3 (F := F) main_arg0 main_arg1 main_arg2 main_arg5 main_arg16 main_arg17 main_arg18 main_arg19 main_arg20 main_arg21 main_v48 main_v49 main_v50

def fn_part1 {F : FTy → Type} [FloatOps F] (main_arg0 : IVec S4096 32) (main_arg1 : IVec S4096 32) (main_arg2 : IVec S4096 32) (main_arg5 : IVec S12288x32 32) (main_arg9 : FVec F S1000000x64 .f32) (main_arg10 : FVec F S64 .f32) (main_arg11 : FVec F S64 .f32) (main_arg12 : FVec F S384x128 .f32) (main_arg13 : FVec F S384x128 .f32) (main_arg14 : FVec F S384 .f32) (main_arg15 : FVec F S384 .f32) (main_arg16 : FVec F S64x192 .f32) (main_arg17 : FVec F S64 .f32) (main_arg18 : FVec F S64x128 .f32) (main_arg19 : FVec F S64 .f32) (main_arg20 : FVec F S1x64 .f32) (main_arg21 : FVec F S1 .f32) (main_v13 : IVec S_ 1) (main_v16 : IVec S500000x64 1) : IVec S_ 1 :=
  let main_c_5 : IVec S_ 1 := constantI S_ 1 1#1
  let main_v17 : IVec S_ 1 := (fun x v => Host.reduce IntOp.andi x v reducesTo_S500000x64_S_d0_1 h_S_) main_v16 main_c_5
  let main_v18 : IVec S_ 1 := andi main_v13 main_v17
  let main_v19 : FVec F S1000000x64 .f32 := Host.absf main_arg9
  let main_cst_6 : FVec F S_ .f32 := constant S_ .f32 0x7F800000#32
  let main_v20 : FVec F S1000000x64 .f32 := broadcastInDim S1000000x64 ![] bcast_S_S1000000x64 main_cst_6
  let main_v21 : IVec S1000000x64 1 := cmpf .olt main_v19 main_v20
  let main_c_7 : IVec S_ 1 := constantI S_ 1 1#1
  let main_v22 : IVec S_ 1 := (fun x v => Host.reduce IntOp.andi x v reducesTo_S1000000x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg5 main_arg12 main_arg13 main_arg14 main_arg15 main_arg16 main_arg17 main_arg18 main_arg19 main_arg20 main_arg21 main_v33

def fn {F : FTy → Type} [FloatOps F] (main_arg0 : IVec S4096 32) (main_arg1 : IVec S4096 32) (main_arg2 : IVec S4096 32) (main_arg3 : FVec F S4096 .f32) (main_arg4 : IVec S12288x32 32) (main_arg5 : IVec S12288x32 32) (main_arg6 : FVec F S12288x32 .f32) (main_arg7 : FVec F S12288x32x128 .f32) (main_arg8 : FVec F S500000x64 .f32) (main_arg9 : FVec F S1000000x64 .f32) (main_arg10 : FVec F S64 .f32) (main_arg11 : FVec F S64 .f32) (main_arg12 : FVec F S384x128 .f32) (main_arg13 : FVec F S384x128 .f32) (main_arg14 : FVec F S384 .f32) (main_arg15 : FVec F S384 .f32) (main_arg16 : FVec F S64x192 .f32) (main_arg17 : FVec F S64 .f32) (main_arg18 : FVec F S64x128 .f32) (main_arg19 : FVec F S64 .f32) (main_arg20 : FVec F S1x64 .f32) (main_arg21 : FVec F S1 .f32) : IVec S_ 1 :=
  let main_v0 : FVec F S4096 .f32 := Host.absf main_arg3
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S12288x32 .f32 := Host.absf main_arg6
  let main_cst_0 : FVec F S_ .f32 := constant S_ .f32 0x7F800000#32
  let main_v5 : FVec F S12288x32 .f32 := broadcastInDim S12288x32 ![] bcast_S_S12288x32 main_cst_0
  let main_v6 : IVec S12288x32 1 := cmpf .olt main_v4 main_v5
  let main_c_1 : IVec S_ 1 := constantI S_ 1 1#1
  let main_v7 : IVec S_ 1 := (fun x v => Host.reduce IntOp.andi x v reducesTo_S12288x32_S_d0_1 h_S_) main_v6 main_c_1
  let main_v8 : IVec S_ 1 := andi main_v3 main_v7
  let main_v9 : FVec F S12288x32x128 .f32 := Host.absf main_arg7
  let main_cst_2 : FVec F S_ .f32 := constant S_ .f32 0x7F800000#32
  let main_v10 : FVec F S12288x32x128 .f32 := broadcastInDim S12288x32x128 ![] bcast_S_S12288x32x128 main_cst_2
  let main_v11 : IVec S12288x32x128 1 := cmpf .olt main_v9 main_v10
  let main_c_3 : IVec S_ 1 := constantI S_ 1 1#1
  let main_v12 : IVec S_ 1 := (fun x v => Host.reduce IntOp.andi x v reducesTo_S12288x32x128_S_d0_1_2 h_S_) main_v11 main_c_3
  let main_v13 : IVec S_ 1 := andi main_v8 main_v12
  let main_v14 : FVec F S500000x64 .f32 := Host.absf main_arg8
  let main_cst_4 : FVec F S_ .f32 := constant S_ .f32 0x7F800000#32
  let main_v15 : FVec F S500000x64 .f32 := broadcastInDim S500000x64 ![] bcast_S_S500000x64 main_cst_4
  let main_v16 : IVec S500000x64 1 := cmpf .olt main_v14 main_v15
  fn_part1 (F := F) main_arg0 main_arg1 main_arg2 main_arg5 main_arg9 main_arg10 main_arg11 main_arg12 main_arg13 main_arg14 main_arg15 main_arg16 main_arg17 main_arg18 main_arg19 main_arg20 main_arg21 main_v13 main_v16
-- ==== Kernel.lean ====
abbrev S4096 : Shape := ⟨1, ![4096]⟩
abbrev S12288x32 : Shape := ⟨2, ![12288, 32]⟩
abbrev S12288x32x128 : Shape := ⟨3, ![12288, 32, 128]⟩
abbrev S500000x64 : Shape := ⟨2, ![500000, 64]⟩
abbrev S1000000x64 : Shape := ⟨2, ![1000000, 64]⟩
abbrev S64 : Shape := ⟨1, ![64]⟩
abbrev S384x128 : Shape := ⟨2, ![384, 128]⟩
abbrev S384 : Shape := ⟨1, ![384]⟩
abbrev S64x192 : Shape := ⟨2, ![64, 192]⟩
abbrev S64x128 : Shape := ⟨2, ![64, 128]⟩
abbrev S1x64 : Shape := ⟨2, ![1, 64]⟩
abbrev S1 : Shape := ⟨1, ![1]⟩
abbrev S12288 : Shape := ⟨1, ![12288]⟩
abbrev S_ : Shape := ⟨0, ![]⟩
abbrev S12288x1 : Shape := ⟨2, ![12288, 1]⟩
abbrev S1x1 : Shape := ⟨2, ![1, 1]⟩
abbrev S12288x64 : Shape := ⟨2, ![12288, 64]⟩
abbrev S12288x32x1 : Shape := ⟨3, ![12288, 32, 1]⟩
abbrev S1x1x1 : Shape := ⟨3, ![1, 1, 1]⟩
abbrev S12288x32x64 : Shape := ⟨3, ![12288, 32, 64]⟩
abbrev S1x4096 : Shape := ⟨2, ![1, 4096]⟩
abbrev S3x4096 : Shape := ⟨2, ![3, 4096]⟩
abbrev S256x128 : Shape := ⟨2, ![256, 128]⟩
abbrev S256x256 : Shape := ⟨2, ![256, 256]⟩
abbrev S128x128 : Shape := ⟨2, ![128, 128]⟩
abbrev S256 : Shape := ⟨1, ![256]⟩
abbrev S1x256 : Shape := ⟨2, ![1, 256]⟩
abbrev S128 : Shape := ⟨1, ![128]⟩
abbrev S1x128 : Shape := ⟨2, ![1, 128]⟩
abbrev S128x32x128 : Shape := ⟨3, ![128, 32, 128]⟩
abbrev S128x32x64 : Shape := ⟨3, ![128, 32, 64]⟩
abbrev S128x32 : Shape := ⟨2, ![128, 32]⟩
abbrev S128x64 : Shape := ⟨2, ![128, 64]⟩
abbrev S128x1 : Shape := ⟨2, ![128, 1]⟩
abbrev S1x1x64 : Shape := ⟨3, ![1, 1, 64]⟩
abbrev S128x32x1 : Shape := ⟨3, ![128, 32, 1]⟩
abbrev S4096x128 : Shape := ⟨2, ![4096, 128]⟩
abbrev S4096x256 : Shape := ⟨2, ![4096, 256]⟩
abbrev S128x192 : Shape := ⟨2, ![128, 192]⟩
abbrev S192x64 : Shape := ⟨2, ![192, 64]⟩
abbrev S4096x64 : Shape := ⟨2, ![4096, 64]⟩
abbrev S4096x2 : Shape := ⟨2, ![4096, 2]⟩
abbrev S1024x64 : Shape := ⟨2, ![1024, 64]⟩
abbrev S1024x2 : Shape := ⟨2, ![1024, 2]⟩
abbrev S1024x128 : Shape := ⟨2, ![1024, 128]⟩
abbrev S64x1 : Shape := ⟨2, ![64, 1]⟩
abbrev S1024x1 : Shape := ⟨2, ![1024, 1]⟩

abbrev nBuf : Space → Nat
  | .hbm => 104
  | .vmem => 36
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096, .f32⟩
  | .hbm, ⟨4, _⟩ => ⟨S12288x32, .i32⟩
  | .hbm, ⟨5, _⟩ => ⟨S12288x32, .i32⟩
  | .hbm, ⟨6, _⟩ => ⟨S12288x32, .f32⟩
  | .hbm, ⟨7, _⟩ => ⟨S12288x32x128, .f32⟩
  | .hbm, ⟨8, _⟩ => ⟨S500000x64, .f32⟩
  | .hbm, ⟨9, _⟩ => ⟨S1000000x64, .f32⟩
  | .hbm, ⟨10, _⟩ => ⟨S64, .f32⟩
  | .hbm, ⟨11, _⟩ => ⟨S64, .f32⟩
  | .hbm, ⟨12, _⟩ => ⟨S384x128, .f32⟩
  | .hbm, ⟨13, _⟩ => ⟨S384x128, .f32⟩
  | .hbm, ⟨14, _⟩ => ⟨S384, .f32⟩
  | .hbm, ⟨15, _⟩ => ⟨S384, .f32⟩
  | .hbm, ⟨16, _⟩ => ⟨S64x192, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S1x64, .f32⟩
  | .hbm, ⟨21, _⟩ => ⟨S1, .f32⟩
  | .hbm, ⟨22, _⟩ => ⟨S12288, .i32⟩
  | .hbm, ⟨23, _⟩ => ⟨S_, .i32⟩
  | .hbm, ⟨24, _⟩ => ⟨S12288, .i32⟩
  | .hbm, ⟨25, _⟩ => ⟨S12288, .i1⟩
  | .hbm, ⟨26, _⟩ => ⟨S_, .i32⟩
  | .hbm, ⟨27, _⟩ => ⟨S12288, .i32⟩
  | .hbm, ⟨28, _⟩ => ⟨S12288, .i32⟩
  | .hbm, ⟨29, _⟩ => ⟨S12288, .i32⟩
  | .hbm, ⟨30, _⟩ => ⟨S12288x1, .i32⟩
  | .hbm, ⟨31, _⟩ => ⟨S1, .i32⟩
  | .hbm, ⟨32, _⟩ => ⟨S_, .i32⟩
  | .hbm, ⟨33, _⟩ => ⟨S12288x1, .i32⟩
  | .hbm, ⟨34, _⟩ => ⟨S12288x1, .i1⟩
  | .hbm, ⟨35, _⟩ => ⟨S1x1, .i32⟩
  | .hbm, ⟨36, _⟩ => ⟨S12288x1, .i32⟩
  | .hbm, ⟨37, _⟩ => ⟨S12288x1, .i1⟩
  | .hbm, ⟨38, _⟩ => ⟨S12288x1, .i1⟩
  | .hbm, ⟨39, _⟩ => ⟨S_, .i1⟩
  | .hbm, ⟨40, _⟩ => ⟨S12288, .i1⟩
  | .hbm, ⟨41, _⟩ => ⟨S12288x64, .f32⟩
  | .hbm, ⟨42, _⟩ => ⟨S12288x64, .i1⟩
  | .hbm, ⟨43, _⟩ => ⟨S_, .f32⟩
  | .hbm, ⟨44, _⟩ => ⟨S12288x64, .f32⟩
  | .hbm, ⟨45, _⟩ => ⟨S12288x64, .f32⟩
  | .hbm, ⟨46, _⟩ => ⟨S12288x64, .bf16⟩
  | .hbm, ⟨47, _⟩ => ⟨S_, .i32⟩
  | .hbm, ⟨48, _⟩ => ⟨S12288x32, .i32⟩
  | .hbm, ⟨49, _⟩ => ⟨S12288x32, .i1⟩
  | .hbm, ⟨50, _⟩ => ⟨S_, .i32⟩
  | .hbm, ⟨51, _⟩ => ⟨S12288x32, .i32⟩
  | .hbm, ⟨52, _⟩ => ⟨S12288x32, .i32⟩
  | .hbm, ⟨53, _⟩ => ⟨S12288x32, .i32⟩
  | .hbm, ⟨54, _⟩ => ⟨S12288x32x1, .i32⟩
  | .hbm, ⟨55, _⟩ => ⟨S1, .i32⟩
  | .hbm, ⟨56, _⟩ => ⟨S_, .i32⟩
  | .hbm, ⟨57, _⟩ => ⟨S12288x32x1, .i32⟩
  | .hbm, ⟨58, _⟩ => ⟨S12288x32x1, .i1⟩
  | .hbm, ⟨59, _⟩ => ⟨S1x1x1, .i32⟩
  | .hbm, ⟨60, _⟩ => ⟨S12288x32x1, .i32⟩
  | .hbm, ⟨61, _⟩ => ⟨S12288x32x1, .i1⟩
  | .hbm, ⟨62, _⟩ => ⟨S12288x32x1, .i1⟩
  | .hbm, ⟨63, _⟩ => ⟨S_, .i1⟩
  | .hbm, ⟨64, _⟩ => ⟨S12288x32, .i1⟩
  | .hbm, ⟨65, _⟩ => ⟨S12288x32x64, .f32⟩
  | .hbm, ⟨66, _⟩ => ⟨S12288x32x64, .i1⟩
  | .hbm, ⟨67, _⟩ => ⟨S_, .f32⟩
  | .hbm, ⟨68, _⟩ => ⟨S12288x32x64, .f32⟩
  | .hbm, ⟨69, _⟩ => ⟨S12288x32x64, .f32⟩
  | .hbm, ⟨70, _⟩ => ⟨S12288x32x64, .bf16⟩
  | .hbm, ⟨71, _⟩ => ⟨S1x4096, .f32⟩
  | .hbm, ⟨72, _⟩ => ⟨S3x4096, .f32⟩
  | .hbm, ⟨73, _⟩ => ⟨S12288, .f32⟩
  | .hbm, ⟨74, _⟩ => ⟨S12288x1, .f32⟩
  | .hbm, ⟨75, _⟩ => ⟨S1x64, .f32⟩
  | .hbm, ⟨76, _⟩ => ⟨S1x64, .f32⟩
  | .hbm, ⟨77, _⟩ => ⟨S256x128, .f32⟩
  | .hbm, ⟨78, _⟩ => ⟨S256x128, .f32⟩
  | .hbm, ⟨79, _⟩ => ⟨S256x256, .f32⟩
  | .hbm, ⟨80, _⟩ => ⟨S128x128, .f32⟩
  | .hbm, ⟨81, _⟩ => ⟨S128x128, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S1x256, .f32⟩
  | .hbm, ⟨86, _⟩ => ⟨S128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S256x256, .bf16⟩
  | .hbm, ⟨91, _⟩ => ⟨S128x128, .bf16⟩
  | .hbm, ⟨92, _⟩ => ⟨S128x128, .bf16⟩
  | .hbm, ⟨93, _⟩ => ⟨S64x192, .bf16⟩
  | .hbm, ⟨94, _⟩ => ⟨S1x64, .f32⟩
  | .hbm, ⟨95, _⟩ => ⟨S12288x64, .f32⟩
  | .hbm, ⟨96, _⟩ => ⟨S4096x64, .f32⟩
  | .hbm, ⟨97, _⟩ => ⟨S4096x64, .f32⟩
  | .hbm, ⟨98, _⟩ => ⟨S4096x64, .f32⟩
  | .hbm, ⟨99, _⟩ => ⟨S64x128, .bf16⟩
  | .hbm, ⟨100, _⟩ => ⟨S1x64, .f32⟩
  | .hbm, ⟨101, _⟩ => ⟨S1x64, .bf16⟩
  | .hbm, ⟨102, _⟩ => ⟨S1x1, .f32⟩
  | .hbm, ⟨103, _⟩ => ⟨S4096x2, .f32⟩
  | .local _ .vmem, ⟨0, _⟩ => ⟨S128x32x128, .f32⟩
  | .local _ .vmem, ⟨1, _⟩ => ⟨S128x32x128, .f32⟩
  | .local _ .vmem, ⟨2, _⟩ => ⟨S128x32x64, .bf16⟩
  | .local _ .vmem, ⟨3, _⟩ => ⟨S128x32x64, .bf16⟩
  | .local _ .vmem, ⟨4, _⟩ => ⟨S128x32, .f32⟩
  | .local _ .vmem, ⟨5, _⟩ => ⟨S128x32, .f32⟩
  | .local _ .vmem, ⟨6, _⟩ => ⟨S128x32, .i32⟩
  | .local _ .vmem, ⟨7, _⟩ => ⟨S128x32, .i32⟩
  | .local _ .vmem, ⟨8, _⟩ => ⟨S128x64, .bf16⟩
  | .local _ .vmem, ⟨9, _⟩ => ⟨S128x64, .bf16⟩
  | .local _ .vmem, ⟨10, _⟩ => ⟨S128x1, .f32⟩
  | .local _ .vmem, ⟨11, _⟩ => ⟨S128x1, .f32⟩
  | .local _ .vmem, ⟨12, _⟩ => ⟨S1x64, .f32⟩
  | .local _ .vmem, ⟨13, _⟩ => ⟨S1x64, .f32⟩
  | .local _ .vmem, ⟨14, _⟩ => ⟨S256x256, .bf16⟩
  | .local _ .vmem, ⟨15, _⟩ => ⟨S128x128, .bf16⟩
  | .local _ .vmem, ⟨16, _⟩ => ⟨S128x128, .bf16⟩
  | .local _ .vmem, ⟨17, _⟩ => ⟨S1x256, .f32⟩
  | .local _ .vmem, ⟨18, _⟩ => ⟨S1x128, .f32⟩
  | .local _ .vmem, ⟨19, _⟩ => ⟨S1x128, .f32⟩
  | .local _ .vmem, ⟨20, _⟩ => ⟨S64x192, .bf16⟩
  | .local _ .vmem, ⟨21, _⟩ => ⟨S1x64, .f32⟩
  | .local _ .vmem, ⟨22, _⟩ => ⟨S128x64, .f32⟩
  | .local _ .vmem, ⟨23, _⟩ => ⟨S128x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S64x128, .bf16⟩
  | .local _ .vmem, ⟨31, _⟩ => ⟨S1x64, .f32⟩
  | .local _ .vmem, ⟨32, _⟩ => ⟨S1x64, .bf16⟩
  | .local _ .vmem, ⟨33, _⟩ => ⟨S1x1, .f32⟩
  | .local _ .vmem, ⟨34, _⟩ => ⟨S1024x2, .f32⟩
  | .local _ .vmem, ⟨35, _⟩ => ⟨S1024x2, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v1 : Ref sig .tc := ⟨.hbm, 45, rfl⟩
abbrev main_v2 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v3 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem7_1 : DmaSem sig := 35

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S4096_S4096_S4096_S12288_d0 : Shape.Concatenates [S4096, S4096, S4096] S12288 0
  bcast_S_S12288 : S_.BroadcastsInDim S12288 (![] : Fin 0 → Fin S12288.rank)
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S1_S1x1_1 : S1.BroadcastsInDim S1x1 (![1] : Fin 1 → Fin S1x1.rank)
  bcast_S1x1_S12288x1_0_1 : S1x1.BroadcastsInDim S12288x1 (![0, 1] : Fin 2 → Fin S12288x1.rank)
  reducesTo_S12288x1_S12288_d1 : S12288x1.ReducesTo [1] S12288
  h_S_ : 0 < S_.numel
  bcast_S12288_S12288x64_0 : S12288.BroadcastsInDim S12288x64 (![0] : Fin 1 → Fin S12288x64.rank)
  bcast_S_S12288x64 : S_.BroadcastsInDim S12288x64 (![] : Fin 0 → Fin S12288x64.rank)
  bitsLt_bf16_f32 : FTy.bits .bf16 < FTy.bits .f32
  bcast_S_S12288x32 : S_.BroadcastsInDim S12288x32 (![] : Fin 0 → Fin S12288x32.rank)
  bcast_S12288x32_S12288x32x1_0_1 : S12288x32.BroadcastsInDim S12288x32x1 (![0, 1] : Fin 2 → Fin S12288x32x1.rank)
  bcast_S_S12288x32x1 : S_.BroadcastsInDim S12288x32x1 (![] : Fin 0 → Fin S12288x32x1.rank)
  bcast_S1_S1x1x1_2 : S1.BroadcastsInDim S1x1x1 (![2] : Fin 1 → Fin S1x1x1.rank)
  bcast_S1x1x1_S12288x32x1_0_1_2 : S1x1x1.BroadcastsInDim S12288x32x1 (![0, 1, 2] : Fin 3 → Fin S12288x32x1.rank)
  reducesTo_S12288x32x1_S12288x32_d2 : S12288x32x1.ReducesTo [2] S12288x32
  bcast_S12288x32_S12288x32x64_0_1 : S12288x32.BroadcastsInDim S12288x32x64 (![0, 1] : Fin 2 → Fin S12288x32x64.rank)
  bcast_S_S12288x32x64 : S_.BroadcastsInDim S12288x32x64 (![] : Fin 0 → Fin S12288x32x64.rank)
  shapeCasts_S4096_S1x4096 : S4096.ShapeCasts S1x4096
  bcast_S1x4096_S3x4096_0_1 : S1x4096.BroadcastsInDim S3x4096 (![0, 1] : Fin 2 → Fin S3x4096.rank)
  shapeCasts_S3x4096_S12288 : S3x4096.ShapeCasts S12288
  shapeCasts_S12288_S12288x1 : S12288.ShapeCasts S12288x1
  shapeCasts_S64_S1x64 : S64.ShapeCasts S1x64
  slices_S384x128_S256x128_0_0 : S384x128.Slices ![0, 0] S256x128
  concatenates_S256x128_S256x128_S256x256_d1 : Shape.Concatenates [S256x128, S256x128] S256x256 1
  slices_S384x128_S128x128_256_0 : S384x128.Slices ![256, 0] S128x128
  slices_S384_S256_0 : S384.Slices ![0] S256
  shapeCasts_S256_S1x256 : S256.ShapeCasts S1x256
  slices_S384_S128_256 : S384.Slices ![256] S128
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x32_S128x32_0_0 : ∀ a, (![0, 0] : Fin 2 → Nat) a + S128x32.size a ≤ S128x32.size a
  h_S128x32 : 0 < S128x32.numel
  broadcasts_S128x1_S128x32 : S128x1.Broadcasts S128x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  shapeCasts_S128x32_S128x32x1 : S128x32.ShapeCasts S128x32x1
  broadcasts_S128x32x1_S128x32x64 : S128x32x1.Broadcasts S128x32x64
  broadcasts_S1x1x64_S128x32x64 : S1x1x64.Broadcasts S128x32x64
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64 : S128x32x64.ShapeCasts S128x32x64
  concatenates_S128x32x64_S128x32x64_S128x32x128_d2 : Shape.Concatenates [S128x32x64, S128x32x64] S128x32x128 2
  shapeCasts_S128x32x128_S4096x128 : S128x32x128.ShapeCasts S4096x128
  inb_S128x32x128_S128x32x128_0_0_0 : ∀ a, (![0, 0, 0] : Fin 3 → Nat) a + S128x32x128.size a ≤ S128x32x128.size a
  h_S128x32x128 : 0 < S128x32x128.numel
  concatenates_S4096x128_S4096x128_S4096x256_d1 : Shape.Concatenates [S4096x128, S4096x128] S4096x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x256_p1_0_S256x256 : S256x256.Transposes [1, 0] S256x256
  broadcasts_S1x256_S4096x256 : S1x256.Broadcasts S4096x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S4096x128 : S1x128.Broadcasts S4096x128
  slices_S4096x256_o0_0_S4096x128 : S4096x256.Slices ![0, 0] S4096x128
  slices_S4096x256_o0_128_S4096x128 : S4096x256.Slices ![0, 128] S4096x128
  shapeCasts_S4096x128_S128x32x128 : S4096x128.ShapeCasts S128x32x128
  natLt_1_32 : 1 < 32
  broadcasts_S128x32x1_S128x32x128 : S128x32x1.Broadcasts S128x32x128
  reduces_S128x32x128_S128x128 : S128x32x128.Reduces [1] S128x128
  reduces_S128x32x1_S128x1 : S128x32x1.Reduces [1] S128x1
  broadcasts_S128x1_S128x128 : S128x1.Broadcasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  concatenates_S128x64_S128x128_S128x192_d1 : Shape.Concatenates [S128x64, S128x128] S128x192 1
  inb_S64x192_S64x192_0_0 : ∀ a, (![0, 0] : Fin 2 → Nat) a + S64x192.size a ≤ S64x192.size a
  h_S64x192 : 0 < S64x192.numel
  shapeCasts_S64x192_S64x192 : S64x192.ShapeCasts S64x192
  transposes_S64x192_p1_0_S192x64 : S64x192.Transposes [1, 0] S192x64
  broadcasts_S1x64_S128x64 : S1x64.Broadcasts S128x64
  slices_S12288x64_S4096x64_0_0 : S12288x64.Slices ![0, 0] S4096x64
  slices_S12288x64_S4096x64_4096_0 : S12288x64.Slices ![4096, 0] S4096x64
  slices_S12288x64_S4096x64_8192_0 : S12288x64.Slices ![8192, 0] S4096x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  concatenates_S1024x64_S1024x64_S1024x128_d1 : Shape.Concatenates [S1024x64, S1024x64] S1024x128 1
  transposes_S64x128_p1_0_S128x64 : S64x128.Transposes [1, 0] S128x64
  broadcasts_S1x64_S1024x64 : S1x64.Broadcasts S1024x64
  transposes_S1x64_p1_0_S64x1 : S1x64.Transposes [1, 0] S64x1
  broadcasts_S1x1_S1024x1 : S1x1.Broadcasts S1024x1
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  gather_S500000x64_S12288x1_S12288x64_1_0_n_n_0_1_164_wf : GatherDims.WF S500000x64 S12288x1 S12288x64 [1] [0] [] [0] [] 1 ![1, 64]
  gather_S1000000x64_S12288x32x1_S12288x32x64_2_0_n_n_0_2_164_wf : GatherDims.WF S1000000x64 S12288x32x1 S12288x32x64 [2] [0] [] [0] [] 2 ![1, 64]
  dot_S4096x256_S256x256_S4096x256_1_0_0_1_n_n_wf : DotDims.WF S4096x256 S256x256 S4096x256 [1] [0] [0] [1] [] []
  dot_S4096x128_S128x128_S4096x128_1_0_0_1_n_n_wf : DotDims.WF S4096x128 S128x128 S4096x128 [1] [0] [0] [1] [] []
  dot_S128x192_S192x64_S128x64_1_0_0_1_n_n_wf : DotDims.WF S128x192 S192x64 S128x64 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S12288x32x128.size a
  hwx0_0 : ∀ i : grid0.Coords, EltTy.bits .f32 = 32 ∨ (Rect.block (s := S12288x32x128) S128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x64.size a ≤ S12288x32x64.size a
  hwx0_1 : ∀ i : grid0.Coords, EltTy.bits .bf16 = 32 ∨ (Rect.block (s := S12288x32x64) S128x32x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S12288x32.size a
  hwx0_2 : ∀ i : grid0.Coords, EltTy.bits .f32 = 32 ∨ (Rect.block (s := S12288x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S12288x32.size a
  hwx0_3 : ∀ i : grid0.Coords, EltTy.bits .i32 = 32 ∨ (Rect.block (s := S12288x32) S128x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S12288x64.size a
  hwx0_4 : ∀ i : grid0.Coords, EltTy.bits .bf16 = 32 ∨ (Rect.block (s := S12288x64) S128x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S12288x1.size a
  hwx0_5 : ∀ i : grid0.Coords, EltTy.bits .f32 = 32 ∨ (Rect.block (s := S12288x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x192.size a ≤ S64x192.size a
  hwx0_14 : ∀ i : grid0.Coords, EltTy.bits .bf16 = 32 ∨ (Rect.block (s := S64x192) S64x192.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x64.size a ≤ S12288x64.size a
  hwx0_16 : ∀ i : grid0.Coords, EltTy.bits .f32 = 32 ∨ (Rect.block (s := S12288x64) S128x64.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .bf16 = 32 ∨ (Rect.block (s := S1x64) S1x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x2.size a ≤ S4096x2.size a
  hwx1_7 : ∀ i : grid1.Coords, EltTy.bits .f32 = 32 ∨ (Rect.block (s := S4096x2) S1024x2.size (cc1_transform_7 i) (hinb1_7 i)).WholeWords (EltTy.packing .f32)

variable [Facts₀]

def gather_S500000x64_S12288x1_S12288x64_1_0_n_n_0_1_164 : GatherDims S500000x64 S12288x1 S12288x64 where
  offsetDims := [1]
  collapsedSliceDims := [0]
  operandBatchingDims := []
  startIndicesBatchingDims := []
  startIndexMap := [0]
  indexVectorDim := 1
  sliceSizes := ![1, 64]
  wf := gather_S500000x64_S12288x1_S12288x64_1_0_n_n_0_1_164_wf
def gather_S1000000x64_S12288x32x1_S12288x32x64_2_0_n_n_0_2_164 : GatherDims S1000000x64 S12288x32x1 S12288x32x64 where
  offsetDims := [2]
  collapsedSliceDims := [0]
  operandBatchingDims := []
  startIndicesBatchingDims := []
  startIndexMap := [0]
  indexVectorDim := 2
  sliceSizes := ![1, 64]
  wf := gather_S1000000x64_S12288x32x1_S12288x32x64_2_0_n_n_0_2_164_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x192_S192x64_S128x64_1_0_0_1_n_n : DotDims S128x192 S192x64 S128x64 where
  lhsContracting := [1]
  rhsContracting := [0]
  lhsNonContracting := [0]
  rhsNonContracting := [1]
  lhsBatch := []
  rhsBatch := []
  wf := dot_S128x192_S192x64_S128x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg7) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S64x192.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S128x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v30) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1024x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096 : Shape := ⟨1, ![4096]⟩
abbrev S12288x32 : Shape := ⟨2, ![12288, 32]⟩
abbrev S12288x32x128 : Shape := ⟨3, ![12288, 32, 128]⟩
abbrev S500000x64 : Shape := ⟨2, ![500000, 64]⟩
abbrev S1000000x64 : Shape := ⟨2, ![1000000, 64]⟩
abbrev S64 : Shape := ⟨1, ![64]⟩
abbrev S384x128 : Shape := ⟨2, ![384, 128]⟩
abbrev S384 : Shape := ⟨1, ![384]⟩
abbrev S64x192 : Shape := ⟨2, ![64, 192]⟩
abbrev S64x128 : Shape := ⟨2, ![64, 128]⟩
abbrev S1x64 : Shape := ⟨2, ![1, 64]⟩
abbrev S1 : Shape := ⟨1, ![1]⟩
abbrev S12288 : Shape := ⟨1, ![12288]⟩
abbrev S_ : Shape := ⟨0, ![]⟩
abbrev S12288x1 : Shape := ⟨2, ![12288, 1]⟩
abbrev S12288x64 : Shape := ⟨2, ![12288, 64]⟩
abbrev S12288x32x1 : Shape := ⟨3, ![12288, 32, 1]⟩
abbrev S12288x32x64 : Shape := ⟨3, ![12288, 32, 64]⟩
abbrev S1x4096 : Shape := ⟨2, ![1, 4096]⟩
abbrev S3x4096 : Shape := ⟨2, ![3, 4096]⟩
abbrev S1x1x64 : Shape := ⟨3, ![1, 1, 64]⟩
abbrev S393216x128 : Shape := ⟨2, ![393216, 128]⟩
abbrev S128x384 : Shape := ⟨2, ![128, 384]⟩
abbrev S393216x384 : Shape := ⟨2, ![393216, 384]⟩
abbrev S1x384 : Shape := ⟨2, ![1, 384]⟩
abbrev S12288x128 : Shape := ⟨2, ![12288, 128]⟩
abbrev S12288x192 : Shape := ⟨2, ![12288, 192]⟩
abbrev S192x64 : Shape := ⟨2, ![192, 64]⟩
abbrev S4096x64 : Shape := ⟨2, ![4096, 64]⟩
abbrev S4096x128 : Shape := ⟨2, ![4096, 128]⟩
abbrev S128x64 : Shape := ⟨2, ![128, 64]⟩
abbrev S64x1 : Shape := ⟨2, ![64, 1]⟩
abbrev S4096x1 : Shape := ⟨2, ![4096, 1]⟩
abbrev S1x1 : Shape := ⟨2, ![1, 1]⟩
abbrev S4096x2 : Shape := ⟨2, ![4096, 2]⟩

abbrev nBuf : Space → Nat
  | .hbm => 160
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096, .f32⟩
  | 4 => ⟨S12288x32, .i32⟩
  | 5 => ⟨S12288x32, .i32⟩
  | 6 => ⟨S12288x32, .f32⟩
  | 7 => ⟨S12288x32x128, .f32⟩
  | 8 => ⟨S500000x64, .f32⟩
  | 9 => ⟨S1000000x64, .f32⟩
  | 10 => ⟨S64, .f32⟩
  | 11 => ⟨S64, .f32⟩
  | 12 => ⟨S384x128, .f32⟩
  | 13 => ⟨S384x128, .f32⟩
  | 14 => ⟨S384, .f32⟩
  | 15 => ⟨S384, .f32⟩
  | 16 => ⟨S64x192, .f32⟩
  | 17 => ⟨S64, .f32⟩
  | 18 => ⟨S64x128, .f32⟩
  | 19 => ⟨S64, .f32⟩
  | 20 => ⟨S1x64, .f32⟩
  | 21 => ⟨S1, .f32⟩
  | 22 => ⟨S12288, .i32⟩
  | 23 => ⟨S_, .i32⟩
  | 24 => ⟨S12288, .i32⟩
  | 25 => ⟨S12288, .i1⟩
  | 26 => ⟨S_, .i32⟩
  | 27 => ⟨S12288, .i32⟩
  | 28 => ⟨S12288, .i32⟩
  | 29 => ⟨S12288, .i32⟩
  | 30 => ⟨S12288x1, .i32⟩
  | 31 => ⟨S12288x64, .f32⟩
  | 32 => ⟨S_, .i32⟩
  | 33 => ⟨S12288x32, .i32⟩
  | 34 => ⟨S12288x32, .i1⟩
  | 35 => ⟨S_, .i32⟩
  | 36 => ⟨S12288x32, .i32⟩
  | 37 => ⟨S12288x32, .i32⟩
  | 38 => ⟨S12288x32, .i32⟩
  | 39 => ⟨S12288x32x1, .i32⟩
  | 40 => ⟨S12288x32x64, .f32⟩
  | 41 => ⟨S1x4096, .f32⟩
  | 42 => ⟨S3x4096, .f32⟩
  | 43 => ⟨S12288, .f32⟩
  | 44 => ⟨S12288x1, .f32⟩
  | 45 => ⟨S12288x32, .f32⟩
  | 46 => ⟨S12288x32, .f32⟩
  | 47 => ⟨S12288x32x1, .f32⟩
  | 48 => ⟨S1x1x64, .f32⟩
  | 49 => ⟨S12288x32x64, .f32⟩
  | 50 => ⟨S12288x32x64, .f32⟩
  | 51 => ⟨S12288x32x64, .f32⟩
  | 52 => ⟨S1x1x64, .f32⟩
  | 53 => ⟨S12288x32x64, .f32⟩
  | 54 => ⟨S12288x32x64, .f32⟩
  | 55 => ⟨S12288x32x64, .f32⟩
  | 56 => ⟨S12288x32x128, .f32⟩
  | 57 => ⟨S393216x128, .f32⟩
  | 58 => ⟨S393216x128, .f32⟩
  | 59 => ⟨S128x384, .f32⟩
  | 60 => ⟨S393216x384, .f32⟩
  | 61 => ⟨S1x384, .f32⟩
  | 62 => ⟨S393216x384, .f32⟩
  | 63 => ⟨S393216x384, .f32⟩
  | 64 => ⟨S128x384, .f32⟩
  | 65 => ⟨S393216x384, .f32⟩
  | 66 => ⟨S1x384, .f32⟩
  | 67 => ⟨S393216x384, .f32⟩
  | 68 => ⟨S393216x384, .f32⟩
  | 69 => ⟨S393216x128, .f32⟩
  | 70 => ⟨S393216x128, .f32⟩
  | 71 => ⟨S393216x128, .f32⟩
  | 72 => ⟨S393216x128, .f32⟩
  | 73 => ⟨S393216x128, .f32⟩
  | 74 => ⟨S393216x128, .f32⟩
  | 75 => ⟨S393216x128, .f32⟩
  | 76 => ⟨S393216x128, .f32⟩
  | 77 => ⟨S393216x128, .f32⟩
  | 78 => ⟨S_, .f32⟩
  | 79 => ⟨S393216x128, .f32⟩
  | 80 => ⟨S393216x128, .f32⟩
  | 81 => ⟨S_, .f32⟩
  | 82 => ⟨S393216x128, .f32⟩
  | 83 => ⟨S393216x128, .f32⟩
  | 84 => ⟨S393216x128, .f32⟩
  | 85 => ⟨S393216x128, .f32⟩
  | 86 => ⟨S393216x128, .f32⟩
  | 87 => ⟨S_, .f32⟩
  | 88 => ⟨S393216x128, .f32⟩
  | 89 => ⟨S393216x128, .f32⟩
  | 90 => ⟨S_, .f32⟩
  | 91 => ⟨S393216x128, .f32⟩
  | 92 => ⟨S393216x128, .f32⟩
  | 93 => ⟨S393216x128, .f32⟩
  | 94 => ⟨S393216x128, .f32⟩
  | 95 => ⟨S393216x128, .f32⟩
  | 96 => ⟨S_, .f32⟩
  | 97 => ⟨S393216x128, .f32⟩
  | 98 => ⟨S393216x128, .f32⟩
  | 99 => ⟨S393216x128, .f32⟩
  | 100 => ⟨S393216x128, .f32⟩
  | 101 => ⟨S393216x128, .f32⟩
  | 102 => ⟨S12288x32x128, .f32⟩
  | 103 => ⟨S_, .i32⟩
  | 104 => ⟨S12288x32, .i32⟩
  | 105 => ⟨S12288x32, .i1⟩
  | 106 => ⟨S12288x32, .f32⟩
  | 107 => ⟨S12288x32x1, .f32⟩
  | 108 => ⟨S12288x32x128, .f32⟩
  | 109 => ⟨S12288x32x128, .f32⟩
  | 110 => ⟨S_, .f32⟩
  | 111 => ⟨S12288x128, .f32⟩
  | 112 => ⟨S_, .f32⟩
  | 113 => ⟨S12288x1, .f32⟩
  | 114 => ⟨S_, .f32⟩
  | 115 => ⟨S12288x1, .f32⟩
  | 116 => ⟨S12288x1, .f32⟩
  | 117 => ⟨S12288x128, .f32⟩
  | 118 => ⟨S12288x128, .f32⟩
  | 119 => ⟨S12288x192, .f32⟩
  | 120 => ⟨S192x64, .f32⟩
  | 121 => ⟨S12288x64, .f32⟩
  | 122 => ⟨S1x64, .f32⟩
  | 123 => ⟨S12288x64, .f32⟩
  | 124 => ⟨S12288x64, .f32⟩
  | 125 => ⟨S_, .f32⟩
  | 126 => ⟨S12288x64, .f32⟩
  | 127 => ⟨S12288x64, .f32⟩
  | _ => ⟨S4096, .i32⟩

abbrev hbmTy0_1 (i : Nat) : BufTy := match i % 128 with
  | 0 => ⟨S4096x64, .f32⟩
  | 1 => ⟨S4096x64, .f32⟩
  | 2 => ⟨S4096x64, .f32⟩
  | 3 => ⟨S4096x128, .f32⟩
  | 4 => ⟨S128x64, .f32⟩
  | 5 => ⟨S4096x64, .f32⟩
  | 6 => ⟨S1x64, .f32⟩
  | 7 => ⟨S4096x64, .f32⟩
  | 8 => ⟨S4096x64, .f32⟩
  | 9 => ⟨S_, .f32⟩
  | 10 => ⟨S4096x64, .f32⟩
  | 11 => ⟨S4096x64, .f32⟩
  | 12 => ⟨S64x1, .f32⟩
  | 13 => ⟨S4096x1, .f32⟩
  | 14 => ⟨S1x1, .f32⟩
  | 15 => ⟨S4096x1, .f32⟩
  | 16 => ⟨S4096x1, .f32⟩
  | 17 => ⟨S4096x128, .f32⟩
  | 18 => ⟨S128x64, .f32⟩
  | 19 => ⟨S4096x64, .f32⟩
  | 20 => ⟨S1x64, .f32⟩
  | 21 => ⟨S4096x64, .f32⟩
  | 22 => ⟨S4096x64, .f32⟩
  | 23 => ⟨S_, .f32⟩
  | 24 => ⟨S4096x64, .f32⟩
  | 25 => ⟨S4096x64, .f32⟩
  | 26 => ⟨S64x1, .f32⟩
  | 27 => ⟨S4096x1, .f32⟩
  | 28 => ⟨S1x1, .f32⟩
  | 29 => ⟨S4096x1, .f32⟩
  | 30 => ⟨S4096x1, .f32⟩
  | 31 => ⟨S4096x2, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_v53 : Ref sig .tc := ⟨.hbm, 80, rfl⟩
abbrev main_cst_3 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_4 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_6 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_7 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_8 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call0_cst : Ref sig .tc := ⟨.hbm, 125, rfl⟩
abbrev main_call0_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call1_cst : Ref sig .tc := ⟨.hbm, 137, rfl⟩
abbrev main_call1_v0 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call2_cst : Ref sig .tc := ⟨.hbm, 151, rfl⟩
abbrev main_call2_v0 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  concatenates_S4096_S4096_S4096_S12288_d0 : Shape.Concatenates [S4096, S4096, S4096] S12288 0
  bcast_S_S12288 : S_.BroadcastsInDim S12288 (![] : Fin 0 → Fin S12288.rank)
  bcast_S12288_S12288x1_0 : S12288.BroadcastsInDim S12288x1 (![0] : Fin 1 → Fin S12288x1.rank)
  bcast_S_S12288x32 : S_.BroadcastsInDim S12288x32 (![] : Fin 0 → Fin S12288x32.rank)
  bcast_S12288x32_S12288x32x1_0_1 : S12288x32.BroadcastsInDim S12288x32x1 (![0, 1] : Fin 2 → Fin S12288x32x1.rank)
  shapeCasts_S4096_S1x4096 : S4096.ShapeCasts S1x4096
  bcast_S1x4096_S3x4096_0_1 : S1x4096.BroadcastsInDim S3x4096 (![0, 1] : Fin 2 → Fin S3x4096.rank)
  shapeCasts_S3x4096_S12288 : S3x4096.ShapeCasts S12288
  bcast_S12288x1_S12288x32_0_1 : S12288x1.BroadcastsInDim S12288x32 (![0, 1] : Fin 2 → Fin S12288x32.rank)
  bcast_S64_S1x1x64_2 : S64.BroadcastsInDim S1x1x64 (![2] : Fin 1 → Fin S1x1x64.rank)
  bcast_S12288x32x1_S12288x32x64_0_1_2 : S12288x32x1.BroadcastsInDim S12288x32x64 (![0, 1, 2] : Fin 3 → Fin S12288x32x64.rank)
  bcast_S1x1x64_S12288x32x64_0_1_2 : S1x1x64.BroadcastsInDim S12288x32x64 (![0, 1, 2] : Fin 3 → Fin S12288x32x64.rank)
  concatenates_S12288x32x64_S12288x32x64_S12288x32x128_d2 : Shape.Concatenates [S12288x32x64, S12288x32x64] S12288x32x128 2
  shapeCasts_S12288x32x128_S393216x128 : S12288x32x128.ShapeCasts S393216x128
  transposes_S384x128_S128x384_1_0 : S384x128.Transposes [1, 0] S128x384
  bcast_S384_S1x384_1 : S384.BroadcastsInDim S1x384 (![1] : Fin 1 → Fin S1x384.rank)
  bcast_S1x384_S393216x384_0_1 : S1x384.BroadcastsInDim S393216x384 (![0, 1] : Fin 2 → Fin S393216x384.rank)
  slices_S393216x384_S393216x128_0_0 : S393216x384.Slices ![0, 0] S393216x128
  slices_S393216x384_S393216x128_0_128 : S393216x384.Slices ![0, 128] S393216x128
  slices_S393216x384_S393216x128_0_256 : S393216x384.Slices ![0, 256] S393216x128
  bcast_S_S393216x128 : S_.BroadcastsInDim S393216x128 (![] : Fin 0 → Fin S393216x128.rank)
  shapeCasts_S393216x128_S12288x32x128 : S393216x128.ShapeCasts S12288x32x128
  bcast_S12288x32x1_S12288x32x128_0_1_2 : S12288x32x1.BroadcastsInDim S12288x32x128 (![0, 1, 2] : Fin 3 → Fin S12288x32x128.rank)
  reducesTo_S12288x32x128_S12288x128_d1 : S12288x32x128.ReducesTo [1] S12288x128
  h_S_ : 0 < S_.numel
  reducesTo_S12288x32x1_S12288x1_d1 : S12288x32x1.ReducesTo [1] S12288x1
  bcast_S_S12288x1 : S_.BroadcastsInDim S12288x1 (![] : Fin 0 → Fin S12288x1.rank)
  bcast_S12288x1_S12288x128_0_1 : S12288x1.BroadcastsInDim S12288x128 (![0, 1] : Fin 2 → Fin S12288x128.rank)
  concatenates_S12288x64_S12288x128_S12288x192_d1 : Shape.Concatenates [S12288x64, S12288x128] S12288x192 1
  transposes_S64x192_S192x64_1_0 : S64x192.Transposes [1, 0] S192x64
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S_S12288x64 : S_.BroadcastsInDim S12288x64 (![] : Fin 0 → Fin S12288x64.rank)
  slices_S12288x64_S4096x64_0_0 : S12288x64.Slices ![0, 0] S4096x64
  slices_S12288x64_S4096x64_4096_0 : S12288x64.Slices ![4096, 0] S4096x64
  slices_S12288x64_S4096x64_8192_0 : S12288x64.Slices ![8192, 0] S4096x64
  concatenates_S4096x64_S4096x64_S4096x128_d1 : Shape.Concatenates [S4096x64, S4096x64] S4096x128 1
  transposes_S64x128_S128x64_1_0 : S64x128.Transposes [1, 0] S128x64
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  concatenates_S4096x1_S4096x1_S4096x2_d1 : Shape.Concatenates [S4096x1, S4096x1] S4096x2 1
  gather_S500000x64_S12288x1_S12288x64_1_0_n_n_0_1_164_wf : GatherDims.WF S500000x64 S12288x1 S12288x64 [1] [0] [] [0] [] 1 ![1, 64]
  gather_S1000000x64_S12288x32x1_S12288x32x64_2_0_n_n_0_2_164_wf : GatherDims.WF S1000000x64 S12288x32x1 S12288x32x64 [2] [0] [] [0] [] 2 ![1, 64]
  dot_S393216x128_S128x384_S393216x384_1_0_0_1_n_n_wf : DotDims.WF S393216x128 S128x384 S393216x384 [1] [0] [0] [1] [] []
  dot_S12288x192_S192x64_S12288x64_1_0_0_1_n_n_wf : DotDims.WF S12288x192 S192x64 S12288x64 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def gather_S500000x64_S12288x1_S12288x64_1_0_n_n_0_1_164 : GatherDims S500000x64 S12288x1 S12288x64 where
  offsetDims := [1]
  collapsedSliceDims := [0]
  operandBatchingDims := []
  startIndicesBatchingDims := []
  startIndexMap := [0]
  indexVectorDim := 1
  sliceSizes := ![1, 64]
  wf := gather_S500000x64_S12288x1_S12288x64_1_0_n_n_0_1_164_wf
def gather_S1000000x64_S12288x32x1_S12288x32x64_2_0_n_n_0_2_164 : GatherDims S1000000x64 S12288x32x1 S12288x32x64 where
  offsetDims := [2]
  collapsedSliceDims := [0]
  operandBatchingDims := []
  startIndicesBatchingDims := []
  startIndexMap := [0]
  indexVectorDim := 2
  sliceSizes := ![1, 64]
  wf := gather_S1000000x64_S12288x32x1_S12288x32x64_2_0_n_n_0_2_164_wf
def dot_S393216x128_S128x384_S393216x384_1_0_0_1_n_n : DotDims S393216x128 S128x384 S393216x384 where
  lhsContracting := [1]
  rhsContracting := [0]
  lhsNonContracting := [0]
  rhsNonContracting := [1]
  lhsBatch := []
  rhsBatch := []
  wf := dot_S393216x128_S128x384_S393216x384_1_0_0_1_n_n_wf
def dot_S12288x192_S192x64_S12288x64_1_0_0_1_n_n : DotDims S12288x192 S192x64 S12288x64 where
  lhsContracting := [1]
  rhsContracting := [0]
  lhsNonContracting := [0]
  rhsNonContracting := [1]
  lhsBatch := []
  rhsBatch := []
  wf := dot_S12288x192_S192x64_S12288x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.K.Body0.lean ====
/-
  Kernel 0 of the program (`cc0__gru_readout_kernel`) as a function of its input blocks, and its run.

  The body loads every input window's whole block, computes, and stores one whole output block; so what it leaves
  in the output window's buffer is one pure function (`kout0`) of the input blocks, and the inputs' buffers are
  left as found.
-/
import proofs.«401926_j12421045420080_2_alg».proof.Proof.Gen.Kernel.Launch
import proofs.«401926_j12421045420080_2_alg».proof.Proof.Gen.Kernel.Skeleton
import proofs.«401926_j12421045420080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every window's whole block -/

abbrev r0_0 : Rect S128x32x128 := Rect.unit (s := S128x32x128) ![0, 0, 0] S128x32x128.size inb_S128x32x128_S128x32x128_0_0_0
abbrev r0_1 : Rect S128x32x64 := Rect.unit (s := S128x32x64) ![0, 0, 0] S128x32x64.size inb_S128x32x64_S128x32x64_0_0_0
abbrev r0_2 : Rect S128x32 := Rect.unit (s := S128x32) ![0, 0] S128x32.size inb_S128x32_S128x32_0_0
abbrev r0_3 : Rect S128x32 := Rect.unit (s := S128x32) ![0, 0] S128x32.size inb_S128x32_S128x32_0_0
abbrev r0_4 : Rect S128x64 := Rect.unit (s := S128x64) ![0, 0] S128x64.size inb_S128x64_S128x64_0_0
abbrev r0_5 : Rect S128x1 := Rect.unit (s := S128x1) ![0, 0] S128x1.size inb_S128x1_S128x1_0_0
abbrev r0_6 : Rect S1x64 := Rect.unit (s := S1x64) ![0, 0] S1x64.size inb_S1x64_S1x64_0_0
abbrev r0_7 : Rect S1x64 := Rect.unit (s := S1x64) ![0, 0] S1x64.size inb_S1x64_S1x64_0_0
abbrev r0_8 : Rect S256x256 := Rect.unit (s := S256x256) ![0, 0] S256x256.size inb_S256x256_S256x256_0_0
abbrev r0_9 : Rect S128x128 := Rect.unit (s := S128x128) ![0, 0] S128x128.size inb_S128x128_S128x128_0_0
abbrev r0_10 : Rect S128x128 := Rect.unit (s := S128x128) ![0, 0] S128x128.size inb_S128x128_S128x128_0_0
abbrev r0_11 : Rect S1x256 := Rect.unit (s := S1x256) ![0, 0] S1x256.size inb_S1x256_S1x256_0_0
abbrev r0_12 : Rect S1x128 := Rect.unit (s := S1x128) ![0, 0] S1x128.size inb_S1x128_S1x128_0_0
abbrev r0_13 : Rect S1x128 := Rect.unit (s := S1x128) ![0, 0] S1x128.size inb_S1x128_S1x128_0_0
abbrev r0_14 : Rect S64x192 := Rect.unit (s := S64x192) ![0, 0] S64x192.size inb_S64x192_S64x192_0_0
abbrev r0_15 : Rect S1x64 := Rect.unit (s := S1x64) ![0, 0] S1x64.size inb_S1x64_S1x64_0_0
abbrev r0_16 : Rect S128x64 := Rect.unit (s := S128x64) ![0, 0] S128x64.size inb_S128x64_S128x64_0_0

/-! ## The output block as a function of the input blocks -/

/-- The value the body stores, from the values it loads (the windows in the call's operand order). -/
def kout0 (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) : FVec F S128x64 .f32 :=
  k0_pay1 (k0_pay7 (k0_pay2 x5 x2 x6 x7 x1) (k0_pay3 x0) (k0_pay4 x0) (k0_pay5 x5 x2 x6 x7 x1 x0 x8 x11) (k0_pay6 x9) x10 x12 x13 x3) (k0_pay8 x4) x14 x15

/-- What the body leaves in the output window's buffer: its one store, of `kout0` of the loaded blocks. -/
def out0 (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) : Vec F S128x64 .f32 :=
  View.canon [⟨r0_16, kout0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10) (View.ld x11 r0_11) (View.ld x12 r0_12) (View.ld x13 r0_13) (View.ld x14 r0_14) (View.ld x15 r0_15)⟩]

/-- The one store covers the buffer. -/
theorem cover0 (p0 : Vec F S128x64 .f32) (y : S128x64.Idx) :
    ∃ pc ∈ ([⟨r0_16, p0⟩] : List (View.Piece (Elt F) S128x64 .f32)), y ∈ pc.1.set :=
  View.cover_of_tiled [⟨r0_16, p0⟩] S128x64.size (by rfl) y

/-! ## The body's run -/

set_option maxHeartbeats 4000000 in
/-- On whole staging buffers, the inputs' at contents `x0 …` and the output's at anything, the body runs to its
    continuation with the inputs' buffers as they were and the output's at `out0` of the inputs'. -/
theorem sound_kernel0 (c : Dev nD) (E : Set ℕ) (i : grid0.Coords) (arg1 : Memref sig .tc .vmem S128x32x128 .f32) (harg1 : arg1.IsWhole) (arg2 : Memref sig .tc .vmem S128x32x64 .bf16) (harg2 : arg2.IsWhole) (arg3 : Memref sig .tc .vmem S128x32 .f32) (harg3 : arg3.IsWhole) (arg4 : Memref sig .tc .vmem S128x32 .i32) (harg4 : arg4.IsWhole) (arg5 : Memref sig .tc .vmem S128x64 .bf16) (harg5 : arg5.IsWhole) (arg6 : Memref sig .tc .vmem S128x1 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S256x256 .bf16) (harg9 : arg9.IsWhole) (arg10 : Memref sig .tc .vmem S128x128 .bf16) (harg10 : arg10.IsWhole) (arg11 : Memref sig .tc .vmem S128x128 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S64x192 .bf16) (harg15 : arg15.IsWhole) (arg16 : Memref sig .tc .vmem S1x64 .f32) (harg16 : arg16.IsWhole) (arg17 : Memref sig .tc .vmem S128x64 .f32) (harg17 : arg17.IsWhole)
    (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0 x0 x1 x2 x3 x4 x5 x6 x7 x8 x9 x10 x11 x12 x13 x14 x15)) -∗ K ⟨⟩))
      ⊢ wp frame (wpE (defs₀ (F := F)) Variants.none c none) E (cc0__gru_readout_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gru_readout_kernel_eq_skeleton]; unfold cc0__gru_readout_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover0 _)

end Cert.Kernel.Hand

end
-- ==== Proof.K.Body1.lean ====
/-
  Kernel 1 of the program (`cc1__merge_kernel`) as a function of its input blocks, and its run.

  The body loads every input window's whole block, computes, and stores one whole output block; so what it leaves
  in the output window's buffer is one pure function (`kout1`) of the input blocks, and the inputs' buffers are
  left as found.
-/
import proofs.«401926_j12421045420080_2_alg».proof.Proof.Gen.Kernel.Launch
import proofs.«401926_j12421045420080_2_alg».proof.Proof.Gen.Kernel.Skeleton
import proofs.«401926_j12421045420080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every window's whole block -/

abbrev r1_0 : Rect S1024x64 := Rect.unit (s := S1024x64) ![0, 0] S1024x64.size inb_S1024x64_S1024x64_0_0
abbrev r1_1 : Rect S1024x64 := Rect.unit (s := S1024x64) ![0, 0] S1024x64.size inb_S1024x64_S1024x64_0_0
abbrev r1_2 : Rect S1024x64 := Rect.unit (s := S1024x64) ![0, 0] S1024x64.size inb_S1024x64_S1024x64_0_0
abbrev r1_3 : Rect S64x128 := Rect.unit (s := S64x128) ![0, 0] S64x128.size inb_S64x128_S64x128_0_0
abbrev r1_4 : Rect S1x64 := Rect.unit (s := S1x64) ![0, 0] S1x64.size inb_S1x64_S1x64_0_0
abbrev r1_5 : Rect S1x64 := Rect.unit (s := S1x64) ![0, 0] S1x64.size inb_S1x64_S1x64_0_0
abbrev r1_6 : Rect S1x1 := Rect.unit (s := S1x1) ![0, 0] S1x1.size inb_S1x1_S1x1_0_0
abbrev r1_7 : Rect S1024x2 := Rect.unit (s := S1024x2) ![0, 0] S1024x2.size inb_S1024x2_S1024x2_0_0

/-! ## The output block as a function of the input blocks -/

/-- The value the body stores, from the values it loads (the windows in the call's operand order). -/
def kout1 (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) : FVec F S1024x2 .f32 :=
  k1_pay1 (k1_pay7 x0 x1 x3 x4 x5 x6) (k1_pay8 x0 x2 x3 x4 x5) (k1_pay9 x6)

/-- What the body leaves in the output window's buffer: its one store, of `kout1` of the loaded blocks. -/
def out1 (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) : Vec F S1024x2 .f32 :=
  View.canon [⟨r1_7, kout1 (View.ld x0 r1_0) (View.ld x1 r1_1) (View.ld x2 r1_2) (View.ld x3 r1_3) (View.ld x4 r1_4) (View.ld x5 r1_5) (View.ld x6 r1_6)⟩]

/-- The one store covers the buffer. -/
theorem cover1 (p0 : Vec F S1024x2 .f32) (y : S1024x2.Idx) :
    ∃ pc ∈ ([⟨r1_7, p0⟩] : List (View.Piece (Elt F) S1024x2 .f32)), y ∈ pc.1.set :=
  View.cover_of_tiled [⟨r1_7, p0⟩] S1024x2.size (by rfl) y

/-! ## The body's run -/

set_option maxHeartbeats 4000000 in
/-- On whole staging buffers, the inputs' at contents `x0 …` and the output's at anything, the body runs to its
    continuation with the inputs' buffers as they were and the output's at `out1` of the inputs'. -/
theorem sound_kernel1 (c : Dev nD) (E : Set ℕ) (i : grid1.Coords) (arg1 : Memref sig .tc .vmem S1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S64x128 .bf16) (harg4 : arg4.IsWhole) (arg5 : Memref sig .tc .vmem S1x64 .f32) (harg5 : arg5.IsWhole) (arg6 : Memref sig .tc .vmem S1x64 .bf16) (harg6 : arg6.IsWhole) (arg7 : Memref sig .tc .vmem S1x1 .f32) (harg7 : arg7.IsWhole) (arg8 : Memref sig .tc .vmem S1024x2 .f32) (harg8 : arg8.IsWhole)
    (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1 x0 x1 x2 x3 x4 x5 x6)) -∗ K ⟨⟩))
      ⊢ wp frame (wpE (defs₀ (F := F)) Variants.none c none) E (cc1__merge_kernel i arg1 harg1 arg2 harg2 arg3 harg3 arg4 harg4 arg5 harg5 arg6 harg6 arg7 harg7 arg8 harg8) K := by
  simp only [cc1__merge_kernel_eq_skeleton]; unfold cc1__merge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1 _)

end Cert.Kernel.Hand

end
-- ==== Proof.K.Data.lean ====
/-
  The two pipelines' proof data, each at a PARAMETER `V` — the buffer contents when its region is entered —, and
  the body obligations: at every grid point the body is handed its input windows' blocks and leaves the output
  window's buffer at the body's function of them.
-/
import proofs.«401926_j12421045420080_2_alg».proof.Proof.K.Body0
import proofs.«401926_j12421045420080_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the pipeline's proof data at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched window's
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input's buffer at its block and the
    output's at the body's function of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨_ + 17, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the pipeline's proof data at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: an unfetched window's
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block and the
    output's at the body's function of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The program's run. Its two kernel regions as segments over the thread state "every unscoped buffer at the
  boundary's contents, the generator register at some state, nothing owed", and the launch.

  What a region leaves in the one buffer it may change is chosen here: its output window's array after all the
  write-backs. Region 0's entry contents are the launch contents pushed through the host operations before it; its
  result array enters the contents region 1 is entered from, so region 1's proof data are stated at contents that
  already name region 0's result. An input window's array is never written, so at a region's exit every array but
  the output's is as at entry.
-/
import proofs.«401926_j12421045420080_2_alg».proof.Proof.K.Data
import proofs.«401926_j12421045420080_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Region 0's entry contents: the launch contents after the host operations before it. -/
abbrev Vin0 : (c : Dev nD) → (b : Ref sig .tc) → Buf (Elt F) ((c : Thread nD τ).loc b) := fun c b => Gen.V5 m c b

/-- Region 0's exit contents as a whole: its arrays at what the write-backs leave, every other buffer as entered. -/
def Wout0 (c : Dev nD) : Valuation τ sig (Elt F) :=
  Pipeline.withArrays spec0 c (Gen.V5 m c) fun w => (dat0 (Vin0 m) c).arrAt w cfg0.N

/-- The regions' results when only region 0 has run: every buffer read off region 0's exit contents. -/
def outsA : Gen.Outs (F := F) := fun _ r c => Wout0 m c (Proc.devRef .tc r)

/-- Region 1's entry contents, over region 0's result alone. -/
abbrev Vmid : (c : Dev nD) → (b : Ref sig .tc) → Buf (Elt F) ((c : Thread nD τ).loc b) := fun c b => Gen.V7 m (outsA m) c b

/-- Region 1's exit contents as a whole. -/
def Wout1 (c : Dev nD) : Valuation τ sig (Elt F) :=
  Pipeline.withArrays spec1 c (Gen.V7 m (outsA m) c) fun w => (dat1 (Vmid m) c).arrAt w cfg1.N

/-- What the two regions leave: up to region 0's exit its exit contents, after it region 1's. -/
def outsOf : Gen.Outs (F := F) := fun J r c => if J ≤ 6 then outsA m J r c else Wout1 m c (Proc.devRef .tc r)

/-- Region 1's entry contents. -/
abbrev Vin1 : (c : Dev nD) → (b : Ref sig .tc) → Buf (Elt F) ((c : Thread nD τ).loc b) := fun c b => Gen.V7 m (outsOf m) c b

/-- Region 0's exit contents, read at the TensorCore's references. -/
abbrev Vout0 : (c : Dev nD) → (b : Ref sig .tc) → Buf (Elt F) ((c : Thread nD τ).loc b) := fun c b => Gen.V6 m (outsOf m) c b
/-- Region 1's exit contents, read at the TensorCore's references. -/
abbrev Vout1 : (c : Dev nD) → (b : Ref sig .tc) → Buf (Elt F) ((c : Thread nD τ).loc b) := fun c b => Gen.V8 m (outsOf m) c b

/-- Region 0 leaves its output window's array after all the write-backs. -/
theorem outsOf_6 (c : Dev nD) : outsOf m 6 main_v29 c = (dat0 (Vin0 m) c).arrAt 16 cfg0.N := by
  unfold outsOf; rw [if_pos (by decide)]
  unfold outsA Wout0; exact Pipeline.withArrays_arr spec0 launch0.win.arr_inj c _ _ 16

/-- The contents region 1 is entered from read only region 0's result. -/
theorem V7_outsOf (c : Dev nD) : Gen.V7 m (outsOf m) c = Gen.V7 m (outsA m) c := by
  show StableHlo.after hostOps1 (Function.update (Gen.V5 m c) _ (outsOf m 6 main_v29 c))
    = StableHlo.after hostOps1 (Function.update (Gen.V5 m c) _ (outsA m 6 main_v29 c))
  rw [show outsOf m 6 main_v29 c = outsA m 6 main_v29 c from if_pos (by decide)]

theorem Vin1_eq : Vin1 m = Vmid m :=
  funext fun c => funext fun b => congrFun (V7_outsOf m c) (Proc.devRef .tc b)

/-- Region 1 leaves its output window's array after all the write-backs. -/
theorem outsOf_8 (c : Dev nD) : outsOf m 8 main_v37 c = (dat1 (Vin1 m) c).arrAt 7 cfg1.N := by
  rw [Vin1_eq m]
  unfold outsOf; rw [if_neg (by decide)]
  unfold Wout1; exact Pipeline.withArrays_arr spec1 launch1.win.arr_inj c _ _ 7

/-- Region 0's result, under the name the composition cites. -/
theorem outsOf_emb (c : Dev nD) : outsOf m 6 main_v29 c = (dat0 (Vin0 m) c).arrAt 16 cfg0.N := outsOf_6 m c

/-- Region 1 finds region 0's result array: no host operation between the regions writes it. -/
theorem Vin1_emb (c : Dev nD) : Vin1 m c main_v29 = (dat0 (Vin0 m) c).arrAt 16 cfg0.N :=
  (Gen.V7_of m (outsOf m) c main_v29 (by decide)).trans ((Function.update_self _ _ _).trans (outsOf_6 m c))

/-! ## At a region's exit: the arrays at what the pipeline leaves, every other buffer as entered -/

/-- Every window of region 0 but the last is an input. -/
theorem isIn0 : ∀ w : Fin cfg0.W, w ≠ 16 → (cfg0.win w).isOut = false := by decide
/-- Every window of region 1 but the last is an input. -/
theorem isIn1 : ∀ w : Fin cfg1.W, w ≠ 7 → (cfg1.win w).isOut = false := by decide

theorem hF0 (c : Dev nD) (w : Fin cfg0.W) : (dat0 (Vin0 m) c).arrAt w cfg0.N = Vout0 m c (Pipeline.arrRef spec0 w) := by
  by_cases hw : w = 16
  · subst hw
    exact ((Function.update_self _ _ _ : Vout0 m c (Pipeline.arrRef spec0 16) = outsOf m 6 main_v29 c).trans (outsOf_6 m c)).symm
  · have hne : Pipeline.arrRef spec0 w ≠ main_v29 := fun e => hw (launch0.win.arr_inj e)
    rw [show Vout0 m c (Pipeline.arrRef spec0 w) = Vin0 m c (Pipeline.arrRef spec0 w) from
      Gen.V6_of m (outsOf m) c _ fun h => hne (List.mem_singleton.mp h)]
    exact ((dat0 (Vin0 m) c).arrAt_in w (isIn0 w hw) _).trans (A_eq0 (Vin0 m) c w)
theorem hrest0 (c : Dev nD) : ∀ b, b ∉ Finset.univ.image (Pipeline.arrRef spec0) → Vout0 m c b = Vin0 m c b :=
  fun b hb => Gen.V6_of m (outsOf m) c b fun h =>
    hb (Finset.mem_image.mpr ⟨16, Finset.mem_univ _, (List.mem_singleton.mp h).symm⟩)

theorem hF1 (c : Dev nD) (w : Fin cfg1.W) : (dat1 (Vin1 m) c).arrAt w cfg1.N = Vout1 m c (Pipeline.arrRef spec1 w) := by
  by_cases hw : w = 7
  · subst hw
    exact ((Function.update_self _ _ _ : Vout1 m c (Pipeline.arrRef spec1 7) = outsOf m 8 main_v37 c).trans (outsOf_8 m c)).symm
  · have hne : Pipeline.arrRef spec1 w ≠ main_v37 := fun e => hw (launch1.win.arr_inj e)
    rw [show Vout1 m c (Pipeline.arrRef spec1 w) = Vin1 m c (Pipeline.arrRef spec1 w) from
      Gen.V8_of m (outsOf m) c _ fun h => hne (List.mem_singleton.mp h)]
    exact ((dat1 (Vin1 m) c).arrAt_in w (isIn1 w hw) _).trans (A_eq1 (Vin1 m) c w)
theorem hrest1 (c : Dev nD) : ∀ b, b ∉ Finset.univ.image (Pipeline.arrRef spec1) → Vout1 m c b = Vin1 m c b :=
  fun b hb => Gen.V8_of m (outsOf m) c b fun h =>
    hb (Finset.mem_image.mpr ⟨7, Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev Rest (c : Dev nD) : sProp 𝕄 := iprop((∃ r, prngReg c r) ∗ ∃ W, owes (c : Thread nD τ) (0 : CellTallies nD τ sig Unit) W)
/-- The same rest at every boundary. -/
abbrev Erest : Fin 3 → Dev nD → sProp 𝕄 := fun _ c => Rest c

/-! ## The regions as segments -/

-- a library lemma stated over a pinned configuration unifies with the printed one only when unification may
-- unfold plain definitions in a metavariable's type
set_option backward.isDefEq.respectTransparency.types false in
/-- Region 0 over the thread state: entered from every unscoped buffer at its entry contents, left at its exit
    contents. Its arrays are split out of the unscoped buffers and put back at what the write-backs leave; the
    generator register goes into the pipeline's invariant and comes back; nothing is owed; the kernel has no
    semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V5 m c) ∗ Rest c)
  post c := iprop(StableHlo.held (c : Thread nD τ) (Pipeline.ucRefs τ sig) (Gen.V6 m (outsOf m) c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 1 over the thread state: entered from every unscoped buffer at its entry contents, left at its exit
    contents. Its arrays are split out of the unscoped buffers and put back at what the write-backs leave; the
    generator register goes into the pipeline's invariant and comes back; nothing is owed; the kernel has no
    semaphore of its own. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (Gen.V7 m (outsOf m) c) ∗ Rest c)
  post c := iprop(StableHlo.held (c : Thread nD τ) (Pipeline.ucRefs τ sig) (Gen.V8 m (outsOf m) c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipelines' own; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest ends owing nothing. -/
theorem hE2 (c : Dev nD) : Erest (F := F) 2 c ⊢ (iprop(∃ W, owes (c : Thread nD τ) (0 : CellTallies nD τ sig Unit) W) : sProp 𝕄) := by
  iintro ⟨-, H⟩; iexact H

-- the frame's implicit arguments are found by unifying its conclusion with this one, which takes unfolding plain
-- definitions in a metavariable's type
set_option backward.isDefEq.respectTransparency.types false in
/-- From any memory with zero counters every weakly fair execution of the program terminates and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Gen.frame_cond m (EP := emb₁) (ι := ()) (𝒱₀ := 𝒱z) (L := Lz) (lv := lvz) (hL := fun _ _ => rfl) (ρ := ρ) (outs := outsOf m)
    (pdats := pdats m) (O₀ := 0) (G := fun _ => iprop(emp))
    (u₀ := initOf (Pipeline.cells cfgs cellOf_inj) (Pipeline.launchToks cfgs cellOf_inj)) (hu₀ := hu₀)
    (E := Erest)
    (hE0 := by
      refine Pipeline.initEach Lz lvz fun c => ?_
      iintro ⟨⟨-, HO, -, Hp, -⟩, -⟩
      imodintro
      isplitl [Hp]; · iexists _; iexact Hp
      iexists ∅; iexact HO)
    (hE2 := hE2)
    (R0 := reg0 m) (hpre0 := fun _ => .rfl) (hpost0 := fun _ => .rfl)
    (R1 := reg1 m) (hpre1 := fun _ => .rfl) (hpost1 := fun _ => .rfl)

set_option backward.isDefEq.respectTransparency.types false in
/-- The same run read at the result too: the final memory holds, in the program's result buffer, region 1's output
    window's array after all its write-backs. -/
theorem run_value : θ_run defs (onTc (τ := τ) (main (F := F))) ⟨m, fun _ => 0, ρ⟩ (fun r => ∀ c : Dev nD,
      r.2.mem ((c.tc : Thread nD τ).loc main_v37) = (dat1 (Vin1 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm (pdats m) () cellOf_inj emb₁ defs₀ 𝒱z Lz lvz m ρ main
    (Gen.segs m (outsOf m) 𝒱z Lz lvz Erest () (pdats m) (reg0 m) (reg1 m))
    (fun c Q => by
      rewrite [main_chain c, Pipeline.Seg.run_eq_chain,
        show (Gen.segs m (outsOf m) 𝒱z Lz lvz Erest () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ Erest 0 c))
    (Tₙ := fun c => StableHlo.held (c : Thread nD τ) (Pipeline.ucRefs τ sig) (Gen.V8 m (outsOf m) c))
    (hch := fun c => ⟨.rfl, .rfl, .rfl, .rfl, .rfl, .rfl, .rfl, .rfl, sep_mono .rfl (hE2 c)⟩)
    (hinit := ?_) (QY := fun c s => s.mem ((c.tc : Thread nD τ).loc main_v37) = (dat1 (Vin1 m) c).arrAt 7 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are held at the launch contents; the generator register and the dues make the rest
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (Gen.V8 m (outsOf m) c) s') $$ [Hh HSI]
    · isplitl [Hh] <;> iassumption
    icases Hr with ⟨%h, HSI⟩
    imodintro
    isplitr
    · ipureintro
      exact ⟨(h (Proc.devRef .tc main_v37) (Finset.mem_filter.mpr ⟨StableHlo.devRef_mem_tcRefs main_v37, by decide⟩)).trans
          ((Function.update_self _ _ _).trans (outsOf_8 m c)),
        (h (Proc.devRef .tc main_arg0) (Finset.mem_filter.mpr ⟨StableHlo.devRef_mem_tcRefs main_arg0, by decide⟩)).trans (Gen.V8_main_arg0 m (outsOf m) c),
        (h (Proc.devRef .tc main_arg1) (Finset.mem_filter.mpr ⟨StableHlo.devRef_mem_tcRefs main_arg1, by decide⟩)).trans (Gen.V8_main_arg1 m (outsOf m) c),
        (h (Proc.devRef .tc main_arg2) (Finset.mem_filter.mpr ⟨StableHlo.devRef_mem_tcRefs main_arg2, by decide⟩)).trans (Gen.V8_main_arg2 m (outsOf m) c),
        (h (Proc.devRef .tc main_arg3) (Finset.mem_filter.mpr ⟨StableHlo.devRef_mem_tcRefs main_arg3, by decide⟩)).trans (Gen.V8_main_arg3 m (outsOf m) c),
        (h (Proc.devRef .tc main_arg4) (Finset.mem_filter.mpr ⟨StableHlo.devRef_mem_tcRefs main_arg4, by decide⟩)).trans (Gen.V8_main_arg4 m (outsOf m) c),
        (h (Proc.devRef .tc main_arg5) (Finset.mem_filter.mpr ⟨StableHlo.devRef_mem_tcRefs main_arg5, by decide⟩)).trans (Gen.V8_main_arg5 m (outsOf m) c),
        (h (Proc.devRef .tc main_arg6) (Finset.mem_filter.mpr ⟨StableHlo.devRef_mem_tcRefs main_arg6, by decide⟩)).trans (Gen.V8_main_arg6 m (outsOf m) c),
        (h (Proc.devRef .tc main_arg7) (Finset.mem_filter.mpr ⟨StableHlo.devRef_mem_tcRefs main_arg7, by decide⟩)).trans (Gen.V8_main_arg7 m (outsOf m) c),
        (h (Proc.devRef .tc main_arg8) (Finset.mem_filter.mpr ⟨StableHlo.devRef_mem_tcRefs main_arg8, by decide⟩)).trans (Gen.V8_main_arg8 m (outsOf m) c),
        (h (Proc.devRef .tc main_arg9) (Finset.mem_filter.mpr ⟨StableHlo.devRef_mem_tcRefs main_arg9, by decide⟩)).trans (Gen.V8_main_arg9 m (outsOf m) c),
        (h (Proc.devRef .tc main_arg10) (Finset.mem_filter.mpr ⟨StableHlo.devRef_mem_tcRefs main_arg10, by decide⟩)).trans (Gen.V8_main_arg10 m (outsOf m) c),
        (h (Proc.devRef .tc main_arg11) (Finset.mem_filter.mpr ⟨StableHlo.devRef_mem_tcRefs main_arg11, by decide⟩)).trans (Gen.V8_main_arg11 m (outsOf m) c),
        (h (Proc.devRef .tc main_arg12) (Finset.mem_filter.mpr ⟨StableHlo.devRef_mem_tcRefs main_arg12, by decide⟩)).trans (Gen.V8_main_arg12 m (outsOf m) c),
        (h (Proc.devRef .tc main_arg13) (Finset.mem_filter.mpr ⟨StableHlo.devRef_mem_tcRefs main_arg13, by decide⟩)).trans (Gen.V8_main_arg13 m (outsOf m) c),
        (h (Proc.devRef .tc main_arg14) (Finset.mem_filter.mpr ⟨StableHlo.devRef_mem_tcRefs main_arg14, by decide⟩)).trans (Gen.V8_main_arg14 m (outsOf m) c),
        (h (Proc.devRef .tc main_arg15) (Finset.mem_filter.mpr ⟨StableHlo.devRef_mem_tcRefs main_arg15, by decide⟩)).trans (Gen.V8_main_arg15 m (outsOf m) c),
        (h (Proc.devRef .tc main_arg16) (Finset.mem_filter.mpr ⟨StableHlo.devRef_mem_tcRefs main_arg16, by decide⟩)).trans (Gen.V8_main_arg16 m (outsOf m) c),
        (h (Proc.devRef .tc main_arg17) (Finset.mem_filter.mpr ⟨StableHlo.devRef_mem_tcRefs main_arg17, by decide⟩)).trans (Gen.V8_main_arg17 m (outsOf m) c),
        (h (Proc.devRef .tc main_arg18) (Finset.mem_filter.mpr ⟨StableHlo.devRef_mem_tcRefs main_arg18, by decide⟩)).trans (Gen.V8_main_arg18 m (outsOf m) c),
        (h (Proc.devRef .tc main_arg19) (Finset.mem_filter.mpr ⟨StableHlo.devRef_mem_tcRefs main_arg19, by decide⟩)).trans (Gen.V8_main_arg19 m (outsOf m) c),
        (h (Proc.devRef .tc main_arg20) (Finset.mem_filter.mpr ⟨StableHlo.devRef_mem_tcRefs main_arg20, by decide⟩)).trans (Gen.V8_main_arg20 m (outsOf m) c),
        (h (Proc.devRef .tc main_arg21) (Finset.mem_filter.mpr ⟨StableHlo.devRef_mem_tcRefs main_arg21, by decide⟩)).trans (Gen.V8_main_arg21 m (outsOf m) c)⟩
    · iexact HSI

end Cert.Kernel.Hand

end
-- ==== Proof.KI.Body0.lean ====
/-
  Kernel 0 of the program (`cc0__gru_readout_kernel`) as a function of its input blocks, and its run.

  The body loads every input window's whole block, computes, and stores one whole output block; so what it leaves
  in the output window's buffer is one pure function (`kout0`) of the input blocks, and the inputs' buffers are
  left as found.
-/
import proofs.«401926_j12421045420080_2_alg».proof.Proof.Gen.KernelIdeal.Launch
import proofs.«401926_j12421045420080_2_alg».proof.Proof.Gen.KernelIdeal.Skeleton
import proofs.«401926_j12421045420080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every window's whole block -/

abbrev r0_0 : Rect S128x32x128 := Rect.unit (s := S128x32x128) ![0, 0, 0] S128x32x128.size inb_S128x32x128_S128x32x128_0_0_0
abbrev r0_1 : Rect S128x32x64 := Rect.unit (s := S128x32x64) ![0, 0, 0] S128x32x64.size inb_S128x32x64_S128x32x64_0_0_0
abbrev r0_2 : Rect S128x32 := Rect.unit (s := S128x32) ![0, 0] S128x32.size inb_S128x32_S128x32_0_0
abbrev r0_3 : Rect S128x32 := Rect.unit (s := S128x32) ![0, 0] S128x32.size inb_S128x32_S128x32_0_0
abbrev r0_4 : Rect S128x64 := Rect.unit (s := S128x64) ![0, 0] S128x64.size inb_S128x64_S128x64_0_0
abbrev r0_5 : Rect S128x1 := Rect.unit (s := S128x1) ![0, 0] S128x1.size inb_S128x1_S128x1_0_0
abbrev r0_6 : Rect S1x64 := Rect.unit (s := S1x64) ![0, 0] S1x64.size inb_S1x64_S1x64_0_0
abbrev r0_7 : Rect S1x64 := Rect.unit (s := S1x64) ![0, 0] S1x64.size inb_S1x64_S1x64_0_0
abbrev r0_8 : Rect S256x256 := Rect.unit (s := S256x256) ![0, 0] S256x256.size inb_S256x256_S256x256_0_0
abbrev r0_9 : Rect S128x128 := Rect.unit (s := S128x128) ![0, 0] S128x128.size inb_S128x128_S128x128_0_0
abbrev r0_10 : Rect S128x128 := Rect.unit (s := S128x128) ![0, 0] S128x128.size inb_S128x128_S128x128_0_0
abbrev r0_11 : Rect S1x256 := Rect.unit (s := S1x256) ![0, 0] S1x256.size inb_S1x256_S1x256_0_0
abbrev r0_12 : Rect S1x128 := Rect.unit (s := S1x128) ![0, 0] S1x128.size inb_S1x128_S1x128_0_0
abbrev r0_13 : Rect S1x128 := Rect.unit (s := S1x128) ![0, 0] S1x128.size inb_S1x128_S1x128_0_0
abbrev r0_14 : Rect S64x192 := Rect.unit (s := S64x192) ![0, 0] S64x192.size inb_S64x192_S64x192_0_0
abbrev r0_15 : Rect S1x64 := Rect.unit (s := S1x64) ![0, 0] S1x64.size inb_S1x64_S1x64_0_0
abbrev r0_16 : Rect S128x64 := Rect.unit (s := S128x64) ![0, 0] S128x64.size inb_S128x64_S128x64_0_0

/-! ## The output block as a function of the input blocks -/

/-- The value the body stores, from the values it loads (the windows in the call's operand order). -/
def kout0 (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) : FVec F S128x64 .f32 :=
  k0_pay1 (k0_pay7 (k0_pay2 x5 x2 x6 x7 x1) (k0_pay3 x0) (k0_pay4 x0) (k0_pay5 x5 x2 x6 x7 x1 x0 x8 x11) (k0_pay6 x9) x10 x12 x13 x3) (k0_pay8 x4) x14 x15

/-- What the body leaves in the output window's buffer: its one store, of `kout0` of the loaded blocks. -/
def out0 (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) : Vec F S128x64 .f32 :=
  View.canon [⟨r0_16, kout0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10) (View.ld x11 r0_11) (View.ld x12 r0_12) (View.ld x13 r0_13) (View.ld x14 r0_14) (View.ld x15 r0_15)⟩]

/-- The one store covers the buffer. -/
theorem cover0 (p0 : Vec F S128x64 .f32) (y : S128x64.Idx) :
    ∃ pc ∈ ([⟨r0_16, p0⟩] : List (View.Piece (Elt F) S128x64 .f32)), y ∈ pc.1.set :=
  View.cover_of_tiled [⟨r0_16, p0⟩] S128x64.size (by rfl) y

/-! ## The body's run -/

set_option maxHeartbeats 4000000 in
/-- On whole staging buffers, the inputs' at contents `x0 …` and the output's at anything, the body runs to its
    continuation with the inputs' buffers as they were and the output's at `out0` of the inputs'. -/
theorem sound_kernel0 (c : Dev nD) (E : Set ℕ) (i : grid0.Coords) (arg1 : Memref sig .tc .vmem S128x32x128 .f32) (harg1 : arg1.IsWhole) (arg2 : Memref sig .tc .vmem S128x32x64 .bf16) (harg2 : arg2.IsWhole) (arg3 : Memref sig .tc .vmem S128x32 .f32) (harg3 : arg3.IsWhole) (arg4 : Memref sig .tc .vmem S128x32 .i32) (harg4 : arg4.IsWhole) (arg5 : Memref sig .tc .vmem S128x64 .bf16) (harg5 : arg5.IsWhole) (arg6 : Memref sig .tc .vmem S128x1 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S256x256 .bf16) (harg9 : arg9.IsWhole) (arg10 : Memref sig .tc .vmem S128x128 .bf16) (harg10 : arg10.IsWhole) (arg11 : Memref sig .tc .vmem S128x128 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S64x192 .bf16) (harg15 : arg15.IsWhole) (arg16 : Memref sig .tc .vmem S1x64 .f32) (harg16 : arg16.IsWhole) (arg17 : Memref sig .tc .vmem S128x64 .f32) (harg17 : arg17.IsWhole)
    (x0 : Vec F S128x32x128 .f32) (x1 : Vec F S128x32x64 .bf16) (x2 : Vec F S128x32 .f32) (x3 : Vec F S128x32 .i32) (x4 : Vec F S128x64 .bf16) (x5 : Vec F S128x1 .f32) (x6 : Vec F S1x64 .f32) (x7 : Vec F S1x64 .f32) (x8 : Vec F S256x256 .bf16) (x9 : Vec F S128x128 .bf16) (x10 : Vec F S128x128 .bf16) (x11 : Vec F S1x256 .f32) (x12 : Vec F S1x128 .f32) (x13 : Vec F S1x128 .f32) (x14 : Vec F S64x192 .bf16) (x15 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0 x0 x1 x2 x3 x4 x5 x6 x7 x8 x9 x10 x11 x12 x13 x14 x15)) -∗ K ⟨⟩))
      ⊢ wp frame (wpE (defs₀ (F := F)) Variants.none c none) E (cc0__gru_readout_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gru_readout_kernel_eq_skeleton]; unfold cc0__gru_readout_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover0 _)

end Cert.KernelIdeal.Hand

end
-- ==== Proof.KI.Body1.lean ====
/-
  Kernel 1 of the program (`cc1__merge_kernel`) as a function of its input blocks, and its run.

  The body loads every input window's whole block, computes, and stores one whole output block; so what it leaves
  in the output window's buffer is one pure function (`kout1`) of the input blocks, and the inputs' buffers are
  left as found.
-/
import proofs.«401926_j12421045420080_2_alg».proof.Proof.Gen.KernelIdeal.Launch
import proofs.«401926_j12421045420080_2_alg».proof.Proof.Gen.KernelIdeal.Skeleton
import proofs.«401926_j12421045420080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every window's whole block -/

abbrev r1_0 : Rect S1024x64 := Rect.unit (s := S1024x64) ![0, 0] S1024x64.size inb_S1024x64_S1024x64_0_0
abbrev r1_1 : Rect S1024x64 := Rect.unit (s := S1024x64) ![0, 0] S1024x64.size inb_S1024x64_S1024x64_0_0
abbrev r1_2 : Rect S1024x64 := Rect.unit (s := S1024x64) ![0, 0] S1024x64.size inb_S1024x64_S1024x64_0_0
abbrev r1_3 : Rect S64x128 := Rect.unit (s := S64x128) ![0, 0] S64x128.size inb_S64x128_S64x128_0_0
abbrev r1_4 : Rect S1x64 := Rect.unit (s := S1x64) ![0, 0] S1x64.size inb_S1x64_S1x64_0_0
abbrev r1_5 : Rect S1x64 := Rect.unit (s := S1x64) ![0, 0] S1x64.size inb_S1x64_S1x64_0_0
abbrev r1_6 : Rect S1x1 := Rect.unit (s := S1x1) ![0, 0] S1x1.size inb_S1x1_S1x1_0_0
abbrev r1_7 : Rect S1024x2 := Rect.unit (s := S1024x2) ![0, 0] S1024x2.size inb_S1024x2_S1024x2_0_0

/-! ## The output block as a function of the input blocks -/

/-- The value the body stores, from the values it loads (the windows in the call's operand order). -/
def kout1 (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) : FVec F S1024x2 .f32 :=
  k1_pay1 (k1_pay7 x0 x1 x3 x4 x5 x6) (k1_pay8 x0 x2 x3 x4 x5) (k1_pay9 x6)

/-- What the body leaves in the output window's buffer: its one store, of `kout1` of the loaded blocks. -/
def out1 (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) : Vec F S1024x2 .f32 :=
  View.canon [⟨r1_7, kout1 (View.ld x0 r1_0) (View.ld x1 r1_1) (View.ld x2 r1_2) (View.ld x3 r1_3) (View.ld x4 r1_4) (View.ld x5 r1_5) (View.ld x6 r1_6)⟩]

/-- The one store covers the buffer. -/
theorem cover1 (p0 : Vec F S1024x2 .f32) (y : S1024x2.Idx) :
    ∃ pc ∈ ([⟨r1_7, p0⟩] : List (View.Piece (Elt F) S1024x2 .f32)), y ∈ pc.1.set :=
  View.cover_of_tiled [⟨r1_7, p0⟩] S1024x2.size (by rfl) y

/-! ## The body's run -/

set_option maxHeartbeats 4000000 in
/-- On whole staging buffers, the inputs' at contents `x0 …` and the output's at anything, the body runs to its
    continuation with the inputs' buffers as they were and the output's at `out1` of the inputs'. -/
theorem sound_kernel1 (c : Dev nD) (E : Set ℕ) (i : grid1.Coords) (arg1 : Memref sig .tc .vmem S1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S64x128 .bf16) (harg4 : arg4.IsWhole) (arg5 : Memref sig .tc .vmem S1x64 .f32) (harg5 : arg5.IsWhole) (arg6 : Memref sig .tc .vmem S1x64 .bf16) (harg6 : arg6.IsWhole) (arg7 : Memref sig .tc .vmem S1x1 .f32) (harg7 : arg7.IsWhole) (arg8 : Memref sig .tc .vmem S1024x2 .f32) (harg8 : arg8.IsWhole)
    (x0 : Vec F S1024x64 .f32) (x1 : Vec F S1024x64 .f32) (x2 : Vec F S1024x64 .f32) (x3 : Vec F S64x128 .bf16) (x4 : Vec F S1x64 .f32) (x5 : Vec F S1x64 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1 x0 x1 x2 x3 x4 x5 x6)) -∗ K ⟨⟩))
      ⊢ wp frame (wpE (defs₀ (F := F)) Variants.none c none) E (cc1__merge_kernel i arg1 harg1 arg2 harg2 arg3 harg3 arg4 harg4 arg5 harg5 arg6 harg6 arg7 harg7 arg8 harg8) K := by
  simp only [cc1__merge_kernel_eq_skeleton]; unfold cc1__merge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1 _)

end Cert.KernelIdeal.Hand

end
-- ==== Proof.KI.Data.lean ====
/-
  The two pipelines' proof data, each at a PARAMETER `V` — the buffer contents when its region is entered —, and
  the body obligations: at every grid point the body is handed its input windows' blocks and leaves the output
  window's buffer at the body's function of them.
-/
import proofs.«401926_j12421045420080_2_alg».proof.Proof.KI.Body0
import proofs.«401926_j12421045420080_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the pipeline's proof data at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: an unfetched window's
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input's buffer at its block and the
    output's at the body's function of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨_ + 17, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the pipeline's proof data at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: an unfetched window's
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block and the
    output's at the body's function of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The program's run. Its two kernel regions as segments over the thread state "every unscoped buffer at the
  boundary's contents, the generator register at some state, nothing owed", and the launch.

  What a region leaves in the one buffer it may change is chosen here: its output window's array after all the
  write-backs. Region 0's entry contents are the launch contents pushed through the host operations before it; its
  result array enters the contents region 1 is entered from, so region 1's proof data are stated at contents that
  already name region 0's result. An input window's array is never written, so at a region's exit every array but
  the output's is as at entry.
-/
import proofs.«401926_j12421045420080_2_alg».proof.Proof.KI.Data
import proofs.«401926_j12421045420080_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Region 0's entry contents: the launch contents after the host operations before it. -/
abbrev Vin0 : (c : Dev nD) → (b : Ref sig .tc) → Buf (Elt F) ((c : Thread nD τ).loc b) := fun c b => Gen.V5 m c b

/-- Region 0's exit contents as a whole: its arrays at what the write-backs leave, every other buffer as entered. -/
def Wout0 (c : Dev nD) : Valuation τ sig (Elt F) :=
  Pipeline.withArrays spec0 c (Gen.V5 m c) fun w => (dat0 (Vin0 m) c).arrAt w cfg0.N

/-- The regions' results when only region 0 has run: every buffer read off region 0's exit contents. -/
def outsA : Gen.Outs (F := F) := fun _ r c => Wout0 m c (Proc.devRef .tc r)

/-- Region 1's entry contents, over region 0's result alone. -/
abbrev Vmid : (c : Dev nD) → (b : Ref sig .tc) → Buf (Elt F) ((c : Thread nD τ).loc b) := fun c b => Gen.V7 m (outsA m) c b

/-- Region 1's exit contents as a whole. -/
def Wout1 (c : Dev nD) : Valuation τ sig (Elt F) :=
  Pipeline.withArrays spec1 c (Gen.V7 m (outsA m) c) fun w => (dat1 (Vmid m) c).arrAt w cfg1.N

/-- What the two regions leave: up to region 0's exit its exit contents, after it region 1's. -/
def outsOf : Gen.Outs (F := F) := fun J r c => if J ≤ 6 then outsA m J r c else Wout1 m c (Proc.devRef .tc r)

/-- Region 1's entry contents. -/
abbrev Vin1 : (c : Dev nD) → (b : Ref sig .tc) → Buf (Elt F) ((c : Thread nD τ).loc b) := fun c b => Gen.V7 m (outsOf m) c b

/-- Region 0's exit contents, read at the TensorCore's references. -/
abbrev Vout0 : (c : Dev nD) → (b : Ref sig .tc) → Buf (Elt F) ((c : Thread nD τ).loc b) := fun c b => Gen.V6 m (outsOf m) c b
/-- Region 1's exit contents, read at the TensorCore's references. -/
abbrev Vout1 : (c : Dev nD) → (b : Ref sig .tc) → Buf (Elt F) ((c : Thread nD τ).loc b) := fun c b => Gen.V8 m (outsOf m) c b

/-- Region 0 leaves its output window's array after all the write-backs. -/
theorem outsOf_6 (c : Dev nD) : outsOf m 6 main_v29 c = (dat0 (Vin0 m) c).arrAt 16 cfg0.N := by
  unfold outsOf; rw [if_pos (by decide)]
  unfold outsA Wout0; exact Pipeline.withArrays_arr spec0 launch0.win.arr_inj c _ _ 16

/-- The contents region 1 is entered from read only region 0's result. -/
theorem V7_outsOf (c : Dev nD) : Gen.V7 m (outsOf m) c = Gen.V7 m (outsA m) c := by
  show StableHlo.after hostOps1 (Function.update (Gen.V5 m c) _ (outsOf m 6 main_v29 c))
    = StableHlo.after hostOps1 (Function.update (Gen.V5 m c) _ (outsA m 6 main_v29 c))
  rw [show outsOf m 6 main_v29 c = outsA m 6 main_v29 c from if_pos (by decide)]

theorem Vin1_eq : Vin1 m = Vmid m :=
  funext fun c => funext fun b => congrFun (V7_outsOf m c) (Proc.devRef .tc b)

/-- Region 1 leaves its output window's array after all the write-backs. -/
theorem outsOf_8 (c : Dev nD) : outsOf m 8 main_v37 c = (dat1 (Vin1 m) c).arrAt 7 cfg1.N := by
  rw [Vin1_eq m]
  unfold outsOf; rw [if_neg (by decide)]
  unfold Wout1; exact Pipeline.withArrays_arr spec1 launch1.win.arr_inj c _ _ 7

/-- Region 0's result, under the name the composition cites. -/
theorem outsOf_emb (c : Dev nD) : outsOf m 6 main_v29 c = (dat0 (Vin0 m) c).arrAt 16 cfg0.N := outsOf_6 m c

/-- Region 1 finds region 0's result array: no host operation between the regions writes it. -/
theorem Vin1_emb (c : Dev nD) : Vin1 m c main_v29 = (dat0 (Vin0 m) c).arrAt 16 cfg0.N :=
  (Gen.V7_of m (outsOf m) c main_v29 (by decide)).trans ((Function.update_self _ _ _).trans (outsOf_6 m c))

/-! ## At a region's exit: the arrays at what the pipeline leaves, every other buffer as entered -/

/-- Every window of region 0 but the last is an input. -/
theorem isIn0 : ∀ w : Fin cfg0.W, w ≠ 16 → (cfg0.win w).isOut = false := by decide
/-- Every window of region 1 but the last is an input. -/
theorem isIn1 : ∀ w : Fin cfg1.W, w ≠ 7 → (cfg1.win w).isOut = false := by decide

theorem hF0 (c : Dev nD) (w : Fin cfg0.W) : (dat0 (Vin0 m) c).arrAt w cfg0.N = Vout0 m c (Pipeline.arrRef spec0 w) := by
  by_cases hw : w = 16
  · subst hw
    exact ((Function.update_self _ _ _ : Vout0 m c (Pipeline.arrRef spec0 16) = outsOf m 6 main_v29 c).trans (outsOf_6 m c)).symm
  · have hne : Pipeline.arrRef spec0 w ≠ main_v29 := fun e => hw (launch0.win.arr_inj e)
    rw [show Vout0 m c (Pipeline.arrRef spec0 w) = Vin0 m c (Pipeline.arrRef spec0 w) from
      Gen.V6_of m (outsOf m) c _ fun h => hne (List.mem_singleton.mp h)]
    exact ((dat0 (Vin0 m) c).arrAt_in w (isIn0 w hw) _).trans (A_eq0 (Vin0 m) c w)
theorem hrest0 (c : Dev nD) : ∀ b, b ∉ Finset.univ.image (Pipeline.arrRef spec0) → Vout0 m c b = Vin0 m c b :=
  fun b hb => Gen.V6_of m (outsOf m) c b fun h =>
    hb (Finset.mem_image.mpr ⟨16, Finset.mem_univ _, (List.mem_singleton.mp h).symm⟩)

theorem hF1 (c : Dev nD) (w : Fin cfg1.W) : (dat1 (Vin1 m) c).arrAt w cfg1.N = Vout1 m c (Pipeline.arrRef spec1 w) := by
  by_cases hw : w = 7
  · subst hw
    exact ((Function.update_self _ _ _ : Vout1 m c (Pipeline.arrRef spec1 7) = outsOf m 8 main_v37 c).trans (outsOf_8 m c)).symm
  · have hne : Pipeline.arrRef spec1 w ≠ main_v37 := fun e => hw (launch1.win.arr_inj e)
    rw [show Vout1 m c (Pipeline.arrRef spec1 w) = Vin1 m c (Pipeline.arrRef spec1 w) from
      Gen.V8_of m (outsOf m) c _ fun h => hne (List.mem_singleton.mp h)]
    exact ((dat1 (Vin1 m) c).arrAt_in w (isIn1 w hw) _).trans (A_eq1 (Vin1 m) c w)
theorem hrest1 (c : Dev nD) : ∀ b, b ∉ Finset.univ.image (Pipeline.arrRef spec1) → Vout1 m c b = Vin1 m c b :=
  fun b hb => Gen.V8_of m (outsOf m) c b fun h =>
    hb (Finset.mem_image.mpr ⟨7, Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev Rest (c : Dev nD) : sProp 𝕄 := iprop((∃ r, prngReg c r) ∗ ∃ W, owes (c : Thread nD τ) (0 : CellTallies nD τ sig Unit) W)
/-- The same rest at every boundary. -/
abbrev Erest : Fin 3 → Dev nD → sProp 𝕄 := fun _ c => Rest c

/-! ## The regions as segments -/

-- a library lemma stated over a pinned configuration unifies with the printed one only when unification may
-- unfold plain definitions in a metavariable's type
set_option backward.isDefEq.respectTransparency.types false in
/-- Region 0 over the thread state: entered from every unscoped buffer at its entry contents, left at its exit
    contents. Its arrays are split out of the unscoped buffers and put back at what the write-backs leave; the
    generator register goes into the pipeline's invariant and comes back; nothing is owed; the kernel has no
    semaphore of its own. -/
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V5 m c) ∗ Rest c)
  post c := iprop(StableHlo.held (c : Thread nD τ) (Pipeline.ucRefs τ sig) (Gen.V6 m (outsOf m) c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 1 over the thread state: entered from every unscoped buffer at its entry contents, left at its exit
    contents. Its arrays are split out of the unscoped buffers and put back at what the write-backs leave; the
    generator register goes into the pipeline's invariant and comes back; nothing is owed; the kernel has no
    semaphore of its own. -/
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (Gen.V7 m (outsOf m) c) ∗ Rest c)
  post c := iprop(StableHlo.held (c : Thread nD τ) (Pipeline.ucRefs τ sig) (Gen.V8 m (outsOf m) c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipelines' own; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest ends owing nothing. -/
theorem hE2 (c : Dev nD) : Erest (F := F) 2 c ⊢ (iprop(∃ W, owes (c : Thread nD τ) (0 : CellTallies nD τ sig Unit) W) : sProp 𝕄) := by
  iintro ⟨-, H⟩; iexact H

-- the frame's implicit arguments are found by unifying its conclusion with this one, which takes unfolding plain
-- definitions in a metavariable's type
set_option backward.isDefEq.respectTransparency.types false in
/-- From any memory with zero counters every weakly fair execution of the program terminates and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Gen.frame_cond m (EP := emb₁) (ι := ()) (𝒱₀ := 𝒱z) (L := Lz) (lv := lvz) (hL := fun _ _ => rfl) (ρ := ρ) (outs := outsOf m)
    (pdats := pdats m) (O₀ := 0) (G := fun _ => iprop(emp))
    (u₀ := initOf (Pipeline.cells cfgs cellOf_inj) (Pipeline.launchToks cfgs cellOf_inj)) (hu₀ := hu₀)
    (E := Erest)
    (hE0 := by
      refine Pipeline.initEach Lz lvz fun c => ?_
      iintro ⟨⟨-, HO, -, Hp, -⟩, -⟩
      imodintro
      isplitl [Hp]; · iexists _; iexact Hp
      iexists ∅; iexact HO)
    (hE2 := hE2)
    (R0 := reg0 m) (hpre0 := fun _ => .rfl) (hpost0 := fun _ => .rfl)
    (R1 := reg1 m) (hpre1 := fun _ => .rfl) (hpost1 := fun _ => .rfl)

set_option backward.isDefEq.respectTransparency.types false in
/-- The same run read at the result too: the final memory holds, in the program's result buffer, region 1's output
    window's array after all its write-backs. -/
theorem run_value : θ_run defs (onTc (τ := τ) (main (F := F))) ⟨m, fun _ => 0, ρ⟩ (fun r => ∀ c : Dev nD,
      r.2.mem ((c.tc : Thread nD τ).loc main_v37) = (dat1 (Vin1 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm (pdats m) () cellOf_inj emb₁ defs₀ 𝒱z Lz lvz m ρ main
    (Gen.segs m (outsOf m) 𝒱z Lz lvz Erest () (pdats m) (reg0 m) (reg1 m))
    (fun c Q => by
      rewrite [main_chain c, Pipeline.Seg.run_eq_chain,
        show (Gen.segs m (outsOf m) 𝒱z Lz lvz Erest () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ Erest 0 c))
    (Tₙ := fun c => StableHlo.held (c : Thread nD τ) (Pipeline.ucRefs τ sig) (Gen.V8 m (outsOf m) c))
    (hch := fun c => ⟨.rfl, .rfl, .rfl, .rfl, .rfl, .rfl, .rfl, .rfl, sep_mono .rfl (hE2 c)⟩)
    (hinit := ?_) (QY := fun c s => s.mem ((c.tc : Thread nD τ).loc main_v37) = (dat1 (Vin1 m) c).arrAt 7 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are held at the launch contents; the generator register and the dues make the rest
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (Gen.V8 m (outsOf m) c) s') $$ [Hh HSI]
    · isplitl [Hh] <;> iassumption
    icases Hr with ⟨%h, HSI⟩
    imodintro
    isplitr
    · ipureintro
      exact ⟨(h (Proc.devRef .tc main_v37) (Finset.mem_filter.mpr ⟨StableHlo.devRef_mem_tcRefs main_v37, by decide⟩)).trans
          ((Function.update_self _ _ _).trans (outsOf_8 m c)),
        (h (Proc.devRef .tc main_arg0) (Finset.mem_filter.mpr ⟨StableHlo.devRef_mem_tcRefs main_arg0, by decide⟩)).trans (Gen.V8_main_arg0 m (outsOf m) c),
        (h (Proc.devRef .tc main_arg1) (Finset.mem_filter.mpr ⟨StableHlo.devRef_mem_tcRefs main_arg1, by decide⟩)).trans (Gen.V8_main_arg1 m (outsOf m) c),
        (h (Proc.devRef .tc main_arg2) (Finset.mem_filter.mpr ⟨StableHlo.devRef_mem_tcRefs main_arg2, by decide⟩)).trans (Gen.V8_main_arg2 m (outsOf m) c),
        (h (Proc.devRef .tc main_arg3) (Finset.mem_filter.mpr ⟨StableHlo.devRef_mem_tcRefs main_arg3, by decide⟩)).trans (Gen.V8_main_arg3 m (outsOf m) c),
        (h (Proc.devRef .tc main_arg4) (Finset.mem_filter.mpr ⟨StableHlo.devRef_mem_tcRefs main_arg4, by decide⟩)).trans (Gen.V8_main_arg4 m (outsOf m) c),
        (h (Proc.devRef .tc main_arg5) (Finset.mem_filter.mpr ⟨StableHlo.devRef_mem_tcRefs main_arg5, by decide⟩)).trans (Gen.V8_main_arg5 m (outsOf m) c),
        (h (Proc.devRef .tc main_arg6) (Finset.mem_filter.mpr ⟨StableHlo.devRef_mem_tcRefs main_arg6, by decide⟩)).trans (Gen.V8_main_arg6 m (outsOf m) c),
        (h (Proc.devRef .tc main_arg7) (Finset.mem_filter.mpr ⟨StableHlo.devRef_mem_tcRefs main_arg7, by decide⟩)).trans (Gen.V8_main_arg7 m (outsOf m) c),
        (h (Proc.devRef .tc main_arg8) (Finset.mem_filter.mpr ⟨StableHlo.devRef_mem_tcRefs main_arg8, by decide⟩)).trans (Gen.V8_main_arg8 m (outsOf m) c),
        (h (Proc.devRef .tc main_arg9) (Finset.mem_filter.mpr ⟨StableHlo.devRef_mem_tcRefs main_arg9, by decide⟩)).trans (Gen.V8_main_arg9 m (outsOf m) c),
        (h (Proc.devRef .tc main_arg10) (Finset.mem_filter.mpr ⟨StableHlo.devRef_mem_tcRefs main_arg10, by decide⟩)).trans (Gen.V8_main_arg10 m (outsOf m) c),
        (h (Proc.devRef .tc main_arg11) (Finset.mem_filter.mpr ⟨StableHlo.devRef_mem_tcRefs main_arg11, by decide⟩)).trans (Gen.V8_main_arg11 m (outsOf m) c),
        (h (Proc.devRef .tc main_arg12) (Finset.mem_filter.mpr ⟨StableHlo.devRef_mem_tcRefs main_arg12, by decide⟩)).trans (Gen.V8_main_arg12 m (outsOf m) c),
        (h (Proc.devRef .tc main_arg13) (Finset.mem_filter.mpr ⟨StableHlo.devRef_mem_tcRefs main_arg13, by decide⟩)).trans (Gen.V8_main_arg13 m (outsOf m) c),
        (h (Proc.devRef .tc main_arg14) (Finset.mem_filter.mpr ⟨StableHlo.devRef_mem_tcRefs main_arg14, by decide⟩)).trans (Gen.V8_main_arg14 m (outsOf m) c),
        (h (Proc.devRef .tc main_arg15) (Finset.mem_filter.mpr ⟨StableHlo.devRef_mem_tcRefs main_arg15, by decide⟩)).trans (Gen.V8_main_arg15 m (outsOf m) c),
        (h (Proc.devRef .tc main_arg16) (Finset.mem_filter.mpr ⟨StableHlo.devRef_mem_tcRefs main_arg16, by decide⟩)).trans (Gen.V8_main_arg16 m (outsOf m) c),
        (h (Proc.devRef .tc main_arg17) (Finset.mem_filter.mpr ⟨StableHlo.devRef_mem_tcRefs main_arg17, by decide⟩)).trans (Gen.V8_main_arg17 m (outsOf m) c),
        (h (Proc.devRef .tc main_arg18) (Finset.mem_filter.mpr ⟨StableHlo.devRef_mem_tcRefs main_arg18, by decide⟩)).trans (Gen.V8_main_arg18 m (outsOf m) c),
        (h (Proc.devRef .tc main_arg19) (Finset.mem_filter.mpr ⟨StableHlo.devRef_mem_tcRefs main_arg19, by decide⟩)).trans (Gen.V8_main_arg19 m (outsOf m) c),
        (h (Proc.devRef .tc main_arg20) (Finset.mem_filter.mpr ⟨StableHlo.devRef_mem_tcRefs main_arg20, by decide⟩)).trans (Gen.V8_main_arg20 m (outsOf m) c),
        (h (Proc.devRef .tc main_arg21) (Finset.mem_filter.mpr ⟨StableHlo.devRef_mem_tcRefs main_arg21, by decide⟩)).trans (Gen.V8_main_arg21 m (outsOf m) c)⟩
    · iexact HSI

end Cert.KernelIdeal.Hand

end
-- ==== Proof.Spec.lean ====
/-
  The mathematics both programs compute, over the extended reals, one row at a time.

  A temporal-walk encoder: every event row `n` stores 32 neighbours; neighbour `k` carries an edge feature row
  (64 numbers), a time stamp and a hidden state (128 numbers). The time gap to the event's cut time is encoded
  by 64 cosines; the edge features and the cosines, side by side, are the input of ONE step of a gated recurrent
  cell whose state is the stored hidden state; the 32 new states are averaged over the neighbours whose id is not
  the padding id 0 (the count floored at 1); the node's own feature row and that average, side by side, go through
  an affine map and a rectifier. That is `embRow`. The final score of an event pairs its source row with its
  target row (and with its negative row): the pair, side by side, through an affine map, a rectifier and a second
  affine map to one number. That is `mergeRow`.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The cosine time encoding of one gap at one frequency. -/
def tsEnc (ct ts bf ph : EReal) : EReal := Ideal.cos ((ct - ts) * bf + ph)

/-- Two rows side by side: the first `a` columns from `u`, the next `b` from `v`. -/
def sideBySide {a b : Nat} (u : Fin a → EReal) (v : Fin b → EReal) (j : Fin (a + b)) : EReal :=
  if h : j.val < a then u ⟨j.val, h⟩ else v ⟨j.val - a, by omega⟩

/-- An affine map's output `q`: the row against row `q` of the weights, plus the bias. -/
def affine {n o : Nat} (x : Fin n → EReal) (W : Fin o → Fin n → EReal) (b : Fin o → EReal) (q : Fin o) : EReal :=
  (∑ j, x j * W q j) + b q

/-- One step of the gated recurrent cell at hidden unit `g`: reset and update gates from the sums of the two
    affine maps' first and second thirds, the candidate from the last thirds with the reset gate on the state's
    part, the new state the update gate's mixture of candidate and old state. -/
def gru (x h : Fin 128 → EReal) (Wih Whh : Fin 384 → Fin 128 → EReal) (bih bhh : Fin 384 → EReal) (g : Fin 128) : EReal :=
  let r := Ideal.logistic (affine x Wih bih ⟨g.val, by omega⟩ + affine h Whh bhh ⟨g.val, by omega⟩)
  let z := Ideal.logistic (affine x Wih bih ⟨128 + g.val, by omega⟩ + affine h Whh bhh ⟨128 + g.val, by omega⟩)
  let n := Ideal.tanh (affine x Wih bih ⟨256 + g.val, by omega⟩ + r * affine h Whh bhh ⟨256 + g.val, by omega⟩)
  (1 - z) * n + z * h g

/-- A neighbour counts when its id word is not the padding id. -/
def maskOf (w : BitVec 32) : EReal := if w = 0#32 then 0 else 1

/-- The masked mean of the 32 new states at hidden unit `g`, the count floored at one. -/
def maskedMean (hn : Fin 32 → Fin 128 → EReal) (nid : Fin 32 → BitVec 32) (g : Fin 128) : EReal :=
  Ideal.div (∑ k, hn k g * maskOf (nid k)) (max (∑ k, maskOf (nid k)) 1)

/-- The embedding of one event row at output column `f`. -/
def embRow (hid : Fin 32 → Fin 128 → EReal) (ee : Fin 32 → Fin 64 → EReal) (ts : Fin 32 → EReal) (nid : Fin 32 → BitVec 32)
    (nraw : Fin 64 → EReal) (ct : EReal) (bf ph : Fin 64 → EReal)
    (Wih Whh : Fin 384 → Fin 128 → EReal) (bih bhh : Fin 384 → EReal)
    (Wout : Fin 64 → Fin 192 → EReal) (bout : Fin 64 → EReal) (f : Fin 64) : EReal :=
  let hn : Fin 32 → Fin 128 → EReal := fun k =>
    gru (sideBySide (ee k) (fun q => tsEnc ct (ts k) (bf q) (ph q))) (hid k) Wih Whh bih bhh
  max (affine (sideBySide nraw (maskedMean hn nid)) Wout bout f) 0

/-- The score of a pair of embedded rows. -/
def mergeRow (e1 e2 : Fin 64 → EReal) (fc1w : Fin 64 → Fin 128 → EReal) (fc1b : Fin 64 → EReal)
    (fc2w : Fin 64 → EReal) (fc2b : EReal) : EReal :=
  (∑ f, max (affine (sideBySide e1 e2) fc1w fc1b f) 0 * fc2w f) + fc2b

/-- The two scores of an event: its source row paired with its target row (column 0) and with its negative row
    (column 1). -/
def scoreRow (e1 e2 e3 : Fin 64 → EReal) (fc1w : Fin 64 → Fin 128 → EReal) (fc1b : Fin 64 → EReal)
    (fc2w : Fin 64 → EReal) (fc2b : EReal) (s : Fin 2) : EReal :=
  if s.val = 0 then mergeRow e1 e2 fc1w fc1b fc2w fc2b else mergeRow e1 e3 fc1w fc1b fc2w fc2b

/-! ## The whole computation as a function of the argument arrays -/

open Idealize.ShloMosaic.ValueIdx in
/-- The row of an `N`-row table an index word names: the word read signed, clamped into the table. -/
def rowIx (N : Nat) [NeZero N] (w : BitVec 32) : Fin N := ⟨min w.toInt.toNat (N - 1), by have := NeZero.pos N; omega⟩

open Idealize.ShloMosaic.ValueIdx in
/-- The node id of event row `n`: the source ids, then the target ids, then the negative ids. -/
def idsAt (a0 a1 a2 : (⟨1, ![4096]⟩ : Shape).Idx → BitVec 32) (n : Fin 12288) : BitVec 32 :=
  if h : n.val < 4096 then a0 (ix1 ⟨n.val, h⟩)
  else if h' : n.val < 8192 then a1 (ix1 ⟨n.val - 4096, by omega⟩)
  else a2 (ix1 ⟨n.val - 8192, by omega⟩)

open Idealize.ShloMosaic.ValueIdx in
/-- The embedding of event row `n` at column `f`, from the argument arrays: the node's feature row and each
    neighbour's edge feature row looked up by index word, the cut time of event `n mod 4096`. -/
def embOf (a0 a1 a2 : (⟨1, ![4096]⟩ : Shape).Idx → BitVec 32) (a3 : (⟨1, ![4096]⟩ : Shape).Idx → EReal)
    (a4 a5 : (⟨2, ![12288, 32]⟩ : Shape).Idx → BitVec 32) (a6 : (⟨2, ![12288, 32]⟩ : Shape).Idx → EReal) (a7 : (⟨3, ![12288, 32, 128]⟩ : Shape).Idx → EReal)
    (a8 : (⟨2, ![500000, 64]⟩ : Shape).Idx → EReal) (a9 : (⟨2, ![1000000, 64]⟩ : Shape).Idx → EReal) (a10 a11 : (⟨1, ![64]⟩ : Shape).Idx → EReal)
    (a12 a13 : (⟨2, ![384, 128]⟩ : Shape).Idx → EReal) (a14 a15 : (⟨1, ![384]⟩ : Shape).Idx → EReal) (a16 : (⟨2, ![64, 192]⟩ : Shape).Idx → EReal) (a17 : (⟨1, ![64]⟩ : Shape).Idx → EReal)
    (n : Fin 12288) (f : Fin 64) : EReal :=
  embRow (fun k g => a7 (ix3 n k g)) (fun k q => a9 (ix2 (rowIx 1000000 (a5 (ix2 n k))) q)) (fun k => a6 (ix2 n k)) (fun k => a4 (ix2 n k))
    (fun q => a8 (ix2 (rowIx 500000 (idsAt a0 a1 a2 n)) q)) (a3 (ix1 ⟨n.val % 4096, Nat.mod_lt _ (by norm_num)⟩))
    (fun q => a10 (ix1 q)) (fun q => a11 (ix1 q)) (fun g j => a12 (ix2 g j)) (fun g j => a13 (ix2 g j)) (fun g => a14 (ix1 g)) (fun g => a15 (ix1 g))
    (fun f' j => a16 (ix2 f' j)) (fun f' => a17 (ix1 f')) f

open Idealize.ShloMosaic.ValueIdx in
/-- The result at event `b`, column `s`: the scores of the event's source row (row `b`) against its target row
    (row `4096 + b`) and against its negative row (row `8192 + b`). -/
def outOf (a0 a1 a2 : (⟨1, ![4096]⟩ : Shape).Idx → BitVec 32) (a3 : (⟨1, ![4096]⟩ : Shape).Idx → EReal)
    (a4 a5 : (⟨2, ![12288, 32]⟩ : Shape).Idx → BitVec 32) (a6 : (⟨2, ![12288, 32]⟩ : Shape).Idx → EReal) (a7 : (⟨3, ![12288, 32, 128]⟩ : Shape).Idx → EReal)
    (a8 : (⟨2, ![500000, 64]⟩ : Shape).Idx → EReal) (a9 : (⟨2, ![1000000, 64]⟩ : Shape).Idx → EReal) (a10 a11 : (⟨1, ![64]⟩ : Shape).Idx → EReal)
    (a12 a13 : (⟨2, ![384, 128]⟩ : Shape).Idx → EReal) (a14 a15 : (⟨1, ![384]⟩ : Shape).Idx → EReal) (a16 : (⟨2, ![64, 192]⟩ : Shape).Idx → EReal) (a17 : (⟨1, ![64]⟩ : Shape).Idx → EReal)
    (a18 : (⟨2, ![64, 128]⟩ : Shape).Idx → EReal) (a19 : (⟨1, ![64]⟩ : Shape).Idx → EReal) (a20 : (⟨2, ![1, 64]⟩ : Shape).Idx → EReal) (a21 : (⟨1, ![1]⟩ : Shape).Idx → EReal)
    (b : Fin 4096) (s : Fin 2) : EReal :=
  scoreRow (embOf a0 a1 a2 a3 a4 a5 a6 a7 a8 a9 a10 a11 a12 a13 a14 a15 a16 a17 ⟨b.val, by omega⟩)
    (embOf a0 a1 a2 a3 a4 a5 a6 a7 a8 a9 a10 a11 a12 a13 a14 a15 a16 a17 ⟨4096 + b.val, by omega⟩)
    (embOf a0 a1 a2 a3 a4 a5 a6 a7 a8 a9 a10 a11 a12 a13 a14 a15 a16 a17 ⟨8192 + b.val, by omega⟩)
    (fun f j => a18 (ix2 f j)) (fun f => a19 (ix1 f)) (fun f => a20 (ix2 0 f)) (a21 (ix1 0)) s

/-- The index words are in range: every node id names a row of the node table, every edge id a row of the edge
    table. -/
def IdxInRange (a0 a1 a2 : (⟨1, ![4096]⟩ : Shape).Idx → BitVec 32) (a5 : (⟨2, ![12288, 32]⟩ : Shape).Idx → BitVec 32) : Prop :=
  (∀ i, 0 ≤ (a0 i).toInt ∧ (a0 i).toInt < 500000) ∧ (∀ i, 0 ≤ (a1 i).toInt ∧ (a1 i).toInt < 500000)
    ∧ (∀ i, 0 ≤ (a2 i).toInt ∧ (a2 i).toInt < 500000) ∧ (∀ i, 0 ≤ (a5 i).toInt ∧ (a5 i).toInt < 1000000)

/-! ## The same mathematics in the arrangement of the fused evaluation -/

/-- The cell's mixture from the three gate pre-activations: `grz` holds the reset gate's sum in its first 128
    entries and the update gate's in the next 128; `xn` and `hn` are the candidate's input part and state part. -/
def gruMix (grz : Fin 256 → EReal) (xn hn h : Fin 128 → EReal) (g : Fin 128) : EReal :=
  let r := Ideal.logistic (grz ⟨g.val, by omega⟩)
  let z := Ideal.logistic (grz ⟨128 + g.val, by omega⟩)
  let n := Ideal.tanh (xn g + r * hn g)
  (1 - z) * n + z * h g

/-- The cell with the reset and update gates' two affine maps fused into ONE: the input and the state side by
    side against the two weight blocks side by side, the two biases added beforehand; the candidate keeps its two
    separate maps. -/
def gruFused (x h : Fin 128 → EReal) (Wrz : Fin 256 → Fin 256 → EReal) (Wihn Whhn : Fin 128 → Fin 128 → EReal)
    (brz : Fin 256 → EReal) (bihn bhhn : Fin 128 → EReal) : Fin 128 → EReal :=
  gruMix (affine (sideBySide x h) Wrz brz) (affine x Wihn bihn) (affine h Whhn bhhn) h

/-- The embedding of one event row with the fused cell. -/
def embRowFused (hid : Fin 32 → Fin 128 → EReal) (ee : Fin 32 → Fin 64 → EReal) (ts : Fin 32 → EReal) (nid : Fin 32 → BitVec 32)
    (nraw : Fin 64 → EReal) (ct : EReal) (bf ph : Fin 64 → EReal)
    (Wrz : Fin 256 → Fin 256 → EReal) (Wihn Whhn : Fin 128 → Fin 128 → EReal)
    (brz : Fin 256 → EReal) (bihn bhhn : Fin 128 → EReal)
    (Wout : Fin 64 → Fin 192 → EReal) (bout : Fin 64 → EReal) (f : Fin 64) : EReal :=
  let hn : Fin 32 → Fin 128 → EReal := fun k =>
    gruFused (sideBySide (ee k) (fun q => tsEnc ct (ts k) (bf q) (ph q))) (hid k) Wrz Wihn Whhn brz bihn bhhn
  max (affine (sideBySide nraw (maskedMean hn nid)) Wout bout f) 0

end Cert.Spec

end
-- ==== Proof.KI.LibLayout.lean ====
/-
  Layout facts read at an index, for any extents (floats are extended reals).

  * A block of `a × b` rows of length `c` laid out as `a·b` rows: row `b·p + k` is row `k` of group `p`, and back.
  * A trailing unit axis added by a change of shape.
  * Two blocks set side by side along their last axis read, at a column, the left block below the left block's
    width and the right block past it: `Spec.sideBySide` of the two rows.
  * A product into a zero accumulator against a TRANSPOSED weight matrix is, entry by entry, the row against the
    weight's row; with a bias added it is `Spec.affine`.
-/
import proofs.«401926_j12421045420080_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayout

open Cert.Spec
open Idealize.ShloMosaic Idealize.ShloMosaic.ValueIdx

variable {α : Type}

/-! ## Rows merged and split by a change of shape -/

/-- `[a, b, c]` laid out as `[a·b, c]`: row `r = b·p + k`, column `g`, is the operand at `(p, k, g)` — the two have the
    same row-major position `(p·b + k)·c + g`. -/
theorem shapeCast_abc_rows_apply {a b c : ℕ} (x : (⟨3, ![a, b, c]⟩ : Shape).Idx → α)
    (h : (⟨3, ![a, b, c]⟩ : Shape).ShapeCasts ⟨2, ![a * b, c]⟩) (p : Fin a) (k : Fin b) (g : Fin c)
    (r : Fin (a * b)) (hr : r.val = b * p.val + k.val) :
    shapeCast ⟨2, ![a * b, c]⟩ x h (ix2 r g) = x (ix3 p k g) :=
  shapeCast_apply x h _ _ (by
    rw [Shape.rowMajor_val_three, Shape.rowMajor_val_two]
    show (p.val * b + k.val) * c + g.val = r.val * c + g.val
    rw [hr, Nat.mul_comm b p.val])

/-- `[a·b, c]` laid out as `[a, b, c]`: the entry `(p, k, g)` is the operand at row `r = b·p + k`, column `g`. -/
theorem shapeCast_rows_abc_apply {a b c : ℕ} (x : (⟨2, ![a * b, c]⟩ : Shape).Idx → α)
    (h : (⟨2, ![a * b, c]⟩ : Shape).ShapeCasts ⟨3, ![a, b, c]⟩) (p : Fin a) (k : Fin b) (g : Fin c)
    (r : Fin (a * b)) (hr : r.val = b * p.val + k.val) :
    shapeCast ⟨3, ![a, b, c]⟩ x h (ix3 p k g) = x (ix2 r g) :=
  shapeCast_apply x h _ _ (by
    rw [Shape.rowMajor_val_three, Shape.rowMajor_val_two]
    show r.val * c + g.val = (p.val * b + k.val) * c + g.val
    rw [hr, Nat.mul_comm b p.val])

/-- `[a, b]` laid out as `[a, b, 1]`: the entry `(p, k, 0)` is the operand at `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    rw [Shape.rowMajor_val_three, Shape.rowMajor_val_two]
    show p.val * b + k.val = (p.val * b + k.val) * 1 + u.val
    have := u.isLt
    omega)

/-! ## Two blocks side by side along the last axis -/

/-- Matrices `[n, a]` and `[n, b]` side by side: row `r` of the result is the two rows side by side. -/
theorem concat_cols_apply {n a b : ℕ} (u : (⟨2, ![n, a]⟩ : Shape).Idx → EReal) (v : (⟨2, ![n, b]⟩ : Shape).Idx → EReal)
    (h : Shape.Concatenates [(⟨2, ![n, a]⟩ : Shape), ⟨2, ![n, b]⟩] ⟨2, ![n, a + b]⟩ (1 : Fin 2)) (r : Fin n) (j : Fin (a + b)) :
    concatenate ⟨2, ![n, a + b]⟩ (1 : Fin 2) [⟨⟨2, ![n, a]⟩, u⟩, ⟨⟨2, ![n, b]⟩, v⟩] h (ix2 r j)
      = sideBySide (fun q : Fin a => u (ix2 r q)) (fun q : Fin b => v (ix2 r q)) j := by
  unfold sideBySide
  by_cases hj : j.val < a
  · rw [dif_pos hj]
    exact concatenate_pair_apply_left (1 : Fin 2) u v h (ix2 r j) rfl (ix2 r ⟨j.val, hj⟩)
      (fun c => match c with | ⟨0, _⟩ => rfl | ⟨1, _⟩ => rfl)
  · rw [dif_neg hj]
    exact concatenate_pair_apply_right (1 : Fin 2) u v h (ix2 r j) rfl rfl (ix2 r ⟨j.val - a, by omega⟩)
      (fun c hc => match c, hc with | ⟨0, _⟩, _ => rfl | ⟨1, _⟩, hc => absurd rfl hc)
      (by show j.val - a + a = j.val; omega)

/-- Stacks `[m, n, a]` and `[m, n, b]` side by side along the last axis: the row at `(p, k)` of the result is the two
    rows side by side. -/
theorem concat_last3_apply {m n a b : ℕ} (u : (⟨3, ![m, n, a]⟩ : Shape).Idx → EReal) (v : (⟨3, ![m, n, b]⟩ : Shape).Idx → EReal)
    (h : Shape.Concatenates [(⟨3, ![m, n, a]⟩ : Shape), ⟨3, ![m, n, b]⟩] ⟨3, ![m, n, a + b]⟩ (2 : Fin 3)) (p : Fin m) (k : Fin n) (j : Fin (a + b)) :
    concatenate ⟨3, ![m, n, a + b]⟩ (2 : Fin 3) [⟨⟨3, ![m, n, a]⟩, u⟩, ⟨⟨3, ![m, n, b]⟩, v⟩] h (ix3 p k j)
      = sideBySide (fun q : Fin a => u (ix3 p k q)) (fun q : Fin b => v (ix3 p k q)) j := by
  unfold sideBySide
  by_cases hj : j.val < a
  · rw [dif_pos hj]
    exact concatenate_pair_apply_left (2 : Fin 3) u v h (ix3 p k j) rfl (ix3 p k ⟨j.val, hj⟩)
      (fun c => match c with | ⟨0, _⟩ => rfl | ⟨1, _⟩ => rfl | ⟨2, _⟩ => rfl)
  · rw [dif_neg hj]
    exact concatenate_pair_apply_right (2 : Fin 3) u v h (ix3 p k j) rfl rfl (ix3 p k ⟨j.val - a, by omega⟩)
      (fun c hc => match c, hc with | ⟨0, _⟩, _ => rfl | ⟨1, _⟩, _ => rfl | ⟨2, _⟩, hc => absurd rfl hc)
      (by show j.val - a + a = j.val; omega)

/-! ## A product against a transposed weight matrix -/

/-- A product into the zero accumulator whose one contraction axis has extent `K`: the sum over `Fin K` of the
    operands' factors, each named by what the operand is at the product's operand index. -/
theorem matmul_zero_apply_sum {sl sr so : Shape} {φ₁ φ₂ : FTy} (d : DotDims sl sr so) (prec : Option ContractPrecision)
    (K : ℕ) (hr : d.contr.rank = 1) (hs : d.contr.size ⟨0, by omega⟩ = K)
    (lhs : FVec Ideal sl φ₁) (rhs : FVec Ideal sr φ₂) (j : so.Idx) (A B : Fin K → EReal)
    (hl : ∀ k, lhs (d.lhsIdx j ((contrEquiv1 d K hr hs).symm k)) = A k)
    (hrr : ∀ k, rhs (d.rhsIdx j ((contrEquiv1 d K hr hs).symm k)) = B k) :
    FloatOps.matmul d prec lhs rhs (constant so .f32 0x00000000#32) j = ∑ k : Fin K, A k * B k := by
  rw [Ideal.matmul_constant_zero_apply, ← Equiv.sum_comp (contrEquiv1 d K hr hs).symm]
  exact Finset.sum_congr rfl fun k _ => by rw [hl k, hrr k]

/-- Rows `[m, K]` against the TRANSPOSE of weights `[o, K]`, into the zero accumulator: entry `(r, q)` is row `r`
    against the weights' row `q`. The four hypotheses say where the product reads its operands (output row and
    contraction index on the left, contraction index and output column on the right): each holds for a plain
    matrix product's dimension numbers by unfolding them. -/
theorem matmul_transposed_apply {m K o : ℕ} {φ₁ φ₂ : FTy}
    (d : DotDims ⟨2, ![m, K]⟩ ⟨2, ![K, o]⟩ ⟨2, ![m, o]⟩) (prec : Option ContractPrecision)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (X : FVec Ideal ⟨2, ![m, K]⟩ φ₁) (W : FVec Ideal ⟨2, ![o, K]⟩ φ₂)
    (hT : (⟨2, ![o, K]⟩ : Shape).Transposes [1, 0] ⟨2, ![K, o]⟩) (r : Fin m) (q : Fin o) :
    FloatOps.matmul d prec X (transpose ⟨2, ![K, o]⟩ [1, 0] W hT) (constant ⟨2, ![m, o]⟩ .f32 0x00000000#32) (ix2 r q)
      = ∑ k : Fin K, X (ix2 r k) * W (ix2 q k) := by
  refine matmul_zero_apply_sum d prec K hr hs X _ (ix2 r q) (fun k => X (ix2 r k)) (fun k => W (ix2 q k)) (fun k => ?_) (fun k => ?_)
  · have hk := contrEquiv1_symm_val d K hr hs k
    refine congrArg X (funext fun c => Fin.ext ?_)
    match c with
    | ⟨0, _⟩ => exact hl0 _ _
    | ⟨1, _⟩ => exact (hl1 _ _).trans hk
  · have hk := contrEquiv1_symm_val d K hr hs k
    have e : d.rhsIdx (ix2 r q) ((contrEquiv1 d K hr hs).symm k) = ix2 k q := funext fun c => Fin.ext (by
      match c with
      | ⟨0, _⟩ => exact (hr0 _ _).trans hk
      | ⟨1, _⟩ => exact hr1 _ _)
    rw [e]
    exact transpose_ix2_apply W hT k q

/-- The same with a bias added: `Spec.affine` of row `r` against the weights, at output `q`. -/
theorem matmul_transposed_bias_affine {m K o : ℕ} {φ₁ φ₂ : FTy}
    (d : DotDims ⟨2, ![m, K]⟩ ⟨2, ![K, o]⟩ ⟨2, ![m, o]⟩) (prec : Option ContractPrecision)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (X : FVec Ideal ⟨2, ![m, K]⟩ φ₁) (W : FVec Ideal ⟨2, ![o, K]⟩ φ₂)
    (hT : (⟨2, ![o, K]⟩ : Shape).Transposes [1, 0] ⟨2, ![K, o]⟩) (bias : Fin o → EReal) (r : Fin m) (q : Fin o) :
    FloatOps.matmul d prec X (transpose ⟨2, ![K, o]⟩ [1, 0] W hT) (constant ⟨2, ![m, o]⟩ .f32 0x00000000#32) (ix2 r q) + bias q
      = affine (fun k : Fin K => X (ix2 r k)) (fun a b => W (ix2 a b)) bias q := by
  unfold affine
  rw [matmul_transposed_apply d prec hr hs hl0 hl1 hr0 hr1 X W hT r q]

end Cert.LibLayout

end
-- ==== Proof.KI.LibBroadcast.lean ====
/-
  A unit axis broadcast, read at an index, for any extents: a column `[a, 1]` spread over `b` columns, a trailing
  unit axis `[a, b, 1]` spread over `c` entries, and one row `[1, 1, c]` spread over an `a × b` stack. Each entry of
  the result is the operand's entry with the unit coordinates at 0.
-/
import Idealize.ShloMosaic.Lib.ValueIdx
import Idealize.ShloMosaic.Lib.ValueLayout
import Idealize.ShloMosaic.Lib.Pipeline.Value

noncomputable section

namespace Cert.LibLayout

open Idealize.ShloMosaic Idealize.ShloMosaic.ValueIdx

variable {α : Type}

/-! ## A unit axis broadcast -/

/-- `[a, 1]` broadcast to `[a, b]`: the entry `(p, k)` is the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (k : Fin b) (u : Fin 1) : broadcastTo ⟨2, ![a, b]⟩ v h (ix2 p k) = v (ix2 p u) := by
  refine broadcastTo_apply v h (ix2 p k) (ix2 p u) fun ax => ?_
  match ax with
  | ⟨0, _⟩ =>
    show p.val = if a = 1 then 0 else p.val
    split
    · have := p.isLt; omega
    · rfl
  | ⟨1, _⟩ =>
    show u.val = if (1 : ℕ) = 1 then 0 else k.val
    rw [if_pos rfl]; have := u.isLt; omega

/-- `[a, b, 1]` broadcast to `[a, b, c]`: the entry `(p, k, g)` is the operand's one entry at `(p, k)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (g : Fin c) (u : Fin 1) :
    broadcastTo ⟨3, ![a, b, c]⟩ v h (ix3 p k g) = v (ix3 p k u) := by
  refine broadcastTo_apply v h (ix3 p k g) (ix3 p k u) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ =>
    show u.val = if (1 : ℕ) = 1 then 0 else g.val
    rw [if_pos rfl]; have := u.isLt; omega

/-- `[1, 1, c]` broadcast to `[a, b, c]`: the entry `(p, k, g)` is the operand's entry `g`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (k : Fin b) (g : Fin c) (u w : Fin 1) :
    broadcastTo ⟨3, ![a, b, c]⟩ v h (ix3 p k g) = v (ix3 u w g) := by
  refine broadcastTo_apply v h (ix3 p k g) (ix3 u w g) fun ax => ?_
  match ax with
  | ⟨0, _⟩ =>
    show u.val = if (1 : ℕ) = 1 then 0 else p.val
    rw [if_pos rfl]; have := u.isLt; omega
  | ⟨1, _⟩ =>
    show w.val = if (1 : ℕ) = 1 then 0 else k.val
    rw [if_pos rfl]; have := w.isLt; omega
  | ⟨2, _⟩ =>
    show g.val = if c = 1 then 0 else g.val
    split
    · have := g.isLt; omega
    · rfl

end Cert.LibLayout

end
-- ==== Proof.KI.K0In.lean ====
/-
  The first half of kernel 0's arithmetic read at an index (floats are extended reals): the 128 × 32 neighbour
  slots of a block are laid out as 4096 rows (slot (p, k) is row 32·p + k); a row of the cell's input is the
  slot's edge features beside its 64 time cosines; a row of the state is the slot's stored hidden state; and the
  fused reset/update pre-activation is ONE affine map of the two side by side.
-/
import proofs.«401926_j12421045420080_2_alg».proof.Proof.KI.Body0
import proofs.«401926_j12421045420080_2_alg».proof.Proof.Spec
import proofs.«401926_j12421045420080_2_alg».proof.Proof.KI.LibLayout
import proofs.«401926_j12421045420080_2_alg».proof.Proof.KI.LibBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.K0Value

open Cert.KernelIdeal Cert.KernelIdeal.Gen Cert.KernelIdeal.Hand Cert.Spec
open Idealize.ShloMosaic Idealize.ShloMosaic.ValueIdx

/-- Neighbour slot (p, k) of a block, as a row of the 4096-row layout. -/
def slotRow (p : Fin 128) (k : Fin 32) : Fin 4096 := ⟨32 * p.val + k.val, by omega⟩

/-- The cell's input row of a slot: its edge features beside its time cosines. -/
def xRow (x1 : Vec Ideal S128x32x64 .bf16) (x2 : Vec Ideal S128x32 .f32) (x5 : Vec Ideal S128x1 .f32) (x6 x7 : Vec Ideal S1x64 .f32)
    (p : Fin 128) (k : Fin 32) : Fin 128 → EReal :=
  sideBySide (fun q : Fin 64 => x1 (ix3 p k q)) (fun q : Fin 64 => tsEnc (x5 (ix2 p 0)) (x2 (ix2 p k)) (x6 (ix2 0 q)) (x7 (ix2 0 q)))

/-- The input rows. -/
theorem pay2_apply (x5 : Vec Ideal S128x1 .f32) (x2 : Vec Ideal S128x32 .f32) (x6 x7 : Vec Ideal S1x64 .f32) (x1 : Vec Ideal S128x32x64 .bf16)
    (p : Fin 128) (k : Fin 32) (j : Fin 128) :
    k0_pay2 (F := Ideal) x5 x2 x6 x7 x1 (ix2 (slotRow p k) j) = xRow x1 x2 x5 x6 x7 p k j := by
  unfold k0_pay2
  refine (LibLayout.shapeCast_abc_rows_apply (a := 128) (b := 32) (c := 128) _ shapeCasts_S128x32x128_S4096x128 p k j (slotRow p k) rfl).trans ?_
  refine (LibLayout.concat_last3_apply (m := 128) (n := 32) (a := 64) (b := 64) _ _ concatenates_S128x32x64_S128x32x64_S128x32x128_d2 p k j).trans ?_
  unfold xRow
  refine congrArg₂ (fun (u v : Fin 64 → EReal) => sideBySide u v j) (funext fun q => ?_) (funext fun q => ?_)
  · rw [shapeCast_self]
  · -- the cosine of (cut time − time stamp) · frequency + phase, the three factors each a broadcast read back
    have hcos : ∀ (A B C : FVec Ideal S128x32x64 .f32) (hh : FTy.bits .bf16 < FTy.bits .f32) (i : S128x32x64.Idx),
        (truncf .bf16 (cos (addf (mulf A B) C)) hh : FVec Ideal S128x32x64 .bf16) i = Ideal.cos (A i * B i + C i) :=
      fun _ _ _ _ _ => rfl
    refine (hcos _ _ _ _ _).trans ?_
    unfold tsEnc
    refine congrArg Ideal.cos (congrArg₂ (· + ·) (congrArg₂ (· * ·) ?_ ?_) ?_)
    · refine (LibLayout.broadcastTo_ab1_abc_apply (a := 128) (b := 32) (c := 64) _ broadcasts_S128x32x1_S128x32x64 p k q 0).trans ?_
      refine (LibLayout.shapeCast_ab_ab1_apply (a := 128) (b := 32) _ shapeCasts_S128x32_S128x32x1 p k 0).trans ?_
      refine congrArg (· - x2 (ix2 p k)) ?_
      refine (LibLayout.broadcastTo_a1_ab_apply (a := 128) (b := 32) _ broadcasts_S128x1_S128x32 p k 0).trans ?_
      rw [shapeCast_self]
    · refine (LibLayout.broadcastTo_11c_abc_apply (a := 128) (b := 32) (c := 64) _ broadcasts_S1x1x64_S128x32x64 p k q 0 0).trans ?_
      refine (shapeCast_ab_1ab_apply (a := 1) (b := 64) _ shapeCasts_S1x64_S1x1x64 0 0 q).trans ?_
      rw [shapeCast_self]
    · refine (LibLayout.broadcastTo_11c_abc_apply (a := 128) (b := 32) (c := 64) _ broadcasts_S1x1x64_S128x32x64 p k q 0 0).trans ?_
      refine (shapeCast_ab_1ab_apply (a := 1) (b := 64) _ shapeCasts_S1x64_S1x1x64 0 0 q).trans ?_
      rw [shapeCast_self]

/-- The state rows. -/
theorem pay3_apply (x0 : Vec Ideal S128x32x128 .f32) (p : Fin 128) (k : Fin 32) (g : Fin 128) :
    k0_pay3 (F := Ideal) x0 (ix2 (slotRow p k) g) = x0 (ix3 p k g) := by
  unfold k0_pay3
  exact LibLayout.shapeCast_abc_rows_apply (a := 128) (b := 32) (c := 128) x0 shapeCasts_S128x32x128_S4096x128 p k g (slotRow p k) rfl

/-- A change of float format is the identity. -/
theorem pay4_eq (x0 : Vec Ideal S128x32x128 .f32) : k0_pay4 (F := Ideal) x0 = k0_pay3 (F := Ideal) x0 := by
  unfold k0_pay4
  rfl

/-- Where the fused gates' product reads its operands: the output's row and the contraction index on the left, the
    contraction index and the output's column on the right. -/
theorem lhs_pay5_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_pay5_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_pay5_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_pay5_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The fused pre-activation of the reset and update gates: one affine map of input and state side by side. -/
theorem pay5_apply (x5 : Vec Ideal S128x1 .f32) (x2 : Vec Ideal S128x32 .f32) (x6 x7 : Vec Ideal S1x64 .f32) (x1 : Vec Ideal S128x32x64 .bf16)
    (x0 : Vec Ideal S128x32x128 .f32) (x8 : Vec Ideal S256x256 .bf16) (x11 : Vec Ideal S1x256 .f32)
    (p : Fin 128) (k : Fin 32) (q : Fin 256) :
    k0_pay5 (F := Ideal) x5 x2 x6 x7 x1 x0 x8 x11 (ix2 (slotRow p k) q)
      = affine (sideBySide (xRow x1 x2 x5 x6 x7 p k) (fun g : Fin 128 => x0 (ix3 p k g)))
          (fun a b : Fin 256 => x8 (ix2 a b)) (fun a : Fin 256 => x11 (ix2 0 a)) q := by
  have hb : (broadcastTo S4096x256 (shapeCast S1x256 x11 shapeCasts_S1x256_S1x256) broadcasts_S1x256_S4096x256) (ix2 (slotRow p k) q)
      = x11 (ix2 0 q) := by
    refine (broadcastTo_1b_ab_apply (a := 4096) (b := 256) _ broadcasts_S1x256_S4096x256 (slotRow p k) q).trans ?_
    rw [shapeCast_self]
  have key := LibLayout.matmul_transposed_bias_affine (m := 4096) (K := 256) (o := 256) (φ₁ := .bf16) (φ₂ := .bf16) dot_S4096x256_S256x256_S4096x256_1_0_0_1_n_n none rfl rfl
      lhs_pay5_0 lhs_pay5_1 rhs_pay5_0 rhs_pay5_1
      (concatenate S4096x256 1 [⟨S4096x128, k0_pay2 (F := Ideal) x5 x2 x6 x7 x1⟩, ⟨S4096x128, k0_pay4 (F := Ideal) x0⟩] concatenates_S4096x128_S4096x128_S4096x256_d1)
      (shapeCast S256x256 x8 shapeCasts_S256x256_S256x256) transposes_S256x256_p1_0_S256x256 (fun a : Fin 256 => x11 (ix2 0 a)) (slotRow p k) q
  refine Eq.trans ?_ (key.trans ?_)
  · unfold k0_pay5
    refine (addf_apply _ _ _).trans ?_
    exact congrArg₂ (· + ·) rfl hb
  · rw [shapeCast_self]
    refine congrArg (fun x => affine x (fun a b : Fin 256 => x8 (ix2 a b)) (fun a : Fin 256 => x11 (ix2 0 a)) q) (funext fun c => ?_)
    refine (LibLayout.concat_cols_apply (n := 4096) (a := 128) (b := 128) _ _ concatenates_S4096x128_S4096x128_S4096x256_d1 (slotRow p k) c).trans ?_
    refine congrArg₂ (fun (u v : Fin 128 → EReal) => sideBySide u v c) (funext fun g => pay2_apply x5 x2 x6 x7 x1 p k g) (funext fun g => ?_)
    rw [pay4_eq]
    exact pay3_apply x0 p k g

theorem pay6_eq (x9 : Vec Ideal S128x128 .bf16) : k0_pay6 (F := Ideal) x9 = x9 := by
  unfold k0_pay6
  exact shapeCast_self _ _

theorem pay8_eq (x4 : Vec Ideal S128x64 .bf16) : k0_pay8 (F := Ideal) x4 = x4 := by
  unfold k0_pay8
  exact shapeCast_self _ _

end Cert.KernelIdeal.K0Value

end
-- ==== Proof.KI.K0Gru.lean ====
/-
  The second half of kernel 0's arithmetic read at an index (floats are extended reals): from the 4096 rows of
  inputs, states and fused gate pre-activations, the cell's mixture row by row, the masked mean over the 32
  neighbour slots of each event, and the rectified affine read-out of the node's features beside that mean.
-/
import proofs.«401926_j12421045420080_2_alg».proof.Proof.KI.K0In
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.K0Value

open Cert.KernelIdeal Cert.KernelIdeal.Gen Cert.KernelIdeal.Hand Cert.Spec
open Idealize.ShloMosaic Idealize.ShloMosaic.ValueIdx

namespace Gru

/-! ## The candidate's two products: 4096 rows against a transposed 128 × 128 weight

The contraction runs over the rows' 128 columns, which are the weight's columns too once the transpose is read
through; the four lemmas below name the operand indices of the product at an output index and a contraction
index, coordinate by coordinate. -/

theorem lhsA_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsA_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsA_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsA_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Rows against a weight matrix stored by output unit: entry (r, c) of the product with the transposed weight is
    the sum over the shared axis of row r times the weight's row c. -/
theorem matA_apply (x : FVec Ideal S4096x128 .bf16) (w : FVec Ideal S128x128 .bf16) (r : Fin 4096) (c : Fin 128) :
    matmul dot_S4096x128_S128x128_S4096x128_1_0_0_1_n_n none x
        (transpose S128x128 [1, 0] w transposes_S128x128_p1_0_S128x128) (constant (F := Ideal) S4096x128 .f32 0x00000000#32) (ix2 r c)
      = ∑ k : Fin 128, x (ix2 r k) * w (ix2 c k) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r c) ((ValueIdx.contrEquiv1 dot_S4096x128_S128x128_S4096x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S4096x128_S128x128_S4096x128_1_0_0_1_n_n.rhsIdx (ix2 r c) ((ValueIdx.contrEquiv1 dot_S4096x128_S128x128_S4096x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]
  exact congrArg (x (ix2 r k) * ·) (transpose_ix2_apply w transposes_S128x128_p1_0_S128x128 k c)

/-- The candidate's affine part: the product with the transposed weight plus the bias row, at (r, g). -/
theorem candA_apply (x : FVec Ideal S4096x128 .bf16) (w : FVec Ideal S128x128 .bf16) (b : FVec Ideal S1x128 .f32) (r : Fin 4096) (g : Fin 128) :
    addf (matmul dot_S4096x128_S128x128_S4096x128_1_0_0_1_n_n none x (transpose S128x128 [1, 0] w transposes_S128x128_p1_0_S128x128) (constant (F := Ideal) S4096x128 .f32 0x00000000#32))
        (broadcastTo S4096x128 b broadcasts_S1x128_S4096x128) (ix2 r g)
      = affine (fun j : Fin 128 => x (ix2 r j)) (fun a c : Fin 128 => w (ix2 a c)) (fun a : Fin 128 => b (ix2 0 a)) g := by
  rw [addf_apply, matA_apply, broadcastTo_1b_ab_apply]
  rfl

/-! ## The layout steps of the mixture and of the mean -/

/-- The first 128 columns of the fused pre-activation. -/
theorem sliceLo_apply (v : FVec Ideal S4096x256 .f32) (r : Fin 4096) (g : Fin 128) :
    extractStridedSlice S4096x128 ![0, 0] v slices_S4096x256_o0_0_S4096x128 (ix2 r g) = v (ix2 r ⟨g.val, by omega⟩) :=
  slice2_axis1_apply 0 v slices_S4096x256_o0_0_S4096x128 r g ⟨g.val, by omega⟩ (Nat.zero_add _).symm

/-- The next 128 columns. -/
theorem sliceHi_apply (v : FVec Ideal S4096x256 .f32) (r : Fin 4096) (g : Fin 128) :
    extractStridedSlice S4096x128 ![0, 128] v slices_S4096x256_o0_128_S4096x128 (ix2 r g) = v (ix2 r ⟨128 + g.val, by omega⟩) :=
  slice2_axis1_apply 128 v slices_S4096x256_o0_128_S4096x128 r g ⟨128 + g.val, by omega⟩ rfl

/-- The 4096 rows regrouped as 128 events of 32 slots: slot (p, k) is row 32·p + k. -/
theorem castRows_apply (v : FVec Ideal S4096x128 .f32) (p : Fin 128) (k : Fin 32) (g : Fin 128) :
    shapeCast S128x32x128 v shapeCasts_S4096x128_S128x32x128 (ix3 p k g) = v (ix2 (slotRow p k) g) :=
  shapeCast_apply v shapeCasts_S4096x128_S128x32x128 _ _ (by
    rw [Shape.rowMajor_val_three, Shape.rowMajor_val_two]
    show (32 * p.val + k.val) * 128 + g.val = (p.val * 32 + k.val) * 128 + g.val
    omega)

/-- A trailing unit axis added. -/
theorem castMask_apply (v : FVec Ideal S128x32 .f32) (p : Fin 128) (k : Fin 32) (z : Fin 1) :
    shapeCast S128x32x1 v shapeCasts_S128x32_S128x32x1 (ix3 p k z) = v (ix2 p k) :=
  shapeCast_apply v shapeCasts_S128x32_S128x32x1 _ _ (by
    rw [Shape.rowMajor_val_three, Shape.rowMajor_val_two]
    show p.val * 32 + k.val = (p.val * 32 + k.val) * 1 + z.val
    have := z.isLt
    omega)

/-- The unit axis spread over the 128 hidden units. -/
theorem bcastMask_apply (v : FVec Ideal S128x32x1 .f32) (p : Fin 128) (k : Fin 32) (g : Fin 128) :
    broadcastTo S128x32x128 v broadcasts_S128x32x1_S128x32x128 (ix3 p k g) = v (ix3 p k (0 : Fin 1)) :=
  broadcastTo_apply v broadcasts_S128x32x1_S128x32x128 _ _ fun a => by
    match a with
    | ⟨0, _⟩ => rfl
    | ⟨1, _⟩ => rfl
    | ⟨2, _⟩ => rfl

/-- The count column spread over the 128 hidden units. -/
theorem bcastCnt_apply (v : FVec Ideal S128x1 .f32) (p : Fin 128) (g : Fin 128) :
    broadcastTo S128x128 v broadcasts_S128x1_S128x128 (ix2 p g) = v (ix2 p (0 : Fin 1)) :=
  broadcastTo_apply v broadcasts_S128x1_S128x128 _ _ fun a => by
    match a with
    | ⟨0, _⟩ => rfl
    | ⟨1, _⟩ => rfl

/-- The sum over the 32 slots of an event, per hidden unit. -/
theorem sumMid_apply (v : FVec Ideal S128x32x128 .f32) (p : Fin 128) (g : Fin 128) :
    multiReduction .add [1] S128x128 v 0x00000000#32 reduces_S128x32x128_S128x128 (.inl rfl) rfl (ix2 p g)
      = ∑ k : Fin 32, v (ix3 p k g) := by
  refine (Ideal.multiReduction_add_single v _ reduces_S128x32x128_S128x128 (.inl rfl) rfl (ix2 p g)).trans ?_
  refine Finset.sum_congr rfl fun k _ => congrArg v (funext fun a => Fin.ext ?_)
  match a with
  | ⟨0, _⟩ => rfl
  | ⟨1, _⟩ => rfl
  | ⟨2, _⟩ => rfl

/-- The sum over the 32 slots of an event of a column. -/
theorem sumLast_apply (v : FVec Ideal S128x32x1 .f32) (p : Fin 128) (z : Fin 1) :
    multiReduction .add [1] S128x1 v 0x00000000#32 reduces_S128x32x1_S128x1 (.inl rfl) rfl (ix2 p z)
      = ∑ k : Fin 32, v (ix3 p k z) := by
  refine (Ideal.multiReduction_add_single v _ reduces_S128x32x1_S128x1 (.inl rfl) rfl (ix2 p z)).trans ?_
  refine Finset.sum_congr rfl fun k _ => congrArg v (funext fun a => Fin.ext ?_)
  match a with
  | ⟨0, _⟩ => rfl
  | ⟨1, _⟩ => rfl
  | ⟨2, _⟩ => rfl

/-- The neighbour mask: one where the id word is not the padding id, zero where it is. -/
theorem mask_apply (x3 : Vec Ideal S128x32 .i32) (p : Fin 128) (k : Fin 32) :
    (sitofp .f32 (extui 32 (cmpi .ne x3 (broadcast S128x32 0#32)) natLt_1_32) : FVec Ideal S128x32 .f32) (ix2 p k) = maskOf (x3 (ix2 p k)) := by
  rw [sitofp_apply, extui_apply]
  show ((((IntOp.cmpi .ne (x3 (ix2 p k)) 0#32).setWidth 32).toInt : ℝ) : EReal) = _
  unfold maskOf IntOp.cmpi
  by_cases h : x3 (ix2 p k) = 0#32
  · rw [if_pos h, h]; simp
  · rw [if_neg h]
    have : (x3 (ix2 p k) != 0#32) = true := by simpa using h
    simp [this]

/-- The literal one of the mixture. -/
theorem one_f32 : (FloatOps.ofBits .f32 0x3F800000#32 : Ideal .f32) = 1 := Ideal.ofBits_one_f32

theorem tanh_apply' {s : Shape} {φ : FTy} (a : FVec Ideal s φ) (i : s.Idx) : tanh a i = Ideal.tanh (a i) := rfl
theorem logistic_apply' {s : Shape} {φ : FTy} (a : FVec Ideal s φ) (i : s.Idx) : logistic a i = Ideal.logistic (a i) := rfl

/-! ## The read-out's product: 128 rows against a transposed 64 × 192 weight, and the two blocks side by side -/

theorem lhsB_0 (i : S128x64.Idx) (q : dot_S128x192_S192x64_S128x64_1_0_0_1_n_n.contr.Idx) :
    (dot_S128x192_S192x64_S128x64_1_0_0_1_n_n.lhsIdx i q 0).val = (i 0).val := by
  unfold DotDims.lhsIdx
  rw [dif_neg (show ¬(0 : Fin S128x192.rank) ∈ dot_S128x192_S192x64_S128x64_1_0_0_1_n_n.lhsBatch by decide), dif_pos (show (0 : Fin S128x192.rank) ∈ dot_S128x192_S192x64_S128x64_1_0_0_1_n_n.lhsNonContracting by decide)]
  rfl
theorem lhsB_1 (i : S128x64.Idx) (q : dot_S128x192_S192x64_S128x64_1_0_0_1_n_n.contr.Idx) :
    (dot_S128x192_S192x64_S128x64_1_0_0_1_n_n.lhsIdx i q 1).val = (q ⟨0, by decide⟩).val :=
  dot_S128x192_S192x64_S128x64_1_0_0_1_n_n.lhsIdx_val_of_single rfl i q
theorem rhsB_0 (i : S128x64.Idx) (q : dot_S128x192_S192x64_S128x64_1_0_0_1_n_n.contr.Idx) :
    (dot_S128x192_S192x64_S128x64_1_0_0_1_n_n.rhsIdx i q 0).val = (q ⟨0, by decide⟩).val :=
  dot_S128x192_S192x64_S128x64_1_0_0_1_n_n.rhsIdx_val_of_single rfl i q
theorem rhsB_1 (i : S128x64.Idx) (q : dot_S128x192_S192x64_S128x64_1_0_0_1_n_n.contr.Idx) :
    (dot_S128x192_S192x64_S128x64_1_0_0_1_n_n.rhsIdx i q 1).val = (i 1).val := by
  unfold DotDims.rhsIdx
  rw [dif_neg (show ¬(1 : Fin S192x64.rank) ∈ dot_S128x192_S192x64_S128x64_1_0_0_1_n_n.rhsBatch by decide), dif_pos (show (1 : Fin S192x64.rank) ∈ dot_S128x192_S192x64_S128x64_1_0_0_1_n_n.rhsNonContracting by decide)]
  rfl

/-- The read-out's product: entry (r, c) against the transposed 64 × 192 weight is the sum over the 192 shared
    columns of row r times the weight's row c. -/
theorem matB_apply (x : FVec Ideal S128x192 .bf16) (w : FVec Ideal S64x192 .bf16) (r : Fin 128) (c : Fin 64) :
    matmul dot_S128x192_S192x64_S128x64_1_0_0_1_n_n none x
        (transpose S192x64 [1, 0] w transposes_S64x192_p1_0_S192x64) (constant (F := Ideal) S128x64 .f32 0x00000000#32) (ix2 r c)
      = ∑ k : Fin 192, x (ix2 r k) * w (ix2 c k) := by
  simp only [matmul]
  rw [Ideal.matmul_constant_zero_apply, ← Equiv.sum_comp (ValueIdx.contrEquiv1 dot_S128x192_S192x64_S128x64_1_0_0_1_n_n 192 rfl rfl).symm]
  refine Finset.sum_congr rfl fun k _ => ?_
  have hk := ValueIdx.contrEquiv1_symm_val dot_S128x192_S192x64_S128x64_1_0_0_1_n_n 192 rfl rfl k
  have el : dot_S128x192_S192x64_S128x64_1_0_0_1_n_n.lhsIdx (ix2 r c) ((ValueIdx.contrEquiv1 dot_S128x192_S192x64_S128x64_1_0_0_1_n_n 192 rfl rfl).symm k) = ix2 r k := funext fun a => Fin.ext (by
    match a with
    | ⟨0, _⟩ => exact lhsB_0 _ _
    | ⟨1, _⟩ => exact (lhsB_1 _ _).trans hk)
  have er : dot_S128x192_S192x64_S128x64_1_0_0_1_n_n.rhsIdx (ix2 r c) ((ValueIdx.contrEquiv1 dot_S128x192_S192x64_S128x64_1_0_0_1_n_n 192 rfl rfl).symm k) = ix2 k c := funext fun a => Fin.ext (by
    match a with
    | ⟨0, _⟩ => exact (rhsB_0 _ _).trans hk
    | ⟨1, _⟩ => exact rhsB_1 _ _)
  rw [el, er]
  exact congrArg (x (ix2 r k) * ·) (transpose_ix2_apply w transposes_S64x192_p1_0_S192x64 k c)

/-- Two blocks joined along their columns, read at a column: the first block's 64 columns, then the second's 128. -/
theorem concatB_apply (u : FVec Ideal S128x64 .bf16) (v : FVec Ideal S128x128 .bf16) (p : Fin 128) (k : Fin 192) :
    concatenate S128x192 1 [⟨S128x64, u⟩, ⟨S128x128, v⟩] concatenates_S128x64_S128x128_S128x192_d1 (ix2 p k)
      = sideBySide (fun q : Fin 64 => u (ix2 p q)) (fun g : Fin 128 => v (ix2 p g)) k := by
  unfold sideBySide
  by_cases hk : k.val < 64
  · rw [dif_pos hk]
    refine concatenate_pair_apply_left (1 : Fin S128x192.rank) u v _ (ix2 p k) rfl (ix2 p ⟨k.val, hk⟩) fun b => ?_
    match b with
    | ⟨0, _⟩ => rfl
    | ⟨1, _⟩ => rfl
  · rw [dif_neg hk]
    refine concatenate_pair_apply_right (1 : Fin S128x192.rank) u v _ (ix2 p k) rfl rfl (ix2 p ⟨k.val - 64, by have := k.isLt; omega⟩) (fun b hb => ?_) ?_
    · match b with
      | ⟨0, _⟩ => rfl
      | ⟨1, _⟩ => exact absurd rfl hb
    · show (k.val - 64) + 64 = k.val
      omega

end Gru

open Gru

/-! ## The two payloads -/

/-- The masked mean of the mixed rows: at event `p` and hidden unit `g`. -/
theorem pay7_apply (v22 : FVec Ideal S4096x128 .bf16) (v24 : FVec Ideal S4096x128 .f32) (v25 : FVec Ideal S4096x128 .bf16)
    (v34 : FVec Ideal S4096x256 .f32) (v36 : FVec Ideal S128x128 .bf16) (x10 : Vec Ideal S128x128 .bf16)
    (x12 x13 : Vec Ideal S1x128 .f32) (x3 : Vec Ideal S128x32 .i32) (p : Fin 128) (g : Fin 128) :
    k0_pay7 (F := Ideal) v22 v24 v25 v34 v36 x10 x12 x13 x3 (ix2 p g)
      = maskedMean (fun k : Fin 32 =>
          gruMix (fun q : Fin 256 => v34 (ix2 (slotRow p k) q))
            (affine (fun j : Fin 128 => v22 (ix2 (slotRow p k) j)) (fun a b : Fin 128 => v36 (ix2 a b)) (fun a : Fin 128 => x12 (ix2 0 a)))
            (affine (fun j : Fin 128 => v25 (ix2 (slotRow p k) j)) (fun a b : Fin 128 => x10 (ix2 a b)) (fun a : Fin 128 => x13 (ix2 0 a)))
            (fun u : Fin 128 => v24 (ix2 (slotRow p k) u)))
          (fun k : Fin 32 => x3 (ix2 p k)) g := by
  unfold k0_pay7
  rw [shapeCast_self, shapeCast_self, shapeCast_self]
  refine (truncf_apply (φ := .f32) (ψ := .bf16) _ bitsLt_bf16_f32 (ix2 p g)).trans ?_
  refine (divf_apply _ _ _).trans ?_
  unfold maskedMean
  refine congrArg₂ Ideal.div ?_ ?_
  · rw [sumMid_apply]
    refine Finset.sum_congr rfl fun k _ => ?_
    rw [mulf_apply, castRows_apply, bcastMask_apply, castMask_apply, mask_apply]
    refine congrArg (· * maskOf (x3 (ix2 p k))) ?_
    rw [addf_apply, mulf_apply, mulf_apply, subf_apply, broadcast_apply, tanh_apply', addf_apply, mulf_apply,
      logistic_apply', logistic_apply', candA_apply, candA_apply, sliceLo_apply, sliceHi_apply, one_f32]
    rfl
  · rw [bcastCnt_apply, maximumf_apply, broadcast_apply, sumLast_apply, one_f32]
    refine congrArg (max · 1) (Finset.sum_congr rfl fun k _ => ?_)
    rw [castMask_apply, mask_apply]

/-- The read-out: the node's features beside the mean, through an affine map and a rectifier. -/
theorem pay1_apply (v78 : FVec Ideal S128x128 .bf16) (v80 : FVec Ideal S128x64 .bf16) (x14 : Vec Ideal S64x192 .bf16) (x15 : Vec Ideal S1x64 .f32)
    (p : Fin 128) (f : Fin 64) :
    k0_pay1 (F := Ideal) v78 v80 x14 x15 (ix2 p f)
      = max (affine (sideBySide (fun q : Fin 64 => v80 (ix2 p q)) (fun g : Fin 128 => v78 (ix2 p g)))
          (fun a : Fin 64 => fun b : Fin 192 => x14 (ix2 a b)) (fun a : Fin 64 => x15 (ix2 0 a)) f) 0 := by
  unfold k0_pay1
  rw [shapeCast_self, shapeCast_self]
  refine (maximumf_apply _ _ _).trans ?_
  rw [broadcast_apply, addf_apply, matB_apply, broadcastTo_1b_ab_apply]
  simp only [concatB_apply]
  exact congrArg (max _) Ideal.ofBits_zero_f32

end Cert.KernelIdeal.K0Value

end
-- ==== Proof.KI.K0Block.lean ====
/-
  Kernel 0's output block at a row is the fused-cell embedding of that row of its input blocks (floats are extended
  reals): the two halves of the body's arithmetic composed.
-/
import proofs.«401926_j12421045420080_2_alg».proof.Proof.KI.K0Gru
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.K0Value

open Cert.KernelIdeal Cert.KernelIdeal.Gen Cert.KernelIdeal.Hand Cert.Spec
open Idealize.ShloMosaic Idealize.ShloMosaic.ValueIdx

theorem kout0_apply (x0 : Vec Ideal S128x32x128 .f32) (x1 : Vec Ideal S128x32x64 .bf16) (x2 : Vec Ideal S128x32 .f32) (x3 : Vec Ideal S128x32 .i32) (x4 : Vec Ideal S128x64 .bf16) (x5 : Vec Ideal S128x1 .f32) (x6 : Vec Ideal S1x64 .f32) (x7 : Vec Ideal S1x64 .f32) (x8 : Vec Ideal S256x256 .bf16) (x9 : Vec Ideal S128x128 .bf16) (x10 : Vec Ideal S128x128 .bf16) (x11 : Vec Ideal S1x256 .f32) (x12 : Vec Ideal S1x128 .f32) (x13 : Vec Ideal S1x128 .f32) (x14 : Vec Ideal S64x192 .bf16) (x15 : Vec Ideal S1x64 .f32) (p : Fin 128) (f : Fin 64) :
    kout0 (F := Ideal) x0 x1 x2 x3 x4 x5 x6 x7 x8 x9 x10 x11 x12 x13 x14 x15 (ix2 p f)
      = embRowFused (fun (k : Fin 32) (g : Fin 128) => x0 (ix3 p k g)) (fun (k : Fin 32) (q : Fin 64) => x1 (ix3 p k q)) (fun k : Fin 32 => x2 (ix2 p k))
          (fun k : Fin 32 => x3 (ix2 p k)) (fun q : Fin 64 => x4 (ix2 p q)) (x5 (ix2 p 0)) (fun q : Fin 64 => x6 (ix2 0 q)) (fun q : Fin 64 => x7 (ix2 0 q))
          (fun a b : Fin 256 => x8 (ix2 a b)) (fun a b : Fin 128 => x9 (ix2 a b)) (fun a b : Fin 128 => x10 (ix2 a b))
          (fun a : Fin 256 => x11 (ix2 0 a)) (fun a : Fin 128 => x12 (ix2 0 a)) (fun a : Fin 128 => x13 (ix2 0 a))
          (fun (a : Fin 64) (b : Fin 192) => x14 (ix2 a b)) (fun a : Fin 64 => x15 (ix2 0 a)) f := by
  -- the read-out of the node's features beside the mean; the mean of the mixed rows; then every intermediate
  -- block read at its index: inputs, states, the fused gate pre-activation, and the identity casts
  unfold kout0
  rw [pay1_apply]
  simp only [pay8_eq, pay7_apply, pay6_eq, pay4_eq, pay3_apply, pay5_apply, pay2_apply]
  -- both sides are now the same expression, up to the names `xRow`, `gruFused` and `embRowFused`
  rfl

end Cert.KernelIdeal.K0Value

end
-- ==== Proof.KI.K0Array.lean ====
/-
  Region 0's result array from its blocks (floats are extended reals). The grid has 96 points; point t handles
  events 128·t … 128·t + 127: every row-indexed operand's block at t is those rows of its array, every parameter
  operand's block is the whole array; the output's block at t is written back to those rows. The body's result at
  a row of a block depends only on that row of the row-indexed operands; so the result array at event n is that
  row function of row n of the arrays.
-/
import proofs.«401926_j12421045420080_2_alg».proof.Proof.KI.Data
import proofs.«401926_j12421045420080_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.K0Value

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Arr

/-! ## Offsets and block indices -/

theorem zero2 : (![0, 0] : Fin 2 → Nat) = fun _ => 0 := funext fun a => by fin_cases a <;> rfl
theorem zero3 : (![0, 0, 0] : Fin 3 → Nat) = fun _ => 0 := funext fun a => by fin_cases a <;> rfl

/-- The row-indexed operands and the result: at point `t` the block index is `t` on the row axis and 0 on the others. -/
theorem idx_rows : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_16.index t (0 : Fin 2) = t.val ∧ win0_16.index t (1 : Fin 2) = 0 :=
  (by decide +kernel : ∀ t : Fin grid0.N, _)

/-- The parameter operands: the block index is 0 on both axes at every point. -/
theorem idx_params : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-! ## Each operand's block at a point, read off its array -/

/-- Operand 0: entry `y` of point `t`'s block is the array's entry at row `128·t + y₀`. -/
theorem blk0_apply (c : Dev nD) (t : Fin cfg0.N) (y : S128x32x128.Idx) (k : S12288x32x128.Idx)
    (h0 : (k 0).val = 128 * t.val + (y 0).val) (h1 : (k 1).val = (y 1).val) (h2 : (k 2).val = (y 2).val) :
    (iblk0 V c 0 t : Vec Ideal S128x32x128 .f32) y = (V c main_arg7 : S12288x32x128.Idx → EReal) k := by
  obtain ⟨e0, e1, e2, -⟩ := idx_rows t
  unfold iblk0
  rw [View.read_apply]
  show (V c main_arg7 : S12288x32x128.Idx → EReal) (((cfg0.win 0).blk t).view.emb y) = _
  refine congrArg (V c main_arg7 : S12288x32x128.Idx → EReal) ?_
  funext a
  apply Fin.ext
  match a with
  | ⟨0, _⟩ => show win0_0.index t (0 : Fin 3) * 128 + 1 * (y 0).val = (k 0).val; omega
  | ⟨1, _⟩ => show win0_0.index t (1 : Fin 3) * 32 + 1 * (y 1).val = (k 1).val; omega
  | ⟨2, _⟩ => show win0_0.index t (2 : Fin 3) * 128 + 1 * (y 2).val = (k 2).val; omega

/-- Operand 6: the block is the whole array. -/
theorem blk6_eq (c : Dev nD) (t : Fin cfg0.N) :
    (iblk0 V c 6 t : Vec Ideal S1x64 .f32) = (V c main_v9 : S1x64.Idx → EReal) := by
  obtain ⟨e0, e1, -⟩ := idx_params t
  funext y
  unfold iblk0
  rw [View.read_apply]
  show (V c main_v9 : S1x64.Idx → EReal) (((cfg0.win 6).blk t).view.emb y) = _
  refine congrArg (V c main_v9 : S1x64.Idx → EReal) ?_
  funext a
  apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- Operand 1: entry `y` of point `t`'s block is the array's entry at row `128·t + y₀`. -/
theorem blk1_apply (c : Dev nD) (t : Fin cfg0.N) (y : S128x32x64.Idx) (k : S12288x32x64.Idx)
    (h0 : (k 0).val = 128 * t.val + (y 0).val) (h1 : (k 1).val = (y 1).val) (h2 : (k 2).val = (y 2).val) :
    (iblk0 V c 1 t : Vec Ideal S128x32x64 .bf16) y = (V c main_v4 : S12288x32x64.Idx → EReal) k := by
  obtain ⟨-, -, -, e0, e1, e2, -⟩ := idx_rows t
  unfold iblk0
  rw [View.read_apply]
  show (V c main_v4 : S12288x32x64.Idx → EReal) (((cfg0.win 1).blk t).view.emb y) = _
  refine congrArg (V c main_v4 : S12288x32x64.Idx → EReal) ?_
  funext a
  apply Fin.ext
  match a with
  | ⟨0, _⟩ => show win0_1.index t (0 : Fin 3) * 128 + 1 * (y 0).val = (k 0).val; omega
  | ⟨1, _⟩ => show win0_1.index t (1 : Fin 3) * 32 + 1 * (y 1).val = (k 1).val; omega
  | ⟨2, _⟩ => show win0_1.index t (2 : Fin 3) * 64 + 1 * (y 2).val = (k 2).val; omega

/-- Operand 2: entry `y` of point `t`'s block is the array's entry at row `128·t + y₀`. -/
theorem blk2_apply (c : Dev nD) (t : Fin cfg0.N) (y : S128x32.Idx) (k : S12288x32.Idx)
    (h0 : (k 0).val = 128 * t.val + (y 0).val) (h1 : (k 1).val = (y 1).val) :
    (iblk0 V c 2 t : Vec Ideal S128x32 .f32) y = (V c main_arg6 : S12288x32.Idx → EReal) k := by
  obtain ⟨-, -, -, -, -, -, e0, e1, -⟩ := idx_rows t
  unfold iblk0
  rw [View.read_apply]
  show (V c main_arg6 : S12288x32.Idx → EReal) (((cfg0.win 2).blk t).view.emb y) = _
  refine congrArg (V c main_arg6 : S12288x32.Idx → EReal) ?_
  funext a
  apply Fin.ext
  match a with
  | ⟨0, _⟩ => show win0_2.index t (0 : Fin 2) * 128 + 1 * (y 0).val = (k 0).val; omega
  | ⟨1, _⟩ => show win0_2.index t (1 : Fin 2) * 32 + 1 * (y 1).val = (k 1).val; omega

/-- Operand 3 (integer words): entry `y` of point `t`'s block is the array's entry at row `128·t + y₀`. -/
theorem blk3_apply (c : Dev nD) (t : Fin cfg0.N) (y : S128x32.Idx) (k : S12288x32.Idx)
    (h0 : (k 0).val = 128 * t.val + (y 0).val) (h1 : (k 1).val = (y 1).val) :
    (iblk0 V c 3 t : Vec Ideal S128x32 .i32) y = (V c main_arg4 : S12288x32.Idx → BitVec 32) k := by
  obtain ⟨-, -, -, -, -, -, -, -, e0, e1, -⟩ := idx_rows t
  unfold iblk0
  rw [View.read_apply]
  show (V c main_arg4 : S12288x32.Idx → BitVec 32) (((cfg0.win 3).blk t).view.emb y) = _
  refine congrArg (V c main_arg4 : S12288x32.Idx → BitVec 32) ?_
  funext a
  apply Fin.ext
  match a with
  | ⟨0, _⟩ => show win0_3.index t (0 : Fin 2) * 128 + 1 * (y 0).val = (k 0).val; omega
  | ⟨1, _⟩ => show win0_3.index t (1 : Fin 2) * 32 + 1 * (y 1).val = (k 1).val; omega

/-- Operand 4: entry `y` of point `t`'s block is the array's entry at row `128·t + y₀`. -/
theorem blk4_apply (c : Dev nD) (t : Fin cfg0.N) (y : S128x64.Idx) (k : S12288x64.Idx)
    (h0 : (k 0).val = 128 * t.val + (y 0).val) (h1 : (k 1).val = (y 1).val) :
    (iblk0 V c 4 t : Vec Ideal S128x64 .bf16) y = (V c main_v2 : S12288x64.Idx → EReal) k := by
  obtain ⟨-, -, -, -, -, -, -, -, -, -, e0, e1, -⟩ := idx_rows t
  unfold iblk0
  rw [View.read_apply]
  show (V c main_v2 : S12288x64.Idx → EReal) (((cfg0.win 4).blk t).view.emb y) = _
  refine congrArg (V c main_v2 : S12288x64.Idx → EReal) ?_
  funext a
  apply Fin.ext
  match a with
  | ⟨0, _⟩ => show win0_4.index t (0 : Fin 2) * 128 + 1 * (y 0).val = (k 0).val; omega
  | ⟨1, _⟩ => show win0_4.index t (1 : Fin 2) * 64 + 1 * (y 1).val = (k 1).val; omega

/-- Operand 5: entry `y` of point `t`'s block is the array's entry at row `128·t + y₀`. -/
theorem blk5_apply (c : Dev nD) (t : Fin cfg0.N) (y : S128x1.Idx) (k : S12288x1.Idx)
    (h0 : (k 0).val = 128 * t.val + (y 0).val) (h1 : (k 1).val = (y 1).val) :
    (iblk0 V c 5 t : Vec Ideal S128x1 .f32) y = (V c main_v8 : S12288x1.Idx → EReal) k := by
  obtain ⟨-, -, -, -, -, -, -, -, -, -, -, -, e0, e1, -⟩ := idx_rows t
  unfold iblk0
  rw [View.read_apply]
  show (V c main_v8 : S12288x1.Idx → EReal) (((cfg0.win 5).blk t).view.emb y) = _
  refine congrArg (V c main_v8 : S12288x1.Idx → EReal) ?_
  funext a
  apply Fin.ext
  match a with
  | ⟨0, _⟩ => show win0_5.index t (0 : Fin 2) * 128 + 1 * (y 0).val = (k 0).val; omega
  | ⟨1, _⟩ => show win0_5.index t (1 : Fin 2) * 1 + 1 * (y 1).val = (k 1).val; omega

/-- Operand 7: the block is the whole array. -/
theorem blk7_eq (c : Dev nD) (t : Fin cfg0.N) :
    (iblk0 V c 7 t : Vec Ideal S1x64 .f32) = (V c main_v10 : S1x64.Idx → EReal) := by
  obtain ⟨-, -, e0, e1, -⟩ := idx_params t
  funext y
  unfold iblk0
  rw [View.read_apply]
  show (V c main_v10 : S1x64.Idx → EReal) (((cfg0.win 7).blk t).view.emb y) = _
  refine congrArg (V c main_v10 : S1x64.Idx → EReal) ?_
  funext a
  apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Operand 8: the block is the whole array. -/
theorem blk8_eq (c : Dev nD) (t : Fin cfg0.N) :
    (iblk0 V c 8 t : Vec Ideal S256x256 .bf16) = (V c main_v24 : S256x256.Idx → EReal) := by
  obtain ⟨-, -, -, -, e0, e1, -⟩ := idx_params t
  funext y
  unfold iblk0
  rw [View.read_apply]
  show (V c main_v24 : S256x256.Idx → EReal) (((cfg0.win 8).blk t).view.emb y) = _
  refine congrArg (V c main_v24 : S256x256.Idx → EReal) ?_
  funext a
  apply Fin.ext
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Operand 9: the block is the whole array. -/
theorem blk9_eq (c : Dev nD) (t : Fin cfg0.N) :
    (iblk0 V c 9 t : Vec Ideal S128x128 .bf16) = (V c main_v25 : S128x128.Idx → EReal) := by
  obtain ⟨-, -, -, -, -, -, e0, e1, -⟩ := idx_params t
  funext y
  unfold iblk0
  rw [View.read_apply]
  show (V c main_v25 : S128x128.Idx → EReal) (((cfg0.win 9).blk t).view.emb y) = _
  refine congrArg (V c main_v25 : S128x128.Idx → EReal) ?_
  funext a
  apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Operand 10: the block is the whole array. -/
theorem blk10_eq (c : Dev nD) (t : Fin cfg0.N) :
    (iblk0 V c 10 t : Vec Ideal S128x128 .bf16) = (V c main_v26 : S128x128.Idx → EReal) := by
  obtain ⟨-, -, -, -, -, -, -, -, e0, e1, -⟩ := idx_params t
  funext y
  unfold iblk0
  rw [View.read_apply]
  show (V c main_v26 : S128x128.Idx → EReal) (((cfg0.win 10).blk t).view.emb y) = _
  refine congrArg (V c main_v26 : S128x128.Idx → EReal) ?_
  funext a
  apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Operand 11: the block is the whole array. -/
theorem blk11_eq (c : Dev nD) (t : Fin cfg0.N) :
    (iblk0 V c 11 t : Vec Ideal S1x256 .f32) = (V c main_v19 : S1x256.Idx → EReal) := by
  obtain ⟨-, -, -, -, -, -, -, -, -, -, e0, e1, -⟩ := idx_params t
  funext y
  unfold iblk0
  rw [View.read_apply]
  show (V c main_v19 : S1x256.Idx → EReal) (((cfg0.win 11).blk t).view.emb y) = _
  refine congrArg (V c main_v19 : S1x256.Idx → EReal) ?_
  funext a
  apply Fin.ext
  match a with
  | ⟨0, _⟩ => show win0_11.index t (0 : Fin 2) * 1 + 1 * (y 0).val = (y 0).val; omega
  | ⟨1, _⟩ => show win0_11.index t (1 : Fin 2) * 256 + 1 * (y 1).val = (y 1).val; omega

/-- Operand 12: the block is the whole array. -/
theorem blk12_eq (c : Dev nD) (t : Fin cfg0.N) :
    (iblk0 V c 12 t : Vec Ideal S1x128 .f32) = (V c main_v21 : S1x128.Idx → EReal) := by
  obtain ⟨-, -, -, -, -, -, -, -, -, -, -, -, e0, e1, -⟩ := idx_params t
  funext y
  unfold iblk0
  rw [View.read_apply]
  show (V c main_v21 : S1x128.Idx → EReal) (((cfg0.win 12).blk t).view.emb y) = _
  refine congrArg (V c main_v21 : S1x128.Idx → EReal) ?_
  funext a
  apply Fin.ext
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Operand 13: the block is the whole array. -/
theorem blk13_eq (c : Dev nD) (t : Fin cfg0.N) :
    (iblk0 V c 13 t : Vec Ideal S1x128 .f32) = (V c main_v23 : S1x128.Idx → EReal) := by
  obtain ⟨-, -, -, -, -, -, -, -, -, -, -, -, -, -, e0, e1, -⟩ := idx_params t
  funext y
  unfold iblk0
  rw [View.read_apply]
  show (V c main_v23 : S1x128.Idx → EReal) (((cfg0.win 13).blk t).view.emb y) = _
  refine congrArg (V c main_v23 : S1x128.Idx → EReal) ?_
  funext a
  apply Fin.ext
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- Operand 14: the block is the whole array. -/
theorem blk14_eq (c : Dev nD) (t : Fin cfg0.N) :
    (iblk0 V c 14 t : Vec Ideal S64x192 .bf16) = (V c main_v27 : S64x192.Idx → EReal) := by
  obtain ⟨-, -, -, -, -, -, -, -, -, -, -, -, -, -, -, -, e0, e1, -⟩ := idx_params t
  funext y
  unfold iblk0
  rw [View.read_apply]
  show (V c main_v27 : S64x192.Idx → EReal) (((cfg0.win 14).blk t).view.emb y) = _
  refine congrArg (V c main_v27 : S64x192.Idx → EReal) ?_
  funext a
  apply Fin.ext
  match a with
  | ⟨0, _⟩ => show win0_14.index t (0 : Fin 2) * 64 + 1 * (y 0).val = (y 0).val; omega
  | ⟨1, _⟩ => show win0_14.index t (1 : Fin 2) * 192 + 1 * (y 1).val = (y 1).val; omega

/-- Operand 15: the block is the whole array. -/
theorem blk15_eq (c : Dev nD) (t : Fin cfg0.N) :
    (iblk0 V c 15 t : Vec Ideal S1x64 .f32) = (V c main_v28 : S1x64.Idx → EReal) := by
  obtain ⟨-, -, -, -, -, -, -, -, -, -, -, -, -, -, -, -, -, -, e0, e1⟩ := idx_params t
  funext y
  unfold iblk0
  rw [View.read_apply]
  show (V c main_v28 : S1x64.Idx → EReal) (((cfg0.win 15).blk t).view.emb y) = _
  refine congrArg (V c main_v28 : S1x64.Idx → EReal) ?_
  funext a
  apply Fin.ext
  match a with
  | ⟨0, _⟩ => show win0_15.index t (0 : Fin 2) * 1 + 1 * (y 0).val = (y 0).val; omega
  | ⟨1, _⟩ => show win0_15.index t (1 : Fin 2) * 64 + 1 * (y 1).val = (y 1).val; omega

/-! ## The body's result block, row by row -/

/-- The body's stored block is its value function of the loaded blocks: every load and the one store go through the
    whole buffer. -/
theorem out0_eq (x0 : Vec Ideal S128x32x128 .f32) (x1 : Vec Ideal S128x32x64 .bf16) (x2 : Vec Ideal S128x32 .f32) (x3 : Vec Ideal S128x32 .i32) (x4 : Vec Ideal S128x64 .bf16) (x5 : Vec Ideal S128x1 .f32) (x6 : Vec Ideal S1x64 .f32) (x7 : Vec Ideal S1x64 .f32) (x8 : Vec Ideal S256x256 .bf16) (x9 : Vec Ideal S128x128 .bf16) (x10 : Vec Ideal S128x128 .bf16) (x11 : Vec Ideal S1x256 .f32) (x12 : Vec Ideal S1x128 .f32) (x13 : Vec Ideal S1x128 .f32) (x14 : Vec Ideal S64x192 .bf16) (x15 : Vec Ideal S1x64 .f32) :
    out0 (F := Ideal) x0 x1 x2 x3 x4 x5 x6 x7 x8 x9 x10 x11 x12 x13 x14 x15
      = kout0 (F := Ideal) x0 x1 x2 x3 x4 x5 x6 x7 x8 x9 x10 x11 x12 x13 x14 x15 := by
  unfold out0
  rw [View.canon_unit_zero zero2]
  simp only [View.ld_unit_zero (S := S128x32x128) zero3, View.ld_unit_zero (S := S128x32x64) zero3,
    View.ld_unit_zero (S := S128x32) zero2, View.ld_unit_zero (S := S128x64) zero2, View.ld_unit_zero (S := S128x1) zero2,
    View.ld_unit_zero (S := S1x64) zero2, View.ld_unit_zero (S := S256x256) zero2, View.ld_unit_zero (S := S128x128) zero2,
    View.ld_unit_zero (S := S1x256) zero2, View.ld_unit_zero (S := S1x128) zero2, View.ld_unit_zero (S := S64x192) zero2]

section Rows

variable (R : (Fin 32 → Fin 128 → EReal) → (Fin 32 → Fin 64 → EReal) → (Fin 32 → EReal) → (Fin 32 → BitVec 32) → (Fin 64 → EReal) → EReal
      → (Fin 64 → EReal) → (Fin 64 → EReal) → (Fin 256 → Fin 256 → EReal) → (Fin 128 → Fin 128 → EReal) → (Fin 128 → Fin 128 → EReal)
      → (Fin 256 → EReal) → (Fin 128 → EReal) → (Fin 128 → EReal) → (Fin 64 → Fin 192 → EReal) → (Fin 64 → EReal) → Fin 64 → EReal)

/-- The array of row results: at event `i₀` and column `i₁`, the row function of row `i₀` of the row-indexed operands
    and of the parameter operands whole. -/
def rowsOf (c : Dev nD) : S12288x64.Idx → EReal := fun i =>
  R (fun (k : Fin 32) (g : Fin 128) => (V c main_arg7 : S12288x32x128.Idx → EReal) (ix3 (i 0) k g))
    (fun (k : Fin 32) (q : Fin 64) => (V c main_v4 : S12288x32x64.Idx → EReal) (ix3 (i 0) k q))
    (fun k : Fin 32 => (V c main_arg6 : S12288x32.Idx → EReal) (ix2 (i 0) k))
    (fun k : Fin 32 => (V c main_arg4 : S12288x32.Idx → BitVec 32) (ix2 (i 0) k))
    (fun q : Fin 64 => (V c main_v2 : S12288x64.Idx → EReal) (ix2 (i 0) q))
    ((V c main_v8 : S12288x1.Idx → EReal) (ix2 (i 0) 0))
    (fun q : Fin 64 => (V c main_v9 : S1x64.Idx → EReal) (ix2 0 q))
    (fun q : Fin 64 => (V c main_v10 : S1x64.Idx → EReal) (ix2 0 q))
    (fun a b : Fin 256 => (V c main_v24 : S256x256.Idx → EReal) (ix2 a b))
    (fun a b : Fin 128 => (V c main_v25 : S128x128.Idx → EReal) (ix2 a b))
    (fun a b : Fin 128 => (V c main_v26 : S128x128.Idx → EReal) (ix2 a b))
    (fun a : Fin 256 => (V c main_v19 : S1x256.Idx → EReal) (ix2 0 a))
    (fun a : Fin 128 => (V c main_v21 : S1x128.Idx → EReal) (ix2 0 a))
    (fun a : Fin 128 => (V c main_v23 : S1x128.Idx → EReal) (ix2 0 a))
    (fun (a : Fin 64) (b : Fin 192) => (V c main_v27 : S64x192.Idx → EReal) (ix2 a b))
    (fun a : Fin 64 => (V c main_v28 : S1x64.Idx → EReal) (ix2 0 a)) (i 1)

/-- The row function at equal arguments. -/
theorem rows_congr {a0 a0' : Fin 32 → Fin 128 → EReal} {a1 a1' : Fin 32 → Fin 64 → EReal} {a2 a2' : Fin 32 → EReal}
    {a3 a3' : Fin 32 → BitVec 32} {a4 a4' : Fin 64 → EReal} {a5 a5' : EReal} {a6 a6' : Fin 64 → EReal} {a7 a7' : Fin 64 → EReal}
    {a8 a8' : Fin 256 → Fin 256 → EReal} {a9 a9' : Fin 128 → Fin 128 → EReal} {a10 a10' : Fin 128 → Fin 128 → EReal}
    {a11 a11' : Fin 256 → EReal} {a12 a12' : Fin 128 → EReal} {a13 a13' : Fin 128 → EReal} {a14 a14' : Fin 64 → Fin 192 → EReal}
    {a15 a15' : Fin 64 → EReal} {f f' : Fin 64}
    (h0 : a0 = a0') (h1 : a1 = a1') (h2 : a2 = a2') (h3 : a3 = a3') (h4 : a4 = a4') (h5 : a5 = a5') (h6 : a6 = a6') (h7 : a7 = a7')
    (h8 : a8 = a8') (h9 : a9 = a9') (h10 : a10 = a10') (h11 : a11 = a11') (h12 : a12 = a12') (h13 : a13 = a13') (h14 : a14 = a14')
    (h15 : a15 = a15') (hf : f = f') :
    R a0 a1 a2 a3 a4 a5 a6 a7 a8 a9 a10 a11 a12 a13 a14 a15 f = R a0' a1' a2' a3' a4' a5' a6' a7' a8' a9' a10' a11' a12' a13' a14' a15' f' := by
  subst h0 h1 h2 h3 h4 h5 h6 h7 h8 h9 h10 h11 h12 h13 h14 h15 hf
  rfl

variable (hR : ∀ (x0 : Vec Ideal S128x32x128 .f32) (x1 : Vec Ideal S128x32x64 .bf16) (x2 : Vec Ideal S128x32 .f32) (x3 : Vec Ideal S128x32 .i32) (x4 : Vec Ideal S128x64 .bf16) (x5 : Vec Ideal S128x1 .f32) (x6 : Vec Ideal S1x64 .f32) (x7 : Vec Ideal S1x64 .f32) (x8 : Vec Ideal S256x256 .bf16) (x9 : Vec Ideal S128x128 .bf16) (x10 : Vec Ideal S128x128 .bf16) (x11 : Vec Ideal S1x256 .f32) (x12 : Vec Ideal S1x128 .f32) (x13 : Vec Ideal S1x128 .f32) (x14 : Vec Ideal S64x192 .bf16) (x15 : Vec Ideal S1x64 .f32) (p : Fin 128) (f : Fin 64),
      kout0 (F := Ideal) x0 x1 x2 x3 x4 x5 x6 x7 x8 x9 x10 x11 x12 x13 x14 x15 (ix2 p f)
        = R (fun (k : Fin 32) (g : Fin 128) => x0 (ix3 p k g)) (fun (k : Fin 32) (q : Fin 64) => x1 (ix3 p k q)) (fun k : Fin 32 => x2 (ix2 p k))
          (fun k : Fin 32 => x3 (ix2 p k)) (fun q : Fin 64 => x4 (ix2 p q)) (x5 (ix2 p 0)) (fun q : Fin 64 => x6 (ix2 0 q)) (fun q : Fin 64 => x7 (ix2 0 q))
          (fun a b : Fin 256 => x8 (ix2 a b)) (fun a b : Fin 128 => x9 (ix2 a b)) (fun a b : Fin 128 => x10 (ix2 a b))
          (fun a : Fin 256 => x11 (ix2 0 a)) (fun a : Fin 128 => x12 (ix2 0 a)) (fun a : Fin 128 => x13 (ix2 0 a))
          (fun (a : Fin 64) (b : Fin 192) => x14 (ix2 a b)) (fun a : Fin 64 => x15 (ix2 0 a)) f)
include hR

/-- The stored block at any entry `j`: the row function of row `j₀` of the loaded blocks, at column `j₁`. -/
theorem out0_row (x0 : Vec Ideal S128x32x128 .f32) (x1 : Vec Ideal S128x32x64 .bf16) (x2 : Vec Ideal S128x32 .f32) (x3 : Vec Ideal S128x32 .i32) (x4 : Vec Ideal S128x64 .bf16) (x5 : Vec Ideal S128x1 .f32) (x6 : Vec Ideal S1x64 .f32) (x7 : Vec Ideal S1x64 .f32) (x8 : Vec Ideal S256x256 .bf16) (x9 : Vec Ideal S128x128 .bf16) (x10 : Vec Ideal S128x128 .bf16) (x11 : Vec Ideal S1x256 .f32) (x12 : Vec Ideal S1x128 .f32) (x13 : Vec Ideal S1x128 .f32) (x14 : Vec Ideal S64x192 .bf16) (x15 : Vec Ideal S1x64 .f32) (j : S128x64.Idx) :
    out0 (F := Ideal) x0 x1 x2 x3 x4 x5 x6 x7 x8 x9 x10 x11 x12 x13 x14 x15 j
      = R (fun (k : Fin 32) (g : Fin 128) => x0 (ix3 (j 0) k g)) (fun (k : Fin 32) (q : Fin 64) => x1 (ix3 (j 0) k q)) (fun k : Fin 32 => x2 (ix2 (j 0) k))
          (fun k : Fin 32 => x3 (ix2 (j 0) k)) (fun q : Fin 64 => x4 (ix2 (j 0) q)) (x5 (ix2 (j 0) 0)) (fun q : Fin 64 => x6 (ix2 0 q)) (fun q : Fin 64 => x7 (ix2 0 q))
          (fun a b : Fin 256 => x8 (ix2 a b)) (fun a b : Fin 128 => x9 (ix2 a b)) (fun a b : Fin 128 => x10 (ix2 a b))
          (fun a : Fin 256 => x11 (ix2 0 a)) (fun a : Fin 128 => x12 (ix2 0 a)) (fun a : Fin 128 => x13 (ix2 0 a))
          (fun (a : Fin 64) (b : Fin 192) => x14 (ix2 a b)) (fun a : Fin 64 => x15 (ix2 0 a)) (j 1) := by
  rw [out0_eq]
  exact (congrArg (kout0 (F := Ideal) x0 x1 x2 x3 x4 x5 x6 x7 x8 x9 x10 x11 x12 x13 x14 x15) (eq_ix2 j)).trans
    (hR x0 x1 x2 x3 x4 x5 x6 x7 x8 x9 x10 x11 x12 x13 x14 x15 (j 0) (j 1))

/-- Entry `j` of what point `t` stores is the array of row results at any index `i` on row `128·t + j₀`, column `j₁`. -/
theorem stored_at (c : Dev nD) (t : Fin cfg0.N) (j : S128x64.Idx) (i : S12288x64.Idx)
    (hi0 : (i 0).val = 128 * t.val + (j 0).val) (hi1 : (i 1).val = (j 1).val) :
    out0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) j
      = rowsOf V R c i := by
  refine (out0_row R hR (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) j).trans ?_
  unfold rowsOf
  exact rows_congr R
    (funext fun k => funext fun g => blk0_apply V c t (ix3 (j 0) k g) (ix3 (i 0) k g) hi0 rfl rfl)
    (funext fun k => funext fun q => blk1_apply V c t (ix3 (j 0) k q) (ix3 (i 0) k q) hi0 rfl rfl)
    (funext fun k => blk2_apply V c t (ix2 (j 0) k) (ix2 (i 0) k) hi0 rfl)
    (funext fun k => blk3_apply V c t (ix2 (j 0) k) (ix2 (i 0) k) hi0 rfl)
    (funext fun q => blk4_apply V c t (ix2 (j 0) q) (ix2 (i 0) q) hi0 rfl)
    (blk5_apply V c t (ix2 (j 0) 0) (ix2 (i 0) 0) hi0 rfl)
    (funext fun q => congrFun (blk6_eq V c t) (ix2 0 q))
    (funext fun q => congrFun (blk7_eq V c t) (ix2 0 q))
    (funext fun a => funext fun b => congrFun (blk8_eq V c t) (ix2 a b))
    (funext fun a => funext fun b => congrFun (blk9_eq V c t) (ix2 a b))
    (funext fun a => funext fun b => congrFun (blk10_eq V c t) (ix2 a b))
    (funext fun a => congrFun (blk11_eq V c t) (ix2 0 a))
    (funext fun a => congrFun (blk12_eq V c t) (ix2 0 a))
    (funext fun a => congrFun (blk13_eq V c t) (ix2 0 a))
    (funext fun a => funext fun b => congrFun (blk14_eq V c t) (ix2 a b))
    (funext fun a => congrFun (blk15_eq V c t) (ix2 0 a))
    (Fin.ext hi1).symm

/-- What point `t` writes back is its block of the array of row results. -/
theorem flushed_eq (c : Dev nD) (t : Fin cfg0.N) :
    (dat0 V c).flushed 16 t = ((cfg0.win 16).blk t).view.read (Elt Ideal) (rowsOf V R c) := by
  show (cfg0.win 16).cut (grid0.coords t) ((dat0 V c).after 16 t) = _
  rw [after0_16]
  obtain ⟨-, -, -, -, -, -, -, -, -, -, -, -, -, -, e0, e1⟩ := idx_rows t
  funext j
  rw [View.read_apply]
  refine stored_at V R hR c t _ (((cfg0.win 16).blk t).view.emb j) ?_ ?_
  · show win0_16.index t (0 : Fin 2) * 128 + 1 * (j 0).val = 128 * t.val + (j 0).val; omega
  · show win0_16.index t (1 : Fin 2) * 64 + 1 * (j 1).val = (j 1).val; omega

end Rows

/-! ## The result's blocks tile the array -/

/-- An index of the result array is in point `t`'s block iff each coordinate is in the block's range on its axis. -/
theorem mem_blk (t : Fin cfg0.N) (i : S12288x64.Idx) :
    i ∈ ((cfg0.win 16).blk t).view.set ↔ ∀ a : Fin 2, win0_16.index t a * S128x64.size a ≤ (i a).val ∧ (i a).val < win0_16.index t a * S128x64.size a + S128x64.size a := by
  show i ∈ ((View.whole main_v29).slice (win0_16.rect t)).set ↔ _
  rw [View.set_slice_whole, Rect.mem_set_unit]
  exact Iff.rfl

/-- Every index is in the block of the point its row falls to: row `r` belongs to point `r / 128`. -/
theorem covered (i : S12288x64.Idx) :
    ∃ t : Fin cfg0.N, (cfg0.win 16).flush t = true ∧ i ∈ ((cfg0.win 16).blk t).view.set := by
  have hi0 : (i 0).val < 12288 := (i 0).isLt
  have hi1 : (i 1).val < 64 := (i 1).isLt
  have hN : cfg0.N = 96 := N_0
  have hlt : (i 0).val / 128 < cfg0.N := by rw [hN]; omega
  refine ⟨⟨(i 0).val / 128, hlt⟩, flush0_16 _, ?_⟩
  obtain ⟨-, -, -, -, -, -, -, -, -, -, -, -, -, -, e0, e1⟩ := idx_rows ⟨(i 0).val / 128, hlt⟩
  rw [mem_blk]
  intro a
  match a with
  | ⟨0, _⟩ =>
    show win0_16.index ⟨(i 0).val / 128, hlt⟩ (0 : Fin 2) * 128 ≤ (i 0).val ∧ (i 0).val < win0_16.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_16.index ⟨(i 0).val / 128, hlt⟩ (1 : Fin 2) * 64 ≤ (i 1).val ∧ (i 1).val < win0_16.index ⟨(i 0).val / 128, hlt⟩ (1 : Fin 2) * 64 + 64
    rw [e1]
    omega

end Arr

/-- If the body's output block at a row is the row function `R` of that row of its input blocks, the result
    array at event `n` is `R` of row `n` of the arrays the region finds. -/
theorem emb_apply (R : (Fin 32 → Fin 128 → EReal) → (Fin 32 → Fin 64 → EReal) → (Fin 32 → EReal) → (Fin 32 → BitVec 32) → (Fin 64 → EReal) → EReal
      → (Fin 64 → EReal) → (Fin 64 → EReal) → (Fin 256 → Fin 256 → EReal) → (Fin 128 → Fin 128 → EReal) → (Fin 128 → Fin 128 → EReal)
      → (Fin 256 → EReal) → (Fin 128 → EReal) → (Fin 128 → EReal) → (Fin 64 → Fin 192 → EReal) → (Fin 64 → EReal) → Fin 64 → EReal)
    (hR : ∀ (x0 : Vec Ideal S128x32x128 .f32) (x1 : Vec Ideal S128x32x64 .bf16) (x2 : Vec Ideal S128x32 .f32) (x3 : Vec Ideal S128x32 .i32) (x4 : Vec Ideal S128x64 .bf16) (x5 : Vec Ideal S128x1 .f32) (x6 : Vec Ideal S1x64 .f32) (x7 : Vec Ideal S1x64 .f32) (x8 : Vec Ideal S256x256 .bf16) (x9 : Vec Ideal S128x128 .bf16) (x10 : Vec Ideal S128x128 .bf16) (x11 : Vec Ideal S1x256 .f32) (x12 : Vec Ideal S1x128 .f32) (x13 : Vec Ideal S1x128 .f32) (x14 : Vec Ideal S64x192 .bf16) (x15 : Vec Ideal S1x64 .f32) (p : Fin 128) (f : Fin 64),
      kout0 (F := Ideal) x0 x1 x2 x3 x4 x5 x6 x7 x8 x9 x10 x11 x12 x13 x14 x15 (ix2 p f)
        = R (fun (k : Fin 32) (g : Fin 128) => x0 (ix3 p k g)) (fun (k : Fin 32) (q : Fin 64) => x1 (ix3 p k q)) (fun k : Fin 32 => x2 (ix2 p k))
          (fun k : Fin 32 => x3 (ix2 p k)) (fun q : Fin 64 => x4 (ix2 p q)) (x5 (ix2 p 0)) (fun q : Fin 64 => x6 (ix2 0 q)) (fun q : Fin 64 => x7 (ix2 0 q))
          (fun a b : Fin 256 => x8 (ix2 a b)) (fun a b : Fin 128 => x9 (ix2 a b)) (fun a b : Fin 128 => x10 (ix2 a b))
          (fun a : Fin 256 => x11 (ix2 0 a)) (fun a : Fin 128 => x12 (ix2 0 a)) (fun a : Fin 128 => x13 (ix2 0 a))
          (fun (a : Fin 64) (b : Fin 192) => x14 (ix2 a b)) (fun a : Fin 64 => x15 (ix2 0 a)) f)
    (c : Dev nD) (n : Fin 12288) (f : Fin 64) :
    ((dat0 V c).arrAt 16 cfg0.N : S12288x64.Idx → EReal) (ix2 n f)
      = R (fun (k : Fin 32) (g : Fin 128) => (V c main_arg7 : S12288x32x128.Idx → EReal) (ix3 n k g))
          (fun (k : Fin 32) (q : Fin 64) => (V c main_v4 : S12288x32x64.Idx → EReal) (ix3 n k q))
          (fun k : Fin 32 => (V c main_arg6 : S12288x32.Idx → EReal) (ix2 n k))
          (fun k : Fin 32 => (V c main_arg4 : S12288x32.Idx → BitVec 32) (ix2 n k))
          (fun q : Fin 64 => (V c main_v2 : S12288x64.Idx → EReal) (ix2 n q))
          ((V c main_v8 : S12288x1.Idx → EReal) (ix2 n 0))
          (fun q : Fin 64 => (V c main_v9 : S1x64.Idx → EReal) (ix2 0 q))
          (fun q : Fin 64 => (V c main_v10 : S1x64.Idx → EReal) (ix2 0 q))
          (fun a b : Fin 256 => (V c main_v24 : S256x256.Idx → EReal) (ix2 a b))
          (fun a b : Fin 128 => (V c main_v25 : S128x128.Idx → EReal) (ix2 a b))
          (fun a b : Fin 128 => (V c main_v26 : S128x128.Idx → EReal) (ix2 a b))
          (fun a : Fin 256 => (V c main_v19 : S1x256.Idx → EReal) (ix2 0 a))
          (fun a : Fin 128 => (V c main_v21 : S1x128.Idx → EReal) (ix2 0 a))
          (fun a : Fin 128 => (V c main_v23 : S1x128.Idx → EReal) (ix2 0 a))
          (fun (a : Fin 64) (b : Fin 192) => (V c main_v27 : S64x192.Idx → EReal) (ix2 a b))
          (fun a : Fin 64 => (V c main_v28 : S1x64.Idx → EReal) (ix2 0 a)) f := by
  have hfinal : (dat0 V c).arrAt 16 cfg0.N = Arr.rowsOf V R c :=
    (dat0 V c).arrAt_eq_of_cover 16 (Arr.rowsOf V R c) (fun t _ => Arr.flushed_eq V R hR c t) Arr.covered
  exact congrFun hfinal (ix2 n f)

end Cert.KernelIdeal.K0Value

end
-- ==== Proof.KI.K1Value.lean ====
/-
  Kernel 1 read at an index, and region 1's result array (floats are extended reals). The grid has 4 points; point
  t handles events 1024·t … 1024·t + 1023. The body pairs each event's source row with its target row and with its
  negative row: the pair side by side through an affine map, a rectifier, and a second affine map to one number;
  the two numbers are the event's two result columns.
-/
import proofs.«401926_j12421045420080_2_alg».proof.Proof.KI.Data
import proofs.«401926_j12421045420080_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.K1Value

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

theorem lhs_mm1_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_mm1_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_mm1_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_mm1_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The product into a zero accumulator at row `p`, column `f`: the row of the left factor against the column of the right. -/
theorem mm1_apply (L : FVec Ideal S1024x128 .bf16) (R : FVec Ideal S128x64 .bf16) (p : Fin 1024) (f : Fin 64) :
    matmul dot_S1024x128_S128x64_S1024x64_1_0_0_1_n_n none L R (constant S1024x64 .f32 0x00000000#32) (ix2 p f) = ∑ k : Fin 128, L (ix2 p k) * R (ix2 k f) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p f) ((contrEquiv1 dot_S1024x128_S128x64_S1024x64_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S1024x128_S128x64_S1024x64_1_0_0_1_n_n.rhsIdx (ix2 p f) ((contrEquiv1 dot_S1024x128_S128x64_S1024x64_1_0_0_1_n_n 128 rfl rfl).symm k) = ix2 k f := funext fun a => Fin.ext (by
    match a with
    | ⟨0, _⟩ => exact (rhs_mm1_0 _ _).trans hk
    | ⟨1, _⟩ => exact rhs_mm1_1 _ _)
  rw [el, er]

theorem lhs_mm2_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhs_mm2_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhs_mm2_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs_mm2_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The product into a zero accumulator at row `p`, column `f`: the row of the left factor against the column of the right. -/
theorem mm2_apply (L : FVec Ideal S1024x64 .bf16) (R : FVec Ideal S64x1 .bf16) (p : Fin 1024) (f : Fin 1) :
    matmul dot_S1024x64_S64x1_S1024x1_1_0_0_1_n_n none L R (constant S1024x1 .f32 0x00000000#32) (ix2 p f) = ∑ k : Fin 64, L (ix2 p k) * R (ix2 k f) := by
  simp only [matmul]
  rw [Ideal.matmul_constant_zero_apply, ← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 p f) ((contrEquiv1 dot_S1024x64_S64x1_S1024x1_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S1024x64_S64x1_S1024x1_1_0_0_1_n_n.rhsIdx (ix2 p f) ((contrEquiv1 dot_S1024x64_S64x1_S1024x1_1_0_0_1_n_n 64 rfl rfl).symm k) = ix2 k f := funext fun a => Fin.ext (by
    match a with
    | ⟨0, _⟩ => exact (rhs_mm2_0 _ _).trans hk
    | ⟨1, _⟩ => exact rhs_mm2_1 _ _)
  rw [el, er]

/-- Two blocks of 64 columns set side by side, read at row `p`, column `j`. -/
theorem cat_apply (u v : FVec Ideal S1024x64 .f32) (p : Fin 1024) (j : Fin 128) :
    concatenate S1024x128 1 [⟨S1024x64, u⟩, ⟨S1024x64, v⟩] concatenates_S1024x64_S1024x64_S1024x128_d1 (ix2 p j)
      = sideBySide (fun q : Fin 64 => u (ix2 p q)) (fun q : Fin 64 => v (ix2 p q)) j := by
  unfold sideBySide
  by_cases h : j.val < 64
  · rw [dif_pos h]
    exact concatenate_pair_apply_left 1 u v concatenates_S1024x64_S1024x64_S1024x128_d1 (ix2 p j) rfl (ix2 p ⟨j.val, h⟩)
      (fun b => match b with | ⟨0, _⟩ => rfl | ⟨1, _⟩ => rfl)
  · rw [dif_neg h]
    exact concatenate_pair_apply_right 1 u v concatenates_S1024x64_S1024x64_S1024x128_d1 (ix2 p j) rfl rfl (ix2 p ⟨j.val - 64, by omega⟩)
      (fun b => match b with | ⟨0, _⟩ => fun _ => rfl | ⟨1, _⟩ => fun hne => absurd rfl hne)
      (show j.val - 64 + 64 = j.val by omega)

/-- One pair's score before the last bias, at row `p`: the pair side by side through the first affine map and the
    rectifier, then against the second map's weights. -/
theorem score_apply (u v : FVec Ideal S1024x64 .f32) (x3 : FVec Ideal S64x128 .bf16) (x4 : FVec Ideal S1x64 .f32)
    (x5 : FVec Ideal S1x64 .bf16) (p : Fin 1024) (w : Fin 1) :
    matmul dot_S1024x64_S64x1_S1024x1_1_0_0_1_n_n none
        (truncf .bf16 (maximumf (addf (matmul dot_S1024x128_S128x64_S1024x64_1_0_0_1_n_n none
            (truncf .bf16 (concatenate S1024x128 1 [⟨S1024x64, u⟩, ⟨S1024x64, v⟩] concatenates_S1024x64_S1024x64_S1024x128_d1) bitsLt_bf16_f32)
            (transpose S128x64 [1, 0] x3 transposes_S64x128_p1_0_S128x64) (constant S1024x64 .f32 0x00000000#32))
          (broadcastTo S1024x64 x4 broadcasts_S1x64_S1024x64)) (broadcast S1024x64 (Scalar.ofBits .f32 0x00000000#32))) bitsLt_bf16_f32)
        (transpose S64x1 [1, 0] x5 transposes_S1x64_p1_0_S64x1) (constant S1024x1 .f32 0x00000000#32) (ix2 p w)
      = ∑ f : Fin 64, max (affine (sideBySide (fun q : Fin 64 => u (ix2 p q)) (fun q : Fin 64 => v (ix2 p q)))
          (fun (a : Fin 64) (b : Fin 128) => x3 (ix2 a b)) (fun a : Fin 64 => x4 (ix2 0 a)) f) 0 * x5 (ix2 0 f) := by
  rw [mm2_apply]
  refine Finset.sum_congr rfl fun f _ => ?_
  have hw : w = 0 := Subsingleton.elim _ _
  subst hw
  rw [transpose_ix2_apply, truncf_apply, maximumf_apply, addf_apply, broadcast_apply, mm1_apply]
  have e0 : (FloatOps.ofBits (F := Ideal) FTy.f32 0x00000000#32) = (0 : EReal) := Ideal.ofBits_zero_f32
  have e1 : broadcastTo S1024x64 x4 broadcasts_S1x64_S1024x64 (ix2 p f) = x4 (ix2 0 f) :=
    broadcastTo_apply x4 broadcasts_S1x64_S1024x64 (ix2 p f) (ix2 0 f) (fun a => match a with | ⟨0, _⟩ => rfl | ⟨1, _⟩ => rfl)
  have e2 : ∀ k : Fin 128,
      truncf FTy.bf16 (concatenate S1024x128 1 [⟨S1024x64, u⟩, ⟨S1024x64, v⟩] concatenates_S1024x64_S1024x64_S1024x128_d1) bitsLt_bf16_f32 (ix2 p k)
          * transpose S128x64 [1, 0] x3 transposes_S64x128_p1_0_S128x64 (ix2 k f)
        = sideBySide (fun q : Fin 64 => u (ix2 p q)) (fun q : Fin 64 => v (ix2 p q)) k * x3 (ix2 f k) := fun k => by
    rw [truncf_apply, cat_apply, transpose_ix2_apply]
  rw [e0, e1]
  simp only [e2]
  rfl

/-- Two one-column blocks set side by side, read at row `p`, column `s`. -/
theorem cat2_apply (u v : FVec Ideal S1024x1 .f32) (p : Fin 1024) (s : Fin 2) :
    concatenate S1024x2 1 [⟨S1024x1, u⟩, ⟨S1024x1, v⟩] concatenates_S1024x1_S1024x1_S1024x2_d1 (ix2 p s)
      = if s.val = 0 then u (ix2 p 0) else v (ix2 p 0) := by
  by_cases h : s.val = 0
  · rw [if_pos h]
    exact concatenate_pair_apply_left 1 u v concatenates_S1024x1_S1024x1_S1024x2_d1 (ix2 p s) rfl (ix2 p 0)
      (fun b => match b with | ⟨0, _⟩ => rfl | ⟨1, _⟩ => by show (0 : ℕ) = s.val; omega)
  · rw [if_neg h]
    exact concatenate_pair_apply_right 1 u v concatenates_S1024x1_S1024x1_S1024x2_d1 (ix2 p s) rfl rfl (ix2 p 0)
      (fun b => match b with | ⟨0, _⟩ => fun _ => rfl | ⟨1, _⟩ => fun hne => absurd rfl hne)
      (show 0 + 1 = s.val by have := s.isLt; omega)

/-- The last bias, one number, spread down the rows. -/
theorem bias2_apply (x6 : FVec Ideal S1x1 .f32) (p : Fin 1024) (w : Fin 1) :
    broadcastTo S1024x1 x6 broadcasts_S1x1_S1024x1 (ix2 p w) = x6 (ix2 0 0) :=
  broadcastTo_apply x6 broadcasts_S1x1_S1024x1 (ix2 p w) (ix2 0 0) (fun a => match a with | ⟨0, _⟩ => rfl | ⟨1, _⟩ => rfl)

/-- The body's output block at event `p` of the block, column `s`. -/
theorem kout1_apply (x0 x1 x2 : Vec Ideal S1024x64 .f32) (x3 : Vec Ideal S64x128 .bf16) (x4 : Vec Ideal S1x64 .f32)
    (x5 : Vec Ideal S1x64 .bf16) (x6 : Vec Ideal S1x1 .f32) (p : Fin 1024) (s : Fin 2) :
    kout1 (F := Ideal) x0 x1 x2 x3 x4 x5 x6 (ix2 p s)
      = scoreRow (fun q : Fin 64 => x0 (ix2 p q)) (fun q : Fin 64 => x1 (ix2 p q)) (fun q : Fin 64 => x2 (ix2 p q))
          (fun (a : Fin 64) (b : Fin 128) => x3 (ix2 a b)) (fun a : Fin 64 => x4 (ix2 0 a)) (fun a : Fin 64 => x5 (ix2 0 a)) (x6 (ix2 0 0)) s := by
  unfold kout1 k1_pay1 k1_pay7 k1_pay8 k1_pay9 k1_pay2 k1_pay3 k1_pay4 k1_pay5 k1_pay6
  dsimp only
  simp only [shapeCast_self]
  rw [cat2_apply]
  unfold scoreRow mergeRow
  by_cases h : s.val = 0
  · rw [if_pos h, if_pos h, addf_apply, score_apply, bias2_apply]
    simp only [shapeCast_self]
  · rw [if_neg h, if_neg h, addf_apply, score_apply, bias2_apply]
    simp only [shapeCast_self]

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-- The two scores of event `b`, from row `b` of the arrays the region finds. -/
def Grow (c : Dev nD) (b : Fin 4096) (s : Fin 2) : EReal :=
  scoreRow (fun q : Fin 64 => (V c main_v30 : S4096x64.Idx → EReal) (ix2 b q))
    (fun q : Fin 64 => (V c main_v31 : S4096x64.Idx → EReal) (ix2 b q))
    (fun q : Fin 64 => (V c main_v32 : S4096x64.Idx → EReal) (ix2 b q))
    (fun (a : Fin 64) (b' : Fin 128) => (V c main_v33 : S64x128.Idx → EReal) (ix2 a b'))
    (fun a : Fin 64 => (V c main_v34 : S1x64.Idx → EReal) (ix2 0 a))
    (fun a : Fin 64 => (V c main_v35 : S1x64.Idx → EReal) (ix2 0 a))
    ((V c main_v36 : S1x1.Idx → EReal) (ix2 0 0)) s

/-- The result array as one function of the arrays the region finds. -/
def G (c : Dev nD) : S4096x2.Idx → EReal := fun i => Grow V c (i 0) (i 1)

/-- The windows' index maps, decided once over the grid: the three row-blocked inputs and the output move with the
    point, the weights and biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block is its array read where the point's rectangle says -/

theorem emb0 (c : Dev nD) (t : Fin cfg1.N) (p : Fin 1024) (q : Fin 64) :
    iblk1 V c 0 t (ix2 p q)
      = (V c main_v30 : S4096x64.Idx → EReal) (ix2 (⟨t.val * 1024 + p.val, by have := t.isLt; have : cfg1.N = 4 := rfl; omega⟩ : Fin 4096) q) := by
  obtain ⟨e00, e01, e10, e11, e20, e21, e30, e31, e40, e41, e50, e51, e60, e61, e70, e71⟩ := idx_facts t
  show V c main_v30 (((cfg1.win 0).blk t).view.emb (ix2 p q)) = V c main_v30 _
  refine congrArg _ (funext fun a => Fin.ext ?_)
  match a with
  | ⟨0, _⟩ => show win1_0.index t (0 : Fin 2) * 1024 + 1 * p.val = t.val * 1024 + p.val; omega
  | ⟨1, _⟩ => show win1_0.index t (1 : Fin 2) * 64 + 1 * q.val = q.val; omega

theorem emb1 (c : Dev nD) (t : Fin cfg1.N) (p : Fin 1024) (q : Fin 64) :
    iblk1 V c 1 t (ix2 p q)
      = (V c main_v31 : S4096x64.Idx → EReal) (ix2 (⟨t.val * 1024 + p.val, by have := t.isLt; have : cfg1.N = 4 := rfl; omega⟩ : Fin 4096) q) := by
  obtain ⟨e00, e01, e10, e11, e20, e21, e30, e31, e40, e41, e50, e51, e60, e61, e70, e71⟩ := idx_facts t
  show V c main_v31 (((cfg1.win 1).blk t).view.emb (ix2 p q)) = V c main_v31 _
  refine congrArg _ (funext fun a => Fin.ext ?_)
  match a with
  | ⟨0, _⟩ => show win1_1.index t (0 : Fin 2) * 1024 + 1 * p.val = t.val * 1024 + p.val; omega
  | ⟨1, _⟩ => show win1_1.index t (1 : Fin 2) * 64 + 1 * q.val = q.val; omega

theorem emb2 (c : Dev nD) (t : Fin cfg1.N) (p : Fin 1024) (q : Fin 64) :
    iblk1 V c 2 t (ix2 p q)
      = (V c main_v32 : S4096x64.Idx → EReal) (ix2 (⟨t.val * 1024 + p.val, by have := t.isLt; have : cfg1.N = 4 := rfl; omega⟩ : Fin 4096) q) := by
  obtain ⟨e00, e01, e10, e11, e20, e21, e30, e31, e40, e41, e50, e51, e60, e61, e70, e71⟩ := idx_facts t
  show V c main_v32 (((cfg1.win 2).blk t).view.emb (ix2 p q)) = V c main_v32 _
  refine congrArg _ (funext fun a => Fin.ext ?_)
  match a with
  | ⟨0, _⟩ => show win1_2.index t (0 : Fin 2) * 1024 + 1 * p.val = t.val * 1024 + p.val; omega
  | ⟨1, _⟩ => show win1_2.index t (1 : Fin 2) * 64 + 1 * q.val = q.val; omega

theorem emb3 (c : Dev nD) (t : Fin cfg1.N) (a : Fin 64) (b : Fin 128) :
    iblk1 V c 3 t (ix2 a b) = (V c main_v33 : S64x128.Idx → EReal) (ix2 a b) := by
  obtain ⟨e00, e01, e10, e11, e20, e21, e30, e31, e40, e41, e50, e51, e60, e61, e70, e71⟩ := idx_facts t
  show V c main_v33 (((cfg1.win 3).blk t).view.emb (ix2 a b)) = V c main_v33 _
  refine congrArg _ (funext fun d => Fin.ext ?_)
  match d with
  | ⟨0, _⟩ => show win1_3.index t (0 : Fin 2) * 64 + 1 * a.val = a.val; omega
  | ⟨1, _⟩ => show win1_3.index t (1 : Fin 2) * 128 + 1 * b.val = b.val; omega

theorem emb4 (c : Dev nD) (t : Fin cfg1.N) (a : Fin 1) (b : Fin 64) :
    iblk1 V c 4 t (ix2 a b) = (V c main_v34 : S1x64.Idx → EReal) (ix2 a b) := by
  obtain ⟨e00, e01, e10, e11, e20, e21, e30, e31, e40, e41, e50, e51, e60, e61, e70, e71⟩ := idx_facts t
  show V c main_v34 (((cfg1.win 4).blk t).view.emb (ix2 a b)) = V c main_v34 _
  refine congrArg _ (funext fun d => Fin.ext ?_)
  match d with
  | ⟨0, _⟩ => show win1_4.index t (0 : Fin 2) * 1 + 1 * a.val = a.val; omega
  | ⟨1, _⟩ => show win1_4.index t (1 : Fin 2) * 64 + 1 * b.val = b.val; omega

theorem emb5 (c : Dev nD) (t : Fin cfg1.N) (a : Fin 1) (b : Fin 64) :
    iblk1 V c 5 t (ix2 a b) = (V c main_v35 : S1x64.Idx → EReal) (ix2 a b) := by
  obtain ⟨e00, e01, e10, e11, e20, e21, e30, e31, e40, e41, e50, e51, e60, e61, e70, e71⟩ := idx_facts t
  show V c main_v35 (((cfg1.win 5).blk t).view.emb (ix2 a b)) = V c main_v35 _
  refine congrArg _ (funext fun d => Fin.ext ?_)
  match d with
  | ⟨0, _⟩ => show win1_5.index t (0 : Fin 2) * 1 + 1 * a.val = a.val; omega
  | ⟨1, _⟩ => show win1_5.index t (1 : Fin 2) * 64 + 1 * b.val = b.val; omega

theorem emb6 (c : Dev nD) (t : Fin cfg1.N) (a : Fin 1) (b : Fin 1) :
    iblk1 V c 6 t (ix2 a b) = (V c main_v36 : S1x1.Idx → EReal) (ix2 a b) := by
  obtain ⟨e00, e01, e10, e11, e20, e21, e30, e31, e40, e41, e50, e51, e60, e61, e70, e71⟩ := idx_facts t
  show V c main_v36 (((cfg1.win 6).blk t).view.emb (ix2 a b)) = V c main_v36 _
  refine congrArg _ (funext fun d => Fin.ext ?_)
  match d with
  | ⟨0, _⟩ => show win1_6.index t (0 : Fin 2) * 1 + 1 * a.val = a.val; omega
  | ⟨1, _⟩ => show win1_6.index t (1 : Fin 2) * 1 + 1 * b.val = b.val; omega

/-- The output block's row `p` at point `t` is the array's row `1024·t + p`. -/
theorem emb7 (t : Fin cfg1.N) (p : Fin 1024) (s : Fin 2) :
    ((cfg1.win 7).blk t).view.emb (ix2 p s)
      = (ix2 (⟨t.val * 1024 + p.val, by have := t.isLt; have : cfg1.N = 4 := rfl; omega⟩ : Fin 4096) s : S4096x2.Idx) := by
  obtain ⟨e00, e01, e10, e11, e20, e21, e30, e31, e40, e41, e50, e51, e60, e61, e70, e71⟩ := idx_facts t
  refine funext fun a => Fin.ext ?_
  match a with
  | ⟨0, _⟩ => show win1_7.index t (0 : Fin 2) * 1024 + 1 * p.val = t.val * 1024 + p.val; omega
  | ⟨1, _⟩ => show win1_7.index t (1 : Fin 2) * 2 + 1 * s.val = s.val; omega
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1
  rw [View.canon_unit_zero hz]
  simp only [View.ld_unit_zero (S := S1024x64) hz, View.ld_unit_zero (S := S64x128) hz, View.ld_unit_zero (S := S1x64) hz, View.ld_unit_zero (S := S1x1) hz]
  funext j
  obtain ⟨p, s, rfl⟩ : ∃ (p : Fin 1024) (s : Fin 2), j = ix2 p s := ⟨j 0, j 1, eq_ix2 j⟩
  refine (kout1_apply (iblk1 V c 0 t) (iblk1 V c 1 t) (iblk1 V c 2 t) (iblk1 V c 3 t) (iblk1 V c 4 t) (iblk1 V c 5 t) (iblk1 V c 6 t) p s).trans ?_
  show _ = G V c (((cfg1.win 7).blk t).view.emb (ix2 p s))
  rw [emb7 t p s]
  show _ = Grow V c _ s
  unfold Grow
  simp only [emb0 V c t, emb1 V c t, emb2 V c t, emb3 V c t, emb4 V c t, emb5 V c t, emb6 V c t]

/-- An index of the array is in point `t`'s block iff each coordinate is in the block's range on its axis. -/
theorem mem_blk (t : Fin cfg1.N) (i : S4096x2.Idx) :
    i ∈ ((cfg1.win 7).blk t).view.set ↔ ∀ a : Fin 2, win1_7.index t a * S1024x2.size a ≤ (i a).val ∧ (i a).val < win1_7.index t a * S1024x2.size a + S1024x2.size a := by
  show i ∈ ((View.whole main_v37).slice (win1_7.rect t)).set ↔ _
  rw [View.set_slice_whole, Rect.mem_set_unit]
  exact Iff.rfl

/-- The four blocks of 1024 rows fill the array: row `r` lies in the block of point `r / 1024`. -/
theorem cover (i : S4096x2.Idx) : ∃ t : Fin cfg1.N, (cfg1.win 7).flush t = true ∧ i ∈ ((cfg1.win 7).blk t).view.set := by
  have hi0 : (i 0).val < 4096 := (i 0).isLt
  have hi1 : (i 1).val < 2 := (i 1).isLt
  obtain ⟨t, ht⟩ : ∃ t : Fin cfg1.N, t.val = (i 0).val / 1024 := ⟨⟨(i 0).val / 1024, by show _ < 4; omega⟩, rfl⟩
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 2 ≤ (i 1).val ∧ (i 1).val < win1_7.index t (1 : Fin 2) * 2 + 2; omega

/-- Region 1's result array at event `b`, column `s`, from row `b` of the arrays the region finds. -/
theorem out_apply (c : Dev nD) (b : Fin 4096) (s : Fin 2) :
    ((dat1 V c).arrAt 7 cfg1.N : S4096x2.Idx → EReal) (ix2 b s)
      = scoreRow (fun q : Fin 64 => (V c main_v30 : S4096x64.Idx → EReal) (ix2 b q))
          (fun q : Fin 64 => (V c main_v31 : S4096x64.Idx → EReal) (ix2 b q))
          (fun q : Fin 64 => (V c main_v32 : S4096x64.Idx → EReal) (ix2 b q))
          (fun (a : Fin 64) (b' : Fin 128) => (V c main_v33 : S64x128.Idx → EReal) (ix2 a b'))
          (fun a : Fin 64 => (V c main_v34 : S1x64.Idx → EReal) (ix2 0 a))
          (fun a : Fin 64 => (V c main_v35 : S1x64.Idx → EReal) (ix2 0 a))
          ((V c main_v36 : S1x1.Idx → EReal) (ix2 0 0)) s := by
  have h := (dat1 V c).arrAt_eq_of_cover 7 (G V c) (fun t _ => flushed_eq V c t) cover
  exact (congrFun h (ix2 b s)).trans rfl

end Cert.KernelIdeal.K1Value

end
-- ==== Proof.SpecLaws.lean ====
/-
  Two arrangements of the gated cell are one function on the extended reals: an affine map of two rows side by
  side against two weight blocks side by side, with the two biases added beforehand, is the sum of the two affine
  maps. Only the commutativity and associativity of addition are used, which hold with infinities too.
-/
import proofs.«401926_j12421045420080_2_alg».proof.Proof.Spec

noncomputable section

open scoped BigOperators

namespace Cert.Spec

open Idealize.ShloMosaic

/-- Left of the seam, two rows side by side read the first row. -/
theorem sideBySide_castAdd {a b : Nat} (u : Fin a → EReal) (v : Fin b → EReal) (j : Fin a) :
    sideBySide u v (Fin.castAdd b j) = u j := by
  unfold sideBySide
  have h : (Fin.castAdd b j).val < a := j.isLt
  rw [dif_pos h]
  rfl

/-- Right of the seam, two rows side by side read the second row, the seam's offset taken off. -/
theorem sideBySide_natAdd {a b : Nat} (u : Fin a → EReal) (v : Fin b → EReal) (j : Fin b) :
    sideBySide u v (Fin.natAdd a j) = v j := by
  unfold sideBySide
  have h : ¬ (Fin.natAdd a j).val < a := by
    show ¬ a + j.val < a
    omega
  rw [dif_neg h]
  congr 1
  apply Fin.ext
  show a + j.val - a = j.val
  omega

/-- A sum over two rows side by side splits into the two rows' sums. -/
theorem sum_sideBySide {a b : Nat} (u : Fin a → EReal) (v : Fin b → EReal) (u' : Fin a → EReal) (v' : Fin b → EReal) :
    (∑ j : Fin (a + b), sideBySide u v j * sideBySide u' v' j) = (∑ j : Fin a, u j * u' j) + ∑ j : Fin b, v j * v' j := by
  rw [Fin.sum_univ_add]
  simp only [sideBySide_castAdd, sideBySide_natAdd]

/-- An affine map of two rows side by side, against weights side by side and the sum of two biases, is the sum of
    the two affine maps. -/
theorem affine_sideBySide {a b o : Nat} (x : Fin a → EReal) (h : Fin b → EReal) (W1 : Fin o → Fin a → EReal) (W2 : Fin o → Fin b → EReal)
    (b1 b2 : Fin o → EReal) (q : Fin o) :
    affine (sideBySide x h) (fun q => sideBySide (W1 q) (W2 q)) (fun q => b1 q + b2 q) q = affine x W1 b1 q + affine h W2 b2 q := by
  show (∑ j, sideBySide x h j * sideBySide (W1 q) (W2 q) j) + (b1 q + b2 q)
      = ((∑ j, x j * W1 q j) + b1 q) + ((∑ j, h j * W2 q j) + b2 q)
  rw [sum_sideBySide]
  exact add_add_add_comm _ _ _ _

/-- The fused cell is the cell, when its weights and biases are the cell's, arranged as the fused evaluation
    takes them: the first 256 rows of the two weight matrices side by side, their last 128 rows each by itself, the
    first 256 biases added, the last 128 each by itself. -/
theorem gruFused_eq_gru (x h : Fin 128 → EReal) (Wih Whh : Fin 384 → Fin 128 → EReal) (bih bhh : Fin 384 → EReal) :
    gruFused x h (fun q : Fin 256 => sideBySide (Wih ⟨q.val, by omega⟩) (Whh ⟨q.val, by omega⟩))
        (fun g : Fin 128 => Wih ⟨256 + g.val, by omega⟩) (fun g : Fin 128 => Whh ⟨256 + g.val, by omega⟩)
        (fun q : Fin 256 => bih ⟨q.val, by omega⟩ + bhh ⟨q.val, by omega⟩)
        (fun g : Fin 128 => bih ⟨256 + g.val, by omega⟩) (fun g : Fin 128 => bhh ⟨256 + g.val, by omega⟩)
      = gru x h Wih Whh bih bhh := by
  -- the fused pre-activation at any of its 256 outputs is the sum of the two maps' pre-activations there
  have hrz : ∀ q : Fin 256,
      affine (sideBySide x h) (fun q : Fin 256 => sideBySide (Wih ⟨q.val, by omega⟩) (Whh ⟨q.val, by omega⟩))
          (fun q : Fin 256 => bih ⟨q.val, by omega⟩ + bhh ⟨q.val, by omega⟩) q
        = affine x Wih bih ⟨q.val, by omega⟩ + affine h Whh bhh ⟨q.val, by omega⟩ := by
    intro q
    exact affine_sideBySide x h (fun q : Fin 256 => Wih ⟨q.val, by omega⟩) (fun q : Fin 256 => Whh ⟨q.val, by omega⟩)
      (fun q : Fin 256 => bih ⟨q.val, by omega⟩) (fun q : Fin 256 => bhh ⟨q.val, by omega⟩) q
  funext g
  unfold gruFused gruMix gru
  rw [hrz, hrz]
  rfl

/-- The embedding with the fused cell is the embedding. -/
theorem embRowFused_eq_embRow (hid : Fin 32 → Fin 128 → EReal) (ee : Fin 32 → Fin 64 → EReal) (ts : Fin 32 → EReal) (nid : Fin 32 → BitVec 32)
    (nraw : Fin 64 → EReal) (ct : EReal) (bf ph : Fin 64 → EReal)
    (Wih Whh : Fin 384 → Fin 128 → EReal) (bih bhh : Fin 384 → EReal)
    (Wout : Fin 64 → Fin 192 → EReal) (bout : Fin 64 → EReal) (f : Fin 64) :
    embRowFused hid ee ts nid nraw ct bf ph
        (fun q : Fin 256 => sideBySide (Wih ⟨q.val, by omega⟩) (Whh ⟨q.val, by omega⟩))
        (fun g : Fin 128 => Wih ⟨256 + g.val, by omega⟩) (fun g : Fin 128 => Whh ⟨256 + g.val, by omega⟩)
        (fun q : Fin 256 => bih ⟨q.val, by omega⟩ + bhh ⟨q.val, by omega⟩)
        (fun g : Fin 128 => bih ⟨256 + g.val, by omega⟩) (fun g : Fin 128 => bhh ⟨256 + g.val, by omega⟩) Wout bout f
      = embRow hid ee ts nid nraw ct bf ph Wih Whh bih bhh Wout bout f := by
  unfold embRowFused embRow
  simp only [gruFused_eq_gru]

end Cert.Spec

end
-- ==== Proof.KI.HostK0W.lean ====
/-
  The parameter operands of region 0 read at an index (floats are extended reals), as functions of the argument
  arrays: the fused gate weights are the first 256 rows of the two weight matrices side by side, the fused bias the
  sum of the first 256 biases, the candidate's weights and biases the last 128 rows; the read-out's weights and
  bias, the time encoding's frequencies and phases reshaped; a change of float format is the identity.
-/
import proofs.«401926_j12421045420080_2_alg».proof.Proof.Gen.KernelIdeal.Regions
import proofs.«401926_j12421045420080_2_alg».proof.Proof.Spec
import proofs.«401926_j12421045420080_2_alg».proof.Proof.KI.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

namespace W

/-! ## What the host stretch before region 0 leaves in each parameter operand, over any contents before it -/

section
variable (V : Valuation τ sig (Elt Ideal))

theorem after_v9 :
    (StableHlo.after hostOps0_4 V (Proc.devRef .tc main_v9) : S1x64.Idx → EReal)
      = shapeCast S1x64 (V (Proc.devRef .tc main_arg10) : S64.Idx → EReal) shapeCasts_S64_S1x64 := by
  simp only [Gen.hostOps0_4]
  after_results
  rfl

theorem after_v10 :
    (StableHlo.after hostOps0_4 V (Proc.devRef .tc main_v10) : S1x64.Idx → EReal)
      = shapeCast S1x64 (V (Proc.devRef .tc main_arg11) : S64.Idx → EReal) shapeCasts_S64_S1x64 := by
  simp only [Gen.hostOps0_4]
  after_results
  rfl

theorem after_v24 :
    (StableHlo.after hostOps0_4 V (Proc.devRef .tc main_v24) : S256x256.Idx → EReal)
      = truncf .bf16 (concatenate S256x256 1
          [⟨S256x128, extractStridedSlice S256x128 ![0, 0] (V (Proc.devRef .tc main_arg12) : S384x128.Idx → EReal) slices_S384x128_S256x128_0_0⟩,
           ⟨S256x128, extractStridedSlice S256x128 ![0, 0] (V (Proc.devRef .tc main_arg13) : S384x128.Idx → EReal) slices_S384x128_S256x128_0_0⟩]
          concatenates_S256x128_S256x128_S256x256_d1 : FVec Ideal S256x256 .f32) bitsLt_bf16_f32 := by
  simp only [Gen.hostOps0_4]
  after_results

theorem after_v25 :
    (StableHlo.after hostOps0_4 V (Proc.devRef .tc main_v25) : S128x128.Idx → EReal)
      = truncf .bf16 (extractStridedSlice S128x128 ![256, 0] (V (Proc.devRef .tc main_arg12) : S384x128.Idx → EReal) slices_S384x128_S128x128_256_0 : FVec Ideal S128x128 .f32) bitsLt_bf16_f32 := by
  simp only [Gen.hostOps0_4]
  after_results

theorem after_v26 :
    (StableHlo.after hostOps0_4 V (Proc.devRef .tc main_v26) : S128x128.Idx → EReal)
      = truncf .bf16 (extractStridedSlice S128x128 ![256, 0] (V (Proc.devRef .tc main_arg13) : S384x128.Idx → EReal) slices_S384x128_S128x128_256_0 : FVec Ideal S128x128 .f32) bitsLt_bf16_f32 := by
  simp only [Gen.hostOps0_4]
  after_results

theorem after_v19 :
    (StableHlo.after hostOps0_4 V (Proc.devRef .tc main_v19) : S1x256.Idx → EReal)
      = shapeCast S1x256 (addf (extractStridedSlice S256 ![0] (V (Proc.devRef .tc main_arg14) : S384.Idx → EReal) slices_S384_S256_0 : FVec Ideal S256 .f32)
          (extractStridedSlice S256 ![0] (V (Proc.devRef .tc main_arg15) : S384.Idx → EReal) slices_S384_S256_0 : FVec Ideal S256 .f32)) shapeCasts_S256_S1x256 := by
  simp only [Gen.hostOps0_4]
  after_results
  rfl

theorem after_v21 :
    (StableHlo.after hostOps0_4 V (Proc.devRef .tc main_v21) : S1x128.Idx → EReal)
      = shapeCast S1x128 (extractStridedSlice S128 ![256] (V (Proc.devRef .tc main_arg14) : S384.Idx → EReal) slices_S384_S128_256) shapeCasts_S128_S1x128 := by
  simp only [Gen.hostOps0_4]
  after_results
  rfl

theorem after_v23 :
    (StableHlo.after hostOps0_4 V (Proc.devRef .tc main_v23) : S1x128.Idx → EReal)
      = shapeCast S1x128 (extractStridedSlice S128 ![256] (V (Proc.devRef .tc main_arg15) : S384.Idx → EReal) slices_S384_S128_256) shapeCasts_S128_S1x128 := by
  simp only [Gen.hostOps0_4]
  after_results
  rfl

theorem after_v27 :
    (StableHlo.after hostOps0_4 V (Proc.devRef .tc main_v27) : S64x192.Idx → EReal)
      = (truncf .bf16 (V (Proc.devRef .tc main_arg16) : FVec Ideal S64x192 .f32) bitsLt_bf16_f32 : FVec Ideal S64x192 .bf16) := by
  simp only [Gen.hostOps0_4]
  after_results

theorem after_v28 :
    (StableHlo.after hostOps0_4 V (Proc.devRef .tc main_v28) : S1x64.Idx → EReal)
      = shapeCast S1x64 (V (Proc.devRef .tc main_arg17) : S64.Idx → EReal) shapeCasts_S64_S1x64 := by
  simp only [Gen.hostOps0_4]
  after_results
  rfl

end

/-! ## The slices of the weight matrices and bias vectors read at an index -/

theorem rowsLo_apply (X : S384x128.Idx → EReal) (a : Fin 256) (q : Fin 128) :
    extractStridedSlice S256x128 ![0, 0] X slices_S384x128_S256x128_0_0 (ix2 a q) = X (ix2 ⟨a.val, by omega⟩ q) :=
  slice2_axis0_apply 0 X slices_S384x128_S256x128_0_0 a q ⟨a.val, by omega⟩ (Nat.zero_add _).symm

theorem rowsHi_apply (X : S384x128.Idx → EReal) (a : Fin 128) (q : Fin 128) :
    extractStridedSlice S128x128 ![256, 0] X slices_S384x128_S128x128_256_0 (ix2 a q) = X (ix2 ⟨256 + a.val, by omega⟩ q) :=
  slice2_axis0_apply 256 X slices_S384x128_S128x128_256_0 a q ⟨256 + a.val, by omega⟩ rfl

theorem vecLo_apply (X : S384.Idx → EReal) (a : Fin 256) :
    extractStridedSlice S256 ![0] X slices_S384_S256_0 (ix1 a) = X (ix1 ⟨a.val, by omega⟩) :=
  extractStridedSlice_apply _ X slices_S384_S256_0 _ _ fun ax => by
    match ax with
    | ⟨0, _⟩ => exact (Nat.zero_add _).symm

theorem vecHi_apply (X : S384.Idx → EReal) (a : Fin 128) :
    extractStridedSlice S128 ![256] X slices_S384_S128_256 (ix1 a) = X (ix1 ⟨256 + a.val, by omega⟩) :=
  extractStridedSlice_apply _ X slices_S384_S128_256 _ _ fun ax => by
    match ax with
    | ⟨0, _⟩ => rfl

/-! ## The argument arrays reach the stretch as launched -/

theorem arg10_eq (c : Dev nD) : (Gen.V4 m c (Proc.devRef .tc main_arg10) : S64.Idx → EReal) = (m ((c.tc : Thread nD τ).loc main_arg10) : S64.Idx → EReal) :=
  (Gen.V4_of m c main_arg10 (by decide)).trans <| (Gen.V3_of m c main_arg10 (by decide)).trans <| (Gen.V2_of m c main_arg10 (by decide)).trans <| (Gen.V1_of m c main_arg10 (by decide)).trans rfl
theorem arg11_eq (c : Dev nD) : (Gen.V4 m c (Proc.devRef .tc main_arg11) : S64.Idx → EReal) = (m ((c.tc : Thread nD τ).loc main_arg11) : S64.Idx → EReal) :=
  (Gen.V4_of m c main_arg11 (by decide)).trans <| (Gen.V3_of m c main_arg11 (by decide)).trans <| (Gen.V2_of m c main_arg11 (by decide)).trans <| (Gen.V1_of m c main_arg11 (by decide)).trans rfl
theorem arg12_eq (c : Dev nD) : (Gen.V4 m c (Proc.devRef .tc main_arg12) : S384x128.Idx → EReal) = (m ((c.tc : Thread nD τ).loc main_arg12) : S384x128.Idx → EReal) :=
  (Gen.V4_of m c main_arg12 (by decide)).trans <| (Gen.V3_of m c main_arg12 (by decide)).trans <| (Gen.V2_of m c main_arg12 (by decide)).trans <| (Gen.V1_of m c main_arg12 (by decide)).trans rfl
theorem arg13_eq (c : Dev nD) : (Gen.V4 m c (Proc.devRef .tc main_arg13) : S384x128.Idx → EReal) = (m ((c.tc : Thread nD τ).loc main_arg13) : S384x128.Idx → EReal) :=
  (Gen.V4_of m c main_arg13 (by decide)).trans <| (Gen.V3_of m c main_arg13 (by decide)).trans <| (Gen.V2_of m c main_arg13 (by decide)).trans <| (Gen.V1_of m c main_arg13 (by decide)).trans rfl
theorem arg14_eq (c : Dev nD) : (Gen.V4 m c (Proc.devRef .tc main_arg14) : S384.Idx → EReal) = (m ((c.tc : Thread nD τ).loc main_arg14) : S384.Idx → EReal) :=
  (Gen.V4_of m c main_arg14 (by decide)).trans <| (Gen.V3_of m c main_arg14 (by decide)).trans <| (Gen.V2_of m c main_arg14 (by decide)).trans <| (Gen.V1_of m c main_arg14 (by decide)).trans rfl
theorem arg15_eq (c : Dev nD) : (Gen.V4 m c (Proc.devRef .tc main_arg15) : S384.Idx → EReal) = (m ((c.tc : Thread nD τ).loc main_arg15) : S384.Idx → EReal) :=
  (Gen.V4_of m c main_arg15 (by decide)).trans <| (Gen.V3_of m c main_arg15 (by decide)).trans <| (Gen.V2_of m c main_arg15 (by decide)).trans <| (Gen.V1_of m c main_arg15 (by decide)).trans rfl
theorem arg16_eq (c : Dev nD) : (Gen.V4 m c (Proc.devRef .tc main_arg16) : S64x192.Idx → EReal) = (m ((c.tc : Thread nD τ).loc main_arg16) : S64x192.Idx → EReal) :=
  (Gen.V4_of m c main_arg16 (by decide)).trans <| (Gen.V3_of m c main_arg16 (by decide)).trans <| (Gen.V2_of m c main_arg16 (by decide)).trans <| (Gen.V1_of m c main_arg16 (by decide)).trans rfl
theorem arg17_eq (c : Dev nD) : (Gen.V4 m c (Proc.devRef .tc main_arg17) : S64.Idx → EReal) = (m ((c.tc : Thread nD τ).loc main_arg17) : S64.Idx → EReal) :=
  (Gen.V4_of m c main_arg17 (by decide)).trans <| (Gen.V3_of m c main_arg17 (by decide)).trans <| (Gen.V2_of m c main_arg17 (by decide)).trans <| (Gen.V1_of m c main_arg17 (by decide)).trans rfl

end W

open W

/-! ## The ten operands at an index -/

theorem v9_apply (c : Dev nD) (q : Fin 64) :
    (Gen.V5 m c main_v9 : S1x64.Idx → EReal) (ix2 0 q) = ((m ((c.tc : Thread nD τ).loc main_arg10)) : S64.Idx → EReal) (ix1 q) := by
  refine (congrFun (after_v9 (Gen.V4 m c)) (ix2 0 q)).trans ?_
  rw [shapeCast_a_1a_apply, arg10_eq]
theorem v10_apply (c : Dev nD) (q : Fin 64) :
    (Gen.V5 m c main_v10 : S1x64.Idx → EReal) (ix2 0 q) = ((m ((c.tc : Thread nD τ).loc main_arg11)) : S64.Idx → EReal) (ix1 q) := by
  refine (congrFun (after_v10 (Gen.V4 m c)) (ix2 0 q)).trans ?_
  rw [shapeCast_a_1a_apply, arg11_eq]
theorem v24_apply (c : Dev nD) (a b : Fin 256) :
    (Gen.V5 m c main_v24 : S256x256.Idx → EReal) (ix2 a b)
      = sideBySide (fun j : Fin 128 => ((m ((c.tc : Thread nD τ).loc main_arg12)) : S384x128.Idx → EReal) (ix2 ⟨a.val, by omega⟩ j))
          (fun j : Fin 128 => ((m ((c.tc : Thread nD τ).loc main_arg13)) : S384x128.Idx → EReal) (ix2 ⟨a.val, by omega⟩ j)) b := by
  refine (congrFun (after_v24 (Gen.V4 m c)) (ix2 a b)).trans ?_
  refine (truncf_apply (φ := .f32) (ψ := .bf16) _ bitsLt_bf16_f32 (ix2 a b)).trans ?_
  refine (Cert.LibLayout.concat_cols_apply (n := 256) (a := 128) (b := 128) _ _ concatenates_S256x128_S256x128_S256x256_d1 a b).trans ?_
  simp only [rowsLo_apply]
  rw [arg12_eq, arg13_eq]
theorem v25_apply (c : Dev nD) (a b : Fin 128) :
    (Gen.V5 m c main_v25 : S128x128.Idx → EReal) (ix2 a b) = ((m ((c.tc : Thread nD τ).loc main_arg12)) : S384x128.Idx → EReal) (ix2 ⟨256 + a.val, by omega⟩ b) := by
  refine (congrFun (after_v25 (Gen.V4 m c)) (ix2 a b)).trans ?_
  refine (truncf_apply (φ := .f32) (ψ := .bf16) _ bitsLt_bf16_f32 (ix2 a b)).trans ?_
  rw [rowsHi_apply, arg12_eq]
theorem v26_apply (c : Dev nD) (a b : Fin 128) :
    (Gen.V5 m c main_v26 : S128x128.Idx → EReal) (ix2 a b) = ((m ((c.tc : Thread nD τ).loc main_arg13)) : S384x128.Idx → EReal) (ix2 ⟨256 + a.val, by omega⟩ b) := by
  refine (congrFun (after_v26 (Gen.V4 m c)) (ix2 a b)).trans ?_
  refine (truncf_apply (φ := .f32) (ψ := .bf16) _ bitsLt_bf16_f32 (ix2 a b)).trans ?_
  rw [rowsHi_apply, arg13_eq]
theorem v19_apply (c : Dev nD) (a : Fin 256) :
    (Gen.V5 m c main_v19 : S1x256.Idx → EReal) (ix2 0 a)
      = @HAdd.hAdd EReal EReal EReal instHAdd (((m ((c.tc : Thread nD τ).loc main_arg14)) : S384.Idx → EReal) (ix1 ⟨a.val, by omega⟩))
          (((m ((c.tc : Thread nD τ).loc main_arg15)) : S384.Idx → EReal) (ix1 ⟨a.val, by omega⟩)) := by
  refine (congrFun (after_v19 (Gen.V4 m c)) (ix2 0 a)).trans ?_
  rw [shapeCast_a_1a_apply, addf_apply, vecLo_apply, vecLo_apply, arg14_eq, arg15_eq]
theorem v21_apply (c : Dev nD) (a : Fin 128) :
    (Gen.V5 m c main_v21 : S1x128.Idx → EReal) (ix2 0 a) = ((m ((c.tc : Thread nD τ).loc main_arg14)) : S384.Idx → EReal) (ix1 ⟨256 + a.val, by omega⟩) := by
  refine (congrFun (after_v21 (Gen.V4 m c)) (ix2 0 a)).trans ?_
  rw [shapeCast_a_1a_apply, vecHi_apply, arg14_eq]
theorem v23_apply (c : Dev nD) (a : Fin 128) :
    (Gen.V5 m c main_v23 : S1x128.Idx → EReal) (ix2 0 a) = ((m ((c.tc : Thread nD τ).loc main_arg15)) : S384.Idx → EReal) (ix1 ⟨256 + a.val, by omega⟩) := by
  refine (congrFun (after_v23 (Gen.V4 m c)) (ix2 0 a)).trans ?_
  rw [shapeCast_a_1a_apply, vecHi_apply, arg15_eq]
theorem v27_apply (c : Dev nD) (a : Fin 64) (b : Fin 192) :
    (Gen.V5 m c main_v27 : S64x192.Idx → EReal) (ix2 a b) = ((m ((c.tc : Thread nD τ).loc main_arg16)) : S64x192.Idx → EReal) (ix2 a b) := by
  refine (congrFun (after_v27 (Gen.V4 m c)) (ix2 a b)).trans ?_
  refine (truncf_apply (φ := .f32) (ψ := .bf16) _ bitsLt_bf16_f32 (ix2 a b)).trans ?_
  exact congrFun (arg16_eq m c) (ix2 a b)
theorem v28_apply (c : Dev nD) (a : Fin 64) :
    (Gen.V5 m c main_v28 : S1x64.Idx → EReal) (ix2 0 a) = ((m ((c.tc : Thread nD τ).loc main_arg17)) : S64.Idx → EReal) (ix1 a) := by
  refine (congrFun (after_v28 (Gen.V4 m c)) (ix2 0 a)).trans ?_
  rw [shapeCast_a_1a_apply, arg17_eq]

end Cert.KernelIdeal.HostValue

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.KI.HostK0N.lean ====
/-
  A looked-up operand of region 0 read at an index (floats are extended reals): a table row looked up by an in-range
  index word is that row of the table; the look-up's fill for out-of-range words is never taken, and a change of float
  format is the identity.
-/
import proofs.«401926_j12421045420080_2_alg».proof.Proof.Gen.KernelIdeal.Regions
import proofs.«401926_j12421045420080_2_alg».proof.Proof.Spec
import proofs.«401926_j12421045420080_2_alg».proof.Proof.LibSegmentSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Spec
open Idealize.ShloMosaic Idealize.ShloMosaic.TcCoe Idealize.ShloMosaic.ValueIdx

namespace N

/-- A left fold by `and` from 1 over ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by `and`, started at 1, of an array of ones is 1 everywhere. -/
theorem reduce_andi_one {s t u : Shape} {axes : List (Fin s.rank)} (x : s.Idx → BitVec 1) (init : u.Idx → BitVec 1)
    (h : s.ReducesTo axes t) (hu : 0 < u.numel) (j : t.Idx)
    (hinit : init (Shape.Idx.first hu) = 1#1) (hx : ∀ i, x i = 1#1) : Host.reduce IntOp.andi x init h hu j = 1#1 := by
  rw [Host.reduce_eq_foldl, hinit]
  exact foldl_andi_one x _ (fun n _ => hx n)

/-- A word that is not negative is not wrapped by the table's length. -/
theorem wrap_apply (x0 : IVec S12288 32) (k : Fin 12288) (h : 0 ≤ (x0 (ix1 k)).toInt) :
    select (cmpi .slt x0 (broadcastInDim S12288 ![] bcast_S_S12288 (constantI S_ 32 0#32)))
      (addi x0 (broadcastInDim S12288 ![] bcast_S_S12288 (constantI S_ 32 500000#32))) x0 (ix1 k) = x0 (ix1 k) := by
  show Scalar.select (IntOp.cmpi .slt (x0 (ix1 k)) 0#32) _ _ = _
  have hc : IntOp.cmpi .slt (x0 (ix1 k)) 0#32 = 0#1 :=
    eq_zero_of_ne_one (fun e => by have := IntOp.cmpi_slt.1 e; have z : (0#32 : BitVec 32).toInt = 0 := by decide
                                   omega)
  rw [hc]
  exact select_zero _ _

/-- A vector laid out as a one-column table reads, at row `k`, the vector at `k`. -/
theorem col_apply (y : IVec S12288 32) (k : Fin 12288) (u : Fin 1) :
    broadcastInDim S12288x1 ![0] bcast_S12288_S12288x1_0 y (ix2 k u) = y (ix1 k) := by
  exact broadcastInDim_apply _ bcast_S12288_S12288x1_0 y (ix2 k u) (ix1 k)
    (fun a => match a with | ⟨0, _⟩ => by show k.val = if (12288 : ℕ) = 1 then 0 else k.val; rw [if_neg (by decide)])

/-- A bit per row spread along the row reads, at (k, q), the row's bit. -/
theorem rowbit_apply (y : IVec S12288 1) (k : Fin 12288) (q : Fin 64) :
    broadcastInDim S12288x64 ![0] bcast_S12288_S12288x64_0 y (ix2 k q) = y (ix1 k) := by
  exact broadcastInDim_apply _ bcast_S12288_S12288x64_0 y (ix2 k q) (ix1 k)
    (fun a => match a with | ⟨0, _⟩ => by show k.val = if (12288 : ℕ) = 1 then 0 else k.val; rw [if_neg (by decide)])

/-- Every in-range word passes both range tests. -/
theorem maskElt (C : IVec S12288x1 32) (hC : ∀ i, 0 ≤ (C i).toInt ∧ (C i).toInt < 500000) (i : S12288x1.Idx) :
    andi (cmpi .sge C (broadcastInDim S12288x1 ![] bcast_S_S12288x1 (constantI S_ 32 0#32)))
      (cmpi .sle C (broadcastInDim S12288x1 ![0, 1] bcast_S1x1_S12288x1_0_1 (broadcastInDim S1x1 ![1] bcast_S1_S1x1_1 (constantI S1 32 499999#32)))) i = 1#1 := by
  show IntOp.andi (IntOp.cmpi .sge (C i) 0#32) (IntOp.cmpi .sle (C i) 499999#32) = 1#1
  have z : (0#32 : BitVec 32).toInt = 0 := by decide
  have z' : (499999#32 : BitVec 32).toInt = 499999 := by decide
  have := hC i
  exact IntOp.andi_eq_one.2 ⟨IntOp.cmpi_sge.2 (by omega), IntOp.cmpi_sle.2 (by omega)⟩

/-- The look-up over a one-column table of in-range words, read at (n, q): the table's row the word names. -/
theorem take_col (x0 : IVec S12288 32) (x8 : FVec Ideal S500000x64 .f32) (C : IVec S12288x1 32)
    (hC : ∀ (k : Fin 12288) (u : Fin 1), C (ix2 k u) = x0 (ix1 k))
    (hall : ∀ k : Fin 12288, 0 ≤ (x0 (ix1 k)).toInt ∧ (x0 (ix1 k)).toInt < 500000) (n : Fin 12288) (q : Fin 64) :
    (select (broadcastInDim S12288x64 ![0] bcast_S12288_S12288x64_0 (Host.reduce IntOp.andi (andi (cmpi .sge C (broadcastInDim S12288x1 ![] bcast_S_S12288x1 (constantI S_ 32 0#32))) (cmpi .sle C (broadcastInDim S12288x1 ![0, 1] bcast_S1x1_S12288x1_0_1 (broadcastInDim S1x1 ![1] bcast_S1_S1x1_1 (constantI S1 32 499999#32))))) (constantI S_ 1 1#1) reducesTo_S12288x1_S12288_d1 h_S_)) (Host.gather gather_S500000x64_S12288x1_S12288x64_1_0_n_n_0_1_164 x8 C) (broadcastInDim S12288x64 ![] bcast_S_S12288x64 (constant (F := Ideal) S_ FTy.f32 0x7FC00000#32))) (ix2 n q)
      = x8 (ix2 (rowIx 500000 (x0 (ix1 n))) q) := by
  have hCr : ∀ i, 0 ≤ (C i).toInt ∧ (C i).toInt < 500000 := fun i => by
    obtain ⟨k, u, rfl⟩ : ∃ (k : Fin 12288) (u : Fin 1), i = ix2 k u := ⟨i 0, i 1, eq_ix2 i⟩
    rw [hC]; exact hall k
  rw [select_apply, rowbit_apply, reduce_andi_one _ _ _ _ _ rfl (maskElt C hCr), select_one]
  rw [Cert.LibSegmentSum.gather_rows gather_S500000x64_S12288x1_S12288x64_1_0_n_n_0_1_164 rfl rfl rfl rfl rfl rfl rfl x8 C n q (by decide)]
  refine congrArg x8 (congrArg (fun r : Fin 500000 => (ix2 r q : S500000x64.Idx)) (Fin.ext ?_))
  show min (C (ix2 n 0)).toInt.toNat (500000 - 1) = min (x0 (ix1 n)).toInt.toNat (500000 - 1)
  rw [hC]

/-- The look-up of in-range words, read at (n, q). -/
theorem take_apply (x0 : IVec S12288 32) (x8 : FVec Ideal S500000x64 .f32)
    (hall : ∀ k : Fin 12288, 0 ≤ (x0 (ix1 k)).toInt ∧ (x0 (ix1 k)).toInt < 500000) (n : Fin 12288) (q : Fin 64) :
    (select (broadcastInDim S12288x64 ![0] bcast_S12288_S12288x64_0 (Host.reduce IntOp.andi (andi (cmpi .sge (broadcastInDim S12288x1 ![0] bcast_S12288_S12288x1_0 (select (cmpi .slt x0 (broadcastInDim S12288 ![] bcast_S_S12288 (constantI S_ 32 0#32))) (addi x0 (broadcastInDim S12288 ![] bcast_S_S12288 (constantI S_ 32 500000#32))) x0)) (broadcastInDim S12288x1 ![] bcast_S_S12288x1 (constantI S_ 32 0#32))) (cmpi .sle (broadcastInDim S12288x1 ![0] bcast_S12288_S12288x1_0 (select (cmpi .slt x0 (broadcastInDim S12288 ![] bcast_S_S12288 (constantI S_ 32 0#32))) (addi x0 (broadcastInDim S12288 ![] bcast_S_S12288 (constantI S_ 32 500000#32))) x0)) (broadcastInDim S12288x1 ![0, 1] bcast_S1x1_S12288x1_0_1 (broadcastInDim S1x1 ![1] bcast_S1_S1x1_1 (constantI S1 32 499999#32))))) (constantI S_ 1 1#1) reducesTo_S12288x1_S12288_d1 h_S_)) (Host.gather gather_S500000x64_S12288x1_S12288x64_1_0_n_n_0_1_164 x8 (broadcastInDim S12288x1 ![0] bcast_S12288_S12288x1_0 (select (cmpi .slt x0 (broadcastInDim S12288 ![] bcast_S_S12288 (constantI S_ 32 0#32))) (addi x0 (broadcastInDim S12288 ![] bcast_S_S12288 (constantI S_ 32 500000#32))) x0))) (broadcastInDim S12288x64 ![] bcast_S_S12288x64 (constant (F := Ideal) S_ FTy.f32 0x7FC00000#32))) (ix2 n q)
      = x8 (ix2 (rowIx 500000 (x0 (ix1 n))) q) :=
  take_col x0 x8 _ (fun k u => (col_apply _ k u).trans (wrap_apply x0 k (hall k).1)) hall n q

/-- The three id vectors end to end, read at `n`. -/
theorem ids_apply (a0 a1 a2 : IVec S4096 32) (n : Fin 12288) :
    concatenate S12288 0 [⟨S4096, a0⟩, ⟨S4096, a1⟩, ⟨S4096, a2⟩] concatenates_S4096_S4096_S4096_S12288_d0 (ix1 n) = idsAt a0 a1 a2 n := by
  unfold idsAt
  by_cases h : n.val < 4096
  · rw [dif_pos h]
    exact concatenate_apply_piece 0 [⟨S4096, a0⟩, ⟨S4096, a1⟩, ⟨S4096, a2⟩] concatenates_S4096_S4096_S4096_S12288_d0 (ix1 n) 0 (show 0 < 3 by omega) S4096 a0 rfl rfl 0 rfl (ix1 ⟨n.val, h⟩)
      (fun b hb => absurd (Subsingleton.elim _ _) hb) (show 0 + n.val = n.val by omega)
  · rw [dif_neg h]
    by_cases h' : n.val < 8192
    · rw [dif_pos h']
      exact concatenate_apply_piece 0 [⟨S4096, a0⟩, ⟨S4096, a1⟩, ⟨S4096, a2⟩] concatenates_S4096_S4096_S4096_S12288_d0 (ix1 n) 1 (show 1 < 3 by omega) S4096 a1 rfl rfl 4096 rfl (ix1 ⟨n.val - 4096, by omega⟩)
        (fun b hb => absurd (Subsingleton.elim _ _) hb) (show 4096 + (n.val - 4096) = n.val by omega)
    · rw [dif_neg h']
      exact concatenate_apply_piece 0 [⟨S4096, a0⟩, ⟨S4096, a1⟩, ⟨S4096, a2⟩] concatenates_S4096_S4096_S4096_S12288_d0 (ix1 n) 2 (show 2 < 3 by omega) S4096 a2 rfl rfl 8192 rfl (ix1 ⟨n.val - 8192, by omega⟩)
        (fun b hb => absurd (Subsingleton.elim _ _) hb) (show 8192 + (n.val - 8192) = n.val by omega)

set_option maxHeartbeats 2000000 in
/-- The look-up's result over any contents of the buffers it reads, at (n, q), when every index word is in range. -/
theorem take0 (W : Valuation τ sig (Elt Ideal))
    (hall : ∀ k : Fin 12288, 0 ≤ ((W (Proc.devRef .tc main_v0) : S12288.Idx → BitVec 32) (ix1 k)).toInt
      ∧ ((W (Proc.devRef .tc main_v0) : S12288.Idx → BitVec 32) (ix1 k)).toInt < 500000) (n : Fin 12288) (q : Fin 64) :
    (StableHlo.after hostOps0_1 W (Proc.devRef .tc main_v1) : S12288x64.Idx → EReal) (ix2 n q)
      = (W (Proc.devRef .tc main_arg8) : S500000x64.Idx → EReal)
          (ix2 (rowIx 500000 ((W (Proc.devRef .tc main_v0) : S12288.Idx → BitVec 32) (ix1 n))) q) := by
  after_results_simp
  simp only [StableHlo.TRef.ofBuf, StableHlo.TRef.toBuf, cast_eq]
  exact take_apply _ _ hall n q

end N

variable (m : (ℓ : Loc nD τ sig) → Buf (Elt Ideal) ℓ)

/-- The node feature rows: at event row n, column q, the node table at the row the event's id word names. -/
theorem v2_apply (c : Dev nD)
    (h0 : ∀ i, 0 ≤ (((m ((c.tc : Thread nD τ).loc main_arg0)) : S4096.Idx → BitVec 32) i).toInt ∧ (((m ((c.tc : Thread nD τ).loc main_arg0)) : S4096.Idx → BitVec 32) i).toInt < 500000)
    (h1 : ∀ i, 0 ≤ (((m ((c.tc : Thread nD τ).loc main_arg1)) : S4096.Idx → BitVec 32) i).toInt ∧ (((m ((c.tc : Thread nD τ).loc main_arg1)) : S4096.Idx → BitVec 32) i).toInt < 500000)
    (h2 : ∀ i, 0 ≤ (((m ((c.tc : Thread nD τ).loc main_arg2)) : S4096.Idx → BitVec 32) i).toInt ∧ (((m ((c.tc : Thread nD τ).loc main_arg2)) : S4096.Idx → BitVec 32) i).toInt < 500000)
    (n : Fin 12288) (q : Fin 64) :
    (Gen.V5 m c main_v2 : S12288x64.Idx → EReal) (ix2 n q)
      = ((m ((c.tc : Thread nD τ).loc main_arg8)) : S500000x64.Idx → EReal) (ix2 (rowIx 500000 (idsAt (m ((c.tc : Thread nD τ).loc main_arg0)) (m ((c.tc : Thread nD τ).loc main_arg1)) (m ((c.tc : Thread nD τ).loc main_arg2)) n)) q) := by
  have e5 : Gen.V5 m c main_v2 = Gen.V3 m c main_v2 := (V5_of m c main_v2 (by decide)).trans (V4_of m c main_v2 (by decide))
  have e3 : (Gen.V3 m c main_v2 : S12288x64.Idx → EReal)
      = (truncf (F := Ideal) .bf16 (Gen.V2 m c main_v1 : FVec Ideal S12288x64 .f32) bitsLt_bf16_f32 : FVec Ideal S12288x64 .bf16) := by
    show StableHlo.after hostOps0_2 (Gen.V2 m c) (Proc.devRef .tc main_v2) = _
    generalize Gen.V2 m c = W
    after_results
  have e8 : Gen.V1 m c main_arg8 = m ((c : Thread nD τ).loc main_arg8) := (V1_of m c main_arg8 (by decide)).trans rfl
  have e0 : (Gen.V1 m c main_v0 : S12288.Idx → BitVec 32)
      = concatenate S12288 0 [⟨S4096, m ((c.tc : Thread nD τ).loc main_arg0)⟩, ⟨S4096, m ((c.tc : Thread nD τ).loc main_arg1)⟩, ⟨S4096, m ((c.tc : Thread nD τ).loc main_arg2)⟩]
          concatenates_S4096_S4096_S4096_S12288_d0 := by
    show StableHlo.after hostOps0 (Gen.V0 m c) (Proc.devRef .tc main_v0) = _
    after_results
    rfl
  have ids : ∀ k : Fin 12288, (Gen.V1 m c main_v0 : S12288.Idx → BitVec 32) (ix1 k)
      = idsAt (m ((c.tc : Thread nD τ).loc main_arg0)) (m ((c.tc : Thread nD τ).loc main_arg1)) (m ((c.tc : Thread nD τ).loc main_arg2)) k := fun k => by
    rw [e0]; exact N.ids_apply _ _ _ k
  have hall : ∀ k : Fin 12288, 0 ≤ ((Gen.V1 m c main_v0 : S12288.Idx → BitVec 32) (ix1 k)).toInt
      ∧ ((Gen.V1 m c main_v0 : S12288.Idx → BitVec 32) (ix1 k)).toInt < 500000 := fun k => by
    rw [ids k]; unfold idsAt
    split
    · exact h0 _
    · split
      · exact h1 _
      · exact h2 _
  rw [e5, e3, truncf_apply]
  refine (N.take0 (Gen.V1 m c) hall n q).trans ?_
  rw [ids n]
  exact congrFun e8 _

end Cert.KernelIdeal.HostValue

end
-- ==== Proof.KI.LibGather3.lean ====
/-
  A gather of table rows through a rank-3 index table, read at one index.

  The index table has shape [M, K, 1]: its last axis is the index vector's, of length one, and names the row axis of
  an [N, D] table. The result has shape [M, K, D]: its first two axes are batch axes read off the index table's first
  two, its last axis is the offset axis that runs along a table row. So the element at (e, k, c) is the table's at row
  idx[e, k, 0] (the word read signed, clamped into [0, N - 1]) and column c. Stated over ANY dimension-number record of
  that type whose fields are given by hypotheses, so that one statement serves every size.
-/
import Idealize.ShloMosaic.PureOps.Ideal
import Idealize.ShloMosaic.Lib.ValueIdx

noncomputable section

namespace Cert.LibGather3

open Idealize.ShloMosaic Idealize.ShloMosaic.ValueIdx

/-- An entry of a one-element list is that element. -/
theorem getElem_singleton {α : Type} {l : List α} {a : α} (hl : l = [a]) (k : Nat) (h : k < l.length) : l[k] = a := by
  subst hl
  have hk : k = 0 := by simpa using h
  subst hk
  rfl

/-- In a two-element list read at the position another two-element list gives one of its (distinct) elements, the
    entry is the one in the same place. -/
theorem getElem_idxOf_pair {α β : Type} [DecidableEq β] {l : List α} {l' : List β} {a0 a1 : α} {b0 b1 : β}
    (hl : l = [a0, a1]) (hl' : l' = [b0, b1]) (hne : b0 ≠ b1) :
    (∀ h : l'.idxOf b0 < l.length, l[l'.idxOf b0] = a0) ∧ (∀ h : l'.idxOf b1 < l.length, l[l'.idxOf b1] = a1) := by
  subst hl hl'
  have e0 : List.idxOf b0 [b0, b1] = 0 := by simp
  have e1 : List.idxOf b1 [b0, b1] = 1 := by simp [List.idxOf_cons, hne]
  constructor
  · intro h; simp only [e0]; rfl
  · intro h; simp only [e1]; rfl

section Rows3

variable {N M K D w : Nat} (d : GatherDims ⟨2, ![N, D]⟩ ⟨3, ![M, K, 1]⟩ ⟨3, ![M, K, D]⟩)

/-- The index table is read at (the result's first coordinate, its second, 0). -/
theorem siIdx_rows3 (hoff : d.offsetDims = [2]) (hsim : d.startIndexMap = [0]) (hivd : d.indexVectorDim = 2)
    (e : Fin M) (k : Fin K) (c : Fin D) (q : Fin d.startIndexMap.length) :
    d.siIdx (ix3 e k c) q = ix3 e k 0 := by
  -- the result's batch axes are its first two, and so are the index table's axes but the index vector's
  have hbd : d.batchDims = [(0 : Fin 3), 1] := by
    change (⟨3, ![M, K, D]⟩ : Shape).kept d.offsetDims = [0, 1]
    rw [hoff]; rfl
  have hsk : d.siKept = [(0 : Fin 3), 1] := by
    change (List.finRange 3).filter (fun b : Fin 3 => decide (b.val ≠ d.indexVectorDim)) = [0, 1]
    rw [hivd]; rfl
  have hne : (0 : Fin 3) ≠ 1 := by decide
  have hp := getElem_idxOf_pair hbd hsk hne
  have c0 : ∀ X : Fin 3, X = 0 → ((ix3 e k c : (⟨3, ![M, K, D]⟩ : Shape).Idx) X).val = e.val := by
    rintro _ rfl; rfl
  have c1 : ∀ X : Fin 3, X = 1 → ((ix3 e k c : (⟨3, ![M, K, D]⟩ : Shape).Idx) X).val = k.val := by
    rintro _ rfl; rfl
  funext b
  match b with
  | ⟨0, _⟩ =>
    unfold GatherDims.siIdx
    rw [dif_neg (by rw [hivd]; simp)]
    unfold GatherDims.siCoord
    apply Fin.ext
    simp only [Fin.val_cast]
    exact c0 _ (hp.1 _)
  | ⟨1, _⟩ =>
    unfold GatherDims.siIdx
    rw [dif_neg (by rw [hivd]; simp)]
    unfold GatherDims.siCoord
    apply Fin.ext
    simp only [Fin.val_cast]
    exact c1 _ (hp.2 _)
  | ⟨2, _⟩ =>
    unfold GatherDims.siIdx
    rw [dif_pos (by rw [hivd])]
    apply Fin.ext
    show q.val = 0
    have hq : q.val < d.startIndexMap.length := q.isLt
    have hl : d.startIndexMap.length = 1 := by rw [hsim]; rfl
    omega

/-- On the table's column axis the offset coordinate is the result's last coordinate. -/
theorem offCoord_rows3 (hoff : d.offsetDims = [2]) (hcoll : d.collapsedSliceDims = [0]) (hob : d.operandBatchingDims = [])
    (e : Fin M) (k : Fin K) (c : Fin D) : d.offCoord (ix3 e k c) 1 = c.val := by
  have hk : (1 : Fin 2) ∈ d.sKept := by rw [GatherDims.mem_sKept, hcoll, hob]; simp
  unfold GatherDims.offCoord
  rw [dif_pos hk]
  have col : ∀ X : Fin 3, X = 2 → ((ix3 e k c : (⟨3, ![M, K, D]⟩ : Shape).Idx) X).val = c.val := by
    rintro _ rfl; rfl
  exact col _ (getElem_singleton hoff _ _)

end Rows3

/-- A gather of table rows through an [M, K, 1] index table, read at (e, k, c): the row the index word at (e, k, 0)
    names, read signed and clamped into [0, N - 1], at column c. -/
theorem gather_rows3 {α : Type} {N M K D w : Nat} (d : GatherDims ⟨2, ![N, D]⟩ ⟨3, ![M, K, 1]⟩ ⟨3, ![M, K, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![M, K, 1]⟩ w) (e : Fin M) (k : Fin K) (c : Fin D) (hN : 0 < N) :
    Host.gather d x idx (ix3 e k c) = x (ix2 ⟨min (idx (ix3 e k 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix3 e k c) idx 0 + d.batchCoord (ix3 e k c) 0 + d.offCoord (ix3 e k c) 0 = min (idx (ix3 e k 0)).toInt.toNat (N - 1)
    rw [GatherDims.batchCoord_eq_zero _ _ _ (hb 0), GatherDims.offCoord_eq_zero _ _ _ hk]
    simp only [Nat.add_zero]
    unfold GatherDims.start
    rw [dif_pos hm, siIdx_rows3 d hoff hsim hivd e k c, hsl]
    rfl
  · -- the column axis: kept and not named by the index, so the offset coordinate alone
    have hm : (1 : Fin 2) ∉ d.startIndexMap := by rw [hsim]; simp
    change d.start (ix3 e k c) idx 1 + d.batchCoord (ix3 e k c) 1 + d.offCoord (ix3 e k c) 1 = c.val
    rw [GatherDims.batchCoord_eq_zero _ _ _ (hb 1), offCoord_rows3 d hoff hcoll hob e k c, Nat.add_zero]
    unfold GatherDims.start
    rw [dif_neg hm, Nat.zero_add]

end Cert.LibGather3

end
-- ==== Proof.KI.HostK0E.lean ====
/-
  A looked-up operand of region 0 read at an index (floats are extended reals): a table row looked up by an in-range
  index word is that row of the table; the look-up's fill for out-of-range words is never taken, and a change of float
  format is the identity.
-/
import proofs.«401926_j12421045420080_2_alg».proof.Proof.Gen.KernelIdeal.Regions
import proofs.«401926_j12421045420080_2_alg».proof.Proof.Spec
import proofs.«401926_j12421045420080_2_alg».proof.Proof.KI.LibGather3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Spec
open Idealize.ShloMosaic Idealize.ShloMosaic.TcCoe Idealize.ShloMosaic.ValueIdx

namespace E

/-- A left fold of the bitwise and, from the bit 1, over bits that are all 1, is 1. -/
theorem foldl_andi_one {ι : Type} (P : ι → BitVec 1) (hP : ∀ i, P i = 1#1) (l : List ι) :
    l.foldl (fun r i => IntOp.andi r (P i)) 1#1 = 1#1 := by
  induction l with
  | nil => rfl
  | cons a l ih =>
    rw [List.foldl_cons, hP a, show IntOp.andi (1#1 : BitVec 1) 1#1 = 1#1 from by decide]
    exact ih

/-- A reduction by and, from the bit 1, of an array of bits that are all 1, is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

/-- The look-up's wrap of negative index words: a negative word has the table's length added. -/
abbrev wrap (x5 : IVec S12288x32 32) : IVec S12288x32 32 :=
  select (cmpi .slt x5 (broadcastInDim S12288x32 ![] bcast_S_S12288x32 (constantI S_ 32 0#32)))
    (addi x5 (broadcastInDim S12288x32 ![] bcast_S_S12288x32 (constantI S_ 32 1000000#32))) x5

/-- A word that is not negative is kept by the wrap. -/
theorem wrap_apply (x5 : IVec S12288x32 32) (h5 : ∀ i, 0 ≤ (x5 i).toInt ∧ (x5 i).toInt < 1000000) (j : S12288x32.Idx) :
    wrap x5 j = x5 j := by
  have hc : cmpi .slt x5 (broadcastInDim S12288x32 ![] bcast_S_S12288x32 (constantI S_ 32 0#32)) j = 0#1 := by
    apply eq_zero_of_ne_one
    show ¬ IntOp.cmpi .slt (x5 j) 0#32 = 1#1
    rw [IntOp.cmpi_slt, show (0#32 : BitVec 32).toInt = 0 from by decide]
    exact not_lt.mpr (h5 j).1
  show select _ _ x5 j = x5 j
  rw [select_apply, hc, select_zero]

/-- The index table with a last axis of length one added, read at an index. -/
theorem idx3_apply (v : IVec S12288x32 32) (a : Fin 12288) (b : Fin 32) (z : Fin 1) :
    broadcastInDim S12288x32x1 ![0, 1] bcast_S12288x32_S12288x32x1_0_1 v (ix3 a b z) = v (ix2 a b) :=
  broadcastInDim_apply _ bcast_S12288x32_S12288x32x1_0_1 v (ix3 a b z) (ix2 a b) (fun d => match d with
    | ⟨0, _⟩ => by show a.val = if (12288 : Nat) = 1 then 0 else a.val; rw [if_neg (by decide)]
    | ⟨1, _⟩ => by show b.val = if (32 : Nat) = 1 then 0 else b.val; rw [if_neg (by decide)])

/-- The per-slot mask spread along the feature axis, read at an index. -/
theorem mask3_apply (v : IVec S12288x32 1) (a : Fin 12288) (b : Fin 32) (q : Fin 64) :
    broadcastInDim S12288x32x64 ![0, 1] bcast_S12288x32_S12288x32x64_0_1 v (ix3 a b q) = v (ix2 a b) :=
  broadcastInDim_apply _ bcast_S12288x32_S12288x32x64_0_1 v (ix3 a b q) (ix2 a b) (fun d => match d with
    | ⟨0, _⟩ => by show a.val = if (12288 : Nat) = 1 then 0 else a.val; rw [if_neg (by decide)]
    | ⟨1, _⟩ => by show b.val = if (32 : Nat) = 1 then 0 else b.val; rw [if_neg (by decide)])

/-- The look-up of table rows by in-range index words, as the host spells it (wrap of negative words, the rows
    gathered, a range test reduced by and over the index vector, the fill where the test fails), read at slot
    (n, k), column q: the table's row the word names. -/
theorem take_rows (x5 : IVec S12288x32 32) (x9 : S1000000x64.Idx → EReal)
    (h5 : ∀ i, 0 ≤ (x5 i).toInt ∧ (x5 i).toInt < 1000000) (n : Fin 12288) (k : Fin 32) (q : Fin 64) :
    select
        (broadcastInDim S12288x32x64 ![0, 1] bcast_S12288x32_S12288x32x64_0_1
          (Host.reduce IntOp.andi
            (andi
              (cmpi CmpIPredicate.sge (broadcastInDim S12288x32x1 ![0, 1] bcast_S12288x32_S12288x32x1_0_1 (wrap x5))
                (broadcastInDim S12288x32x1 ![] bcast_S_S12288x32x1 (constantI S_ 32 0#32)))
              (cmpi CmpIPredicate.sle (broadcastInDim S12288x32x1 ![0, 1] bcast_S12288x32_S12288x32x1_0_1 (wrap x5))
                (broadcastInDim S12288x32x1 ![0, 1, 2] bcast_S1x1x1_S12288x32x1_0_1_2
                  (broadcastInDim S1x1x1 ![2] bcast_S1_S1x1x1_2 (constantI S1 32 999999#32)))))
            (constantI S_ 1 1#1) reducesTo_S12288x32x1_S12288x32_d2 h_S_))
        (Host.gather gather_S1000000x64_S12288x32x1_S12288x32x64_2_0_n_n_0_2_164 x9
          (broadcastInDim S12288x32x1 ![0, 1] bcast_S12288x32_S12288x32x1_0_1 (wrap x5)))
        (broadcastInDim S12288x32x64 ![] bcast_S_S12288x32x64 (constant (F := Ideal) S_ FTy.f32 0x7FC00000#32)) (ix3 n k q)
      = x9 (ix2 (rowIx 1000000 (x5 (ix2 n k))) q) := by
  -- the wrapped index table at any index is the word itself
  have hv : ∀ (a : Fin 12288) (b : Fin 32) (z : Fin 1),
      broadcastInDim S12288x32x1 ![0, 1] bcast_S12288x32_S12288x32x1_0_1 (wrap x5) (ix3 a b z) = x5 (ix2 a b) := fun a b z => by
    rw [idx3_apply, wrap_apply x5 h5]
  -- the range test holds at every index
  have hall : ∀ i : S12288x32x1.Idx,
      andi
        (cmpi CmpIPredicate.sge (broadcastInDim S12288x32x1 ![0, 1] bcast_S12288x32_S12288x32x1_0_1 (wrap x5))
          (broadcastInDim S12288x32x1 ![] bcast_S_S12288x32x1 (constantI S_ 32 0#32)))
        (cmpi CmpIPredicate.sle (broadcastInDim S12288x32x1 ![0, 1] bcast_S12288x32_S12288x32x1_0_1 (wrap x5))
          (broadcastInDim S12288x32x1 ![0, 1, 2] bcast_S1x1x1_S12288x32x1_0_1_2
            (broadcastInDim S1x1x1 ![2] bcast_S1_S1x1x1_2 (constantI S1 32 999999#32)))) i = 1#1 := fun i => by
    obtain ⟨a, b, z, rfl⟩ : ∃ a b z, i = ix3 a b z := ⟨i 0, i 1, i 2, eq_ix3 i⟩
    show IntOp.andi
        (IntOp.cmpi .sge (broadcastInDim S12288x32x1 ![0, 1] bcast_S12288x32_S12288x32x1_0_1 (wrap x5) (ix3 a b z)) 0#32)
        (IntOp.cmpi .sle (broadcastInDim S12288x32x1 ![0, 1] bcast_S12288x32_S12288x32x1_0_1 (wrap x5) (ix3 a b z)) 999999#32) = 1#1
    rw [hv, IntOp.andi_eq_one, IntOp.cmpi_sge, IntOp.cmpi_sle, show (0#32 : BitVec 32).toInt = 0 from by decide,
      show (999999#32 : BitVec 32).toInt = 999999 from by decide]
    have := h5 (ix2 a b)
    omega
  -- so the mask is 1 and the select takes the gathered row
  rw [select_apply, mask3_apply, reduce_andi_one _ _ _ _ _ hall rfl, select_one]
  rw [Cert.LibGather3.gather_rows3 gather_S1000000x64_S12288x32x1_S12288x32x64_2_0_n_n_0_2_164 rfl rfl rfl rfl rfl x9 _ n k q
    (by decide)]
  show x9 (ix2 (rowIx 1000000
    (broadcastInDim S12288x32x1 ![0, 1] bcast_S12288x32_S12288x32x1_0_1 (wrap x5) (ix3 n k 0))) q) = _
  rw [hv]

set_option maxHeartbeats 2000000 in
/-- The same over any contents of the buffers before the look-up's operations. -/
theorem take1 (W : Valuation τ sig (Elt Ideal))
    (h5 : ∀ i, 0 ≤ (((W (Proc.devRef .tc main_arg5)) : S12288x32.Idx → BitVec 32) i).toInt ∧ (((W (Proc.devRef .tc main_arg5)) : S12288x32.Idx → BitVec 32) i).toInt < 1000000)
    (n : Fin 12288) (k : Fin 32) (q : Fin 64) :
    (StableHlo.after hostOps0_3 W (Proc.devRef .tc main_v3) : S12288x32x64.Idx → EReal) (ix3 n k q)
      = (W (Proc.devRef .tc main_arg9) : S1000000x64.Idx → EReal) (ix2 (rowIx 1000000 ((W (Proc.devRef .tc main_arg5) : S12288x32.Idx → BitVec 32) (ix2 n k))) q) := by
  after_results_simp
  simp only [StableHlo.TRef.ofBuf, StableHlo.TRef.toBuf, cast_eq]
  generalize (W (Proc.devRef .tc main_arg5)) = x5 at h5 ⊢
  generalize (W (Proc.devRef .tc main_arg9)) = x9
  exact take_rows x5 x9 h5 n k q

end E

variable (m : (ℓ : Loc nD τ sig) → Buf (Elt Ideal) ℓ)

/-- The edge feature rows: at neighbour slot (n, k), column q, the edge table at the row the slot's id word names. -/
theorem v4_apply (c : Dev nD)
    (h5 : ∀ i, 0 ≤ (((m ((c.tc : Thread nD τ).loc main_arg5)) : S12288x32.Idx → BitVec 32) i).toInt ∧ (((m ((c.tc : Thread nD τ).loc main_arg5)) : S12288x32.Idx → BitVec 32) i).toInt < 1000000)
    (n : Fin 12288) (k : Fin 32) (q : Fin 64) :
    (Gen.V5 m c main_v4 : S12288x32x64.Idx → EReal) (ix3 n k q)
      = ((m ((c.tc : Thread nD τ).loc main_arg9)) : S1000000x64.Idx → EReal) (ix2 (rowIx 1000000 (((m ((c.tc : Thread nD τ).loc main_arg5)) : S12288x32.Idx → BitVec 32) (ix2 n k))) q) := by
  -- the change of float format after the look-up is the identity
  have e4 : (Gen.V5 m c main_v4 : S12288x32x64.Idx → EReal) = (Gen.V4 m c main_v3 : S12288x32x64.Idx → EReal) := by
    show StableHlo.after hostOps0_4 (Gen.V4 m c) (Proc.devRef .tc main_v4) = _
    generalize Gen.V4 m c = W
    after_results
    rfl
  -- the index words and the table are the arguments: no earlier operation writes them
  have a5 : Gen.V3 m c main_arg5 = m ((c.tc : Thread nD τ).loc main_arg5) :=
    (Gen.V3_of m c main_arg5 (by decide)).trans ((Gen.V2_of m c main_arg5 (by decide)).trans (Gen.V1_of m c main_arg5 (by decide)))
  have a9 : Gen.V3 m c main_arg9 = m ((c.tc : Thread nD τ).loc main_arg9) :=
    (Gen.V3_of m c main_arg9 (by decide)).trans ((Gen.V2_of m c main_arg9 (by decide)).trans (Gen.V1_of m c main_arg9 (by decide)))
  rw [e4]
  show (StableHlo.after hostOps0_3 (Gen.V3 m c) (Proc.devRef .tc main_v3) : S12288x32x64.Idx → EReal) (ix3 n k q) = _
  rw [E.take1 (Gen.V3 m c) (by rw [a5]; exact h5) n k q, a5, a9]

end Cert.KernelIdeal.HostValue

end
-- ==== Proof.KI.HostK0.lean ====
/-
  Region 0's operand arrays read at a row (floats are extended reals), as functions of the argument arrays, and
  the embedding they give. The hidden states, the time stamps and the neighbour ids are argument arrays as they
  stand. The node's feature row and each neighbour's edge feature row are table rows looked up by an in-range index
  word (the look-up's out-of-range fill is never taken). The cut times are tiled three times: row n holds the cut
  time of event n mod 4096. The fused gate weights are the first 256 rows of the two weight matrices side by side
  and the fused bias the sum of the first 256 biases; the candidate's weights and biases are the last 128 rows; a
  change of float format is the identity. With these, the fused-cell embedding of row n of the operand arrays is
  the embedding of event n from the argument arrays.
-/
import proofs.«401926_j12421045420080_2_alg».proof.Proof.Gen.KernelIdeal.Regions
import proofs.«401926_j12421045420080_2_alg».proof.Proof.SpecLaws
import proofs.«401926_j12421045420080_2_alg».proof.Proof.KI.HostK0W
import proofs.«401926_j12421045420080_2_alg».proof.Proof.KI.HostK0N
import proofs.«401926_j12421045420080_2_alg».proof.Proof.KI.HostK0E
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

namespace D

/-- The hidden states' array is an argument: no stretch before region 0 writes it. -/
theorem opnd_arg7 (c : Dev nD) : Gen.V5 m c main_arg7 = m ((c.tc : Thread nD τ).loc main_arg7) :=
  (V5_of m c main_arg7 (by decide)).trans <| (V4_of m c main_arg7 (by decide)).trans <| (V3_of m c main_arg7 (by decide)).trans <|
    (V2_of m c main_arg7 (by decide)).trans <| V1_of m c main_arg7 (by decide)

/-- The time stamps' array is an argument. -/
theorem opnd_arg6 (c : Dev nD) : Gen.V5 m c main_arg6 = m ((c.tc : Thread nD τ).loc main_arg6) :=
  (V5_of m c main_arg6 (by decide)).trans <| (V4_of m c main_arg6 (by decide)).trans <| (V3_of m c main_arg6 (by decide)).trans <|
    (V2_of m c main_arg6 (by decide)).trans <| V1_of m c main_arg6 (by decide)

/-- The neighbour ids' array is an argument. -/
theorem opnd_arg4 (c : Dev nD) : Gen.V5 m c main_arg4 = m ((c.tc : Thread nD τ).loc main_arg4) :=
  (V5_of m c main_arg4 (by decide)).trans <| (V4_of m c main_arg4 (by decide)).trans <| (V3_of m c main_arg4 (by decide)).trans <|
    (V2_of m c main_arg4 (by decide)).trans <| V1_of m c main_arg4 (by decide)

/-- The cut times' array is an argument: untouched when the last stretch before region 0 reads it. -/
theorem opnd_arg3 (c : Dev nD) : Gen.V4 m c main_arg3 = m ((c.tc : Thread nD τ).loc main_arg3) :=
  (V4_of m c main_arg3 (by decide)).trans <| (V3_of m c main_arg3 (by decide)).trans <|
    (V2_of m c main_arg3 (by decide)).trans <| V1_of m c main_arg3 (by decide)

/-- The tiled cut times as the operations build them: the 4096 cut times as one row, that row repeated three
    times, the three rows laid end to end, and the result stood up as a column. -/
theorem opnd_v8_term (c : Dev nD) : (Gen.V5 m c main_v8 : S12288x1.Idx → EReal)
    = shapeCast S12288x1 (shapeCast S12288 (broadcastInDim S3x4096 ![0, 1] bcast_S1x4096_S3x4096_0_1
        (shapeCast S1x4096 (Gen.V4 m c main_arg3 : S4096.Idx → EReal) shapeCasts_S4096_S1x4096)) shapeCasts_S3x4096_S12288) shapeCasts_S12288_S12288x1 := by
  show StableHlo.after hostOps0_4 (Gen.V4 m c) (Proc.devRef .tc main_v8) = shapeCast S12288x1 (shapeCast S12288 (broadcastInDim S3x4096 ![0, 1] bcast_S1x4096_S3x4096_0_1
        (shapeCast S1x4096 (Gen.V4 m c (Proc.devRef .tc main_arg3)) shapeCasts_S4096_S1x4096)) shapeCasts_S3x4096_S12288) shapeCasts_S12288_S12288x1
  generalize Gen.V4 m c = W
  after_results
  rfl

/-- Row `n` of the tiled cut times is the cut time of event `n mod 4096`: row `n` of the column is entry `n` of the
    12288 laid end to end, which is entry `n mod 4096` of copy `n / 4096` of the row. -/
theorem opnd_v8_apply (c : Dev nD) (n : Fin 12288) :
    (Gen.V5 m c main_v8 : S12288x1.Idx → EReal) (ix2 n 0)
      = (m ((c.tc : Thread nD τ).loc main_arg3) : S4096.Idx → EReal) (ix1 ⟨n.val % 4096, Nat.mod_lt _ (by norm_num)⟩) := by
  rw [opnd_v8_term, opnd_arg3]
  have hn := n.isLt
  refine (shapeCast_apply _ shapeCasts_S12288_S12288x1 (ix2 n 0) (ix1 n) ?_).trans ?_
  · rewrite [Shape.rowMajor_val_one, Shape.rowMajor_val_two]
    show n.val = n.val * 1 + 0
    omega
  refine (shapeCast_apply _ shapeCasts_S3x4096_S12288 (ix1 n) (ix2 ⟨n.val / 4096, by omega⟩ ⟨n.val % 4096, by omega⟩) ?_).trans ?_
  · rewrite [Shape.rowMajor_val_two, Shape.rowMajor_val_one]
    show n.val / 4096 * 4096 + n.val % 4096 = n.val
    omega
  refine (broadcastInDim_apply _ bcast_S1x4096_S3x4096_0_1 _ _ (ix2 0 ⟨n.val % 4096, by omega⟩) (fun a => match a with
    | ⟨0, _⟩ => by show 0 = if (1 : Nat) = 1 then 0 else n.val / 4096; rw [if_pos rfl]
    | ⟨1, _⟩ => by show n.val % 4096 = if (4096 : Nat) = 1 then 0 else n.val % 4096; rw [if_neg (by decide)])).trans ?_
  refine shapeCast_apply (s := S4096) (t := S1x4096) _ shapeCasts_S4096_S1x4096 _ (ix1 ⟨n.val % 4096, by omega⟩) ?_
  show ((S4096 : Shape).rowMajor (ix1 (⟨n.val % 4096, by omega⟩ : Fin 4096))).val
    = ((S1x4096 : Shape).rowMajor (ix2 (0 : Fin 1) (⟨n.val % 4096, by omega⟩ : Fin 4096))).val
  rewrite [Shape.rowMajor_val_one, Shape.rowMajor_val_two]
  show n.val % 4096 = 0 * 4096 + n.val % 4096
  omega

end D

/-- Region 0's operands: the fused-cell embedding of row `n` of the arrays region 0 finds is the embedding of
    event `n` from the argument arrays, when the index words are in range. -/
theorem emb_row_of_args (c : Dev nD)
    (hidx : IdxInRange (m ((c.tc : Thread nD τ).loc main_arg0)) (m ((c.tc : Thread nD τ).loc main_arg1)) (m ((c.tc : Thread nD τ).loc main_arg2)) (m ((c.tc : Thread nD τ).loc main_arg5)))
    (n : Fin 12288) (f : Fin 64) :
    embRowFused (fun (k : Fin 32) (g : Fin 128) => (Gen.V5 m c main_arg7 : S12288x32x128.Idx → EReal) (ix3 n k g))
          (fun (k : Fin 32) (q : Fin 64) => (Gen.V5 m c main_v4 : S12288x32x64.Idx → EReal) (ix3 n k q))
          (fun k : Fin 32 => (Gen.V5 m c main_arg6 : S12288x32.Idx → EReal) (ix2 n k))
          (fun k : Fin 32 => (Gen.V5 m c main_arg4 : S12288x32.Idx → BitVec 32) (ix2 n k))
          (fun q : Fin 64 => (Gen.V5 m c main_v2 : S12288x64.Idx → EReal) (ix2 n q))
          ((Gen.V5 m c main_v8 : S12288x1.Idx → EReal) (ix2 n 0))
          (fun q : Fin 64 => (Gen.V5 m c main_v9 : S1x64.Idx → EReal) (ix2 0 q))
          (fun q : Fin 64 => (Gen.V5 m c main_v10 : S1x64.Idx → EReal) (ix2 0 q))
          (fun a b : Fin 256 => (Gen.V5 m c main_v24 : S256x256.Idx → EReal) (ix2 a b))
          (fun a b : Fin 128 => (Gen.V5 m c main_v25 : S128x128.Idx → EReal) (ix2 a b))
          (fun a b : Fin 128 => (Gen.V5 m c main_v26 : S128x128.Idx → EReal) (ix2 a b))
          (fun a : Fin 256 => (Gen.V5 m c main_v19 : S1x256.Idx → EReal) (ix2 0 a))
          (fun a : Fin 128 => (Gen.V5 m c main_v21 : S1x128.Idx → EReal) (ix2 0 a))
          (fun a : Fin 128 => (Gen.V5 m c main_v23 : S1x128.Idx → EReal) (ix2 0 a))
          (fun (a : Fin 64) (b : Fin 192) => (Gen.V5 m c main_v27 : S64x192.Idx → EReal) (ix2 a b))
          (fun a : Fin 64 => (Gen.V5 m c main_v28 : S1x64.Idx → EReal) (ix2 0 a)) f
      = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) n f := by
  obtain ⟨h0, h1, h2, h5⟩ := hidx
  -- the embedding from the argument arrays, in the fused arrangement
  unfold embOf
  rw [← embRowFused_eq_embRow]
  -- each of the sixteen operand arrays, read at row `n`, is the argument arrays' row
  simp only [D.opnd_arg7 m c, D.opnd_arg6 m c, D.opnd_arg4 m c, D.opnd_v8_apply m c, v2_apply m c h0 h1 h2, v4_apply m c h5,
    v9_apply m c, v10_apply m c, v24_apply m c, v25_apply m c, v26_apply m c, v19_apply m c, v21_apply m c, v23_apply m c,
    v27_apply m c, v28_apply m c]

end Cert.KernelIdeal.HostValue

end
-- ==== Proof.KI.HostK1.lean ====
/-
  The host operations of the kernel's program read at an index (floats are extended reals): what the two regions
  find in their operand arrays, as functions of the argument arrays. Before region 0: the node ids are the three id
  vectors end to end; a table row looked up by an in-range index word is that row (the look-up's out-of-range
  fill is never taken); the cut times are tiled three times; the fused gate weights are the first 256 rows of the
  two weight matrices side by side and the fused bias the sum of the first 256 biases; the candidate's weights and
  biases are the last 128 rows; a change of float format is the identity. Before region 1: the three row ranges
  of region 0's result, and the merge layer's parameters reshaped.
-/
import proofs.«401926_j12421045420080_2_alg».proof.Proof.Gen.KernelIdeal.Regions
import proofs.«401926_j12421045420080_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

variable (outs : Gen.Outs (F := Ideal))

/-- An argument array is untouched up to region 1's entry: no host operation writes it and region 0 changes
    only its own result. -/
theorem V6_arg18 (c : Dev nD) : Gen.V6 m outs c main_arg18 = m ((c : Thread nD τ).loc main_arg18) :=
  (V6_of m outs c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide)).trans rfl
theorem V6_arg19 (c : Dev nD) : Gen.V6 m outs c main_arg19 = m ((c : Thread nD τ).loc main_arg19) :=
  (V6_of m outs c main_arg19 (by decide)).trans <| (V5_of m c main_arg19 (by decide)).trans <| (V4_of m c main_arg19 (by decide)).trans <| (V3_of m c main_arg19 (by decide)).trans <| (V2_of m c main_arg19 (by decide)).trans <| (V1_of m c main_arg19 (by decide)).trans rfl
theorem V6_arg20 (c : Dev nD) : Gen.V6 m outs c main_arg20 = m ((c : Thread nD τ).loc main_arg20) :=
  (V6_of m outs c main_arg20 (by decide)).trans <| (V5_of m c main_arg20 (by decide)).trans <| (V4_of m c main_arg20 (by decide)).trans <| (V3_of m c main_arg20 (by decide)).trans <| (V2_of m c main_arg20 (by decide)).trans <| (V1_of m c main_arg20 (by decide)).trans rfl
theorem V6_arg21 (c : Dev nD) : Gen.V6 m outs c main_arg21 = m ((c : Thread nD τ).loc main_arg21) :=
  (V6_of m outs c main_arg21 (by decide)).trans <| (V5_of m c main_arg21 (by decide)).trans <| (V4_of m c main_arg21 (by decide)).trans <| (V3_of m c main_arg21 (by decide)).trans <| (V2_of m c main_arg21 (by decide)).trans <| (V1_of m c main_arg21 (by decide)).trans rfl

/-- Region 0's result array holds, at region 1's entry, what region 0 left there. -/
theorem V6_v29 (c : Dev nD) : Gen.V6 m outs c (Proc.devRef .tc main_v29) = outs 6 main_v29 c :=
  Function.update_self ..

/-- Region 1's row operands: the source, target and negative row ranges of region 0's result. -/
theorem v30_apply (c : Dev nD) (b : Fin 4096) (q : Fin 64) :
    (Gen.V7 m outs c main_v30 : S4096x64.Idx → EReal) (ix2 b q) = (outs 6 main_v29 c : S12288x64.Idx → EReal) (ix2 ⟨b.val, by omega⟩ q) := by
  have e : (Gen.V7 m outs c main_v30 : S4096x64.Idx → EReal)
      = extractStridedSlice S4096x64 ![0, 0] (outs 6 main_v29 c : S12288x64.Idx → EReal) slices_S12288x64_S4096x64_0_0 := by
    show StableHlo.after hostOps1 (Gen.V6 m outs c) (Proc.devRef .tc main_v30) = _
    after_results
    rw [V6_v29]
  rw [e]
  exact slice2_axis0_apply 0 _ _ b q ⟨b.val, by omega⟩ (Nat.zero_add _).symm
theorem v31_apply (c : Dev nD) (b : Fin 4096) (q : Fin 64) :
    (Gen.V7 m outs c main_v31 : S4096x64.Idx → EReal) (ix2 b q) = (outs 6 main_v29 c : S12288x64.Idx → EReal) (ix2 ⟨4096 + b.val, by omega⟩ q) := by
  have e : (Gen.V7 m outs c main_v31 : S4096x64.Idx → EReal)
      = extractStridedSlice S4096x64 ![4096, 0] (outs 6 main_v29 c : S12288x64.Idx → EReal) slices_S12288x64_S4096x64_4096_0 := by
    show StableHlo.after hostOps1 (Gen.V6 m outs c) (Proc.devRef .tc main_v31) = _
    after_results
    rw [V6_v29]
  rw [e]
  exact slice2_axis0_apply 4096 _ _ b q ⟨4096 + b.val, by omega⟩ rfl
theorem v32_apply (c : Dev nD) (b : Fin 4096) (q : Fin 64) :
    (Gen.V7 m outs c main_v32 : S4096x64.Idx → EReal) (ix2 b q) = (outs 6 main_v29 c : S12288x64.Idx → EReal) (ix2 ⟨8192 + b.val, by omega⟩ q) := by
  have e : (Gen.V7 m outs c main_v32 : S4096x64.Idx → EReal)
      = extractStridedSlice S4096x64 ![8192, 0] (outs 6 main_v29 c : S12288x64.Idx → EReal) slices_S12288x64_S4096x64_8192_0 := by
    show StableHlo.after hostOps1 (Gen.V6 m outs c) (Proc.devRef .tc main_v32) = _
    after_results
    rw [V6_v29]
  rw [e]
  exact slice2_axis0_apply 8192 _ _ b q ⟨8192 + b.val, by omega⟩ rfl

/-- Region 1's parameter operands. -/
theorem v33_apply (c : Dev nD) (a : Fin 64) (b : Fin 128) :
    (Gen.V7 m outs c main_v33 : S64x128.Idx → EReal) (ix2 a b) = ((m ((c.tc : Thread nD τ).loc main_arg18)) : S64x128.Idx → EReal) (ix2 a b) := by
  have e : (Gen.V7 m outs c main_v33 : S64x128.Idx → EReal)
      = (truncf (F := Ideal) .bf16 (Gen.V6 m outs c main_arg18 : FVec Ideal S64x128 .f32) bitsLt_bf16_f32 : FVec Ideal S64x128 .bf16) := by
    show StableHlo.after hostOps1 (Gen.V6 m outs c) (Proc.devRef .tc main_v33) = _
    after_results
  rw [e, V6_arg18]
  rfl
theorem v34_apply (c : Dev nD) (a : Fin 64) :
    (Gen.V7 m outs c main_v34 : S1x64.Idx → EReal) (ix2 0 a) = ((m ((c.tc : Thread nD τ).loc main_arg19)) : S64.Idx → EReal) (ix1 a) := by
  have e : (Gen.V7 m outs c main_v34 : S1x64.Idx → EReal)
      = shapeCast S1x64 (Gen.V6 m outs c main_arg19 : S64.Idx → EReal) shapeCasts_S64_S1x64 := by
    show StableHlo.after hostOps1 (Gen.V6 m outs c) (Proc.devRef .tc main_v34) = _
    after_results
    rfl
  rw [e, V6_arg19]
  exact shapeCast_a_1a_apply _ _ 0 a
theorem v35_apply (c : Dev nD) (a : Fin 64) :
    (Gen.V7 m outs c main_v35 : S1x64.Idx → EReal) (ix2 0 a) = ((m ((c.tc : Thread nD τ).loc main_arg20)) : S1x64.Idx → EReal) (ix2 0 a) := by
  have e : (Gen.V7 m outs c main_v35 : S1x64.Idx → EReal)
      = (truncf (F := Ideal) .bf16 (Gen.V6 m outs c main_arg20 : FVec Ideal S1x64 .f32) bitsLt_bf16_f32 : FVec Ideal S1x64 .bf16) := by
    show StableHlo.after hostOps1 (Gen.V6 m outs c) (Proc.devRef .tc main_v35) = _
    after_results
  rw [e, V6_arg20]
  rfl
theorem v36_apply (c : Dev nD) :
    (Gen.V7 m outs c main_v36 : S1x1.Idx → EReal) (ix2 0 0) = ((m ((c.tc : Thread nD τ).loc main_arg21)) : S1.Idx → EReal) (ix1 0) := by
  have e : (Gen.V7 m outs c main_v36 : S1x1.Idx → EReal)
      = shapeCast S1x1 (Gen.V6 m outs c main_arg21 : S1.Idx → EReal) shapeCasts_S1_S1x1 := by
    show StableHlo.after hostOps1 (Gen.V6 m outs c) (Proc.devRef .tc main_v36) = _
    after_results
    rfl
  rw [e, V6_arg21]
  exact shapeCast_a_1a_apply _ _ 0 0

end Cert.KernelIdeal.HostValue

end
-- ==== Proof.KI.Final.lean ====
/-
  The kernel's program computes the specification (floats are extended reals): region 1's result array at event b,
  column s is the score row of rows b, 4096 + b, 8192 + b of region 0's result array and the merge layer's
  parameters; region 0's result array at event n is the fused-cell embedding of row n of its operand arrays, which
  is the embedding of event n from the argument arrays when the index words are in range.
-/
import proofs.«401926_j12421045420080_2_alg».proof.Proof.KI.Run
import proofs.«401926_j12421045420080_2_alg».proof.Proof.KI.K0Block
import proofs.«401926_j12421045420080_2_alg».proof.Proof.KI.K0Array
import proofs.«401926_j12421045420080_2_alg».proof.Proof.KI.K1Value
import proofs.«401926_j12421045420080_2_alg».proof.Proof.KI.HostK0
import proofs.«401926_j12421045420080_2_alg».proof.Proof.KI.HostK1

set_option maxRecDepth 16384

noncomputable section

namespace Cert.KernelIdeal.Final

open Cert.KernelIdeal Cert.KernelIdeal.Gen Cert.KernelIdeal.Hand Cert.Spec
open Idealize.ShloMosaic Idealize.ShloMosaic.TcCoe Idealize.ShloMosaic.ValueIdx

variable (m : (ℓ : Loc nD τ sig) → Buf (Elt Ideal) ℓ)

/-- Region 0's result array, from the argument arrays. -/
theorem emb_eq (c : Dev nD)
    (hidx : IdxInRange (m ((c.tc : Thread nD τ).loc main_arg0)) (m ((c.tc : Thread nD τ).loc main_arg1)) (m ((c.tc : Thread nD τ).loc main_arg2)) (m ((c.tc : Thread nD τ).loc main_arg5)))
    (n : Fin 12288) (f : Fin 64) :
    ((dat0 (Vin0 m) c).arrAt 16 cfg0.N : S12288x64.Idx → EReal) (ix2 n f)
      = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) n f := by
  rw [K0Value.emb_apply (Vin0 m) embRowFused (fun x0 x1 x2 x3 x4 x5 x6 x7 x8 x9 x10 x11 x12 x13 x14 x15 p f =>
    K0Value.kout0_apply x0 x1 x2 x3 x4 x5 x6 x7 x8 x9 x10 x11 x12 x13 x14 x15 p f) c n f]
  exact HostValue.emb_row_of_args m c hidx n f

set_option maxHeartbeats 1000000 in
/-- The program's result array, from the argument arrays. -/
theorem result_eq (c : Dev nD)
    (hidx : IdxInRange (m ((c.tc : Thread nD τ).loc main_arg0)) (m ((c.tc : Thread nD τ).loc main_arg1)) (m ((c.tc : Thread nD τ).loc main_arg2)) (m ((c.tc : Thread nD τ).loc main_arg5))) :
    ((dat1 (Vin1 m) c).arrAt 7 cfg1.N : S4096x2.Idx → EReal)
      = fun i => outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (i 0) (i 1) := by
  funext i
  obtain ⟨b, s, rfl⟩ : ∃ (b : Fin 4096) (s : Fin 2), i = ix2 b s := ⟨i 0, i 1, eq_ix2 i⟩
  -- region 0's result array, as region 1 finds it
  have h29 : (outsOf m 6 main_v29 c : S12288x64.Idx → EReal) = ((dat0 (Vin0 m) c).arrAt 16 cfg0.N : S12288x64.Idx → EReal) :=
    outsOf_emb m c
  -- the three row operands are rows b, 4096 + b, 8192 + b of it: the embeddings of those events
  have e30 : (fun q : Fin 64 => (Vin1 m c main_v30 : S4096x64.Idx → EReal) (ix2 b q))
      = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) ⟨b.val, by omega⟩ :=
    funext fun q => (HostValue.v30_apply m (outsOf m) c b q).trans ((congrFun h29 _).trans (emb_eq m c hidx _ q))
  have e31 : (fun q : Fin 64 => (Vin1 m c main_v31 : S4096x64.Idx → EReal) (ix2 b q))
      = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) ⟨4096 + b.val, by omega⟩ :=
    funext fun q => (HostValue.v31_apply m (outsOf m) c b q).trans ((congrFun h29 _).trans (emb_eq m c hidx _ q))
  have e32 : (fun q : Fin 64 => (Vin1 m c main_v32 : S4096x64.Idx → EReal) (ix2 b q))
      = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) ⟨8192 + b.val, by omega⟩ :=
    funext fun q => (HostValue.v32_apply m (outsOf m) c b q).trans ((congrFun h29 _).trans (emb_eq m c hidx _ q))
  -- the merge layer's parameters are the argument arrays
  have e33 : (fun (a : Fin 64) (b' : Fin 128) => (Vin1 m c main_v33 : S64x128.Idx → EReal) (ix2 a b'))
      = fun (a : Fin 64) (b' : Fin 128) => ((m ((c.tc : Thread nD τ).loc main_arg18)) : S64x128.Idx → EReal) (ix2 a b') :=
    funext fun a => funext fun b' => HostValue.v33_apply m (outsOf m) c a b'
  have e34 : (fun a : Fin 64 => (Vin1 m c main_v34 : S1x64.Idx → EReal) (ix2 0 a))
      = fun a : Fin 64 => ((m ((c.tc : Thread nD τ).loc main_arg19)) : S64.Idx → EReal) (ix1 a) :=
    funext fun a => HostValue.v34_apply m (outsOf m) c a
  have e35 : (fun a : Fin 64 => (Vin1 m c main_v35 : S1x64.Idx → EReal) (ix2 0 a))
      = fun a : Fin 64 => ((m ((c.tc : Thread nD τ).loc main_arg20)) : S1x64.Idx → EReal) (ix2 0 a) :=
    funext fun a => HostValue.v35_apply m (outsOf m) c a
  have e36 : (Vin1 m c main_v36 : S1x1.Idx → EReal) (ix2 0 0) = ((m ((c.tc : Thread nD τ).loc main_arg21)) : S1.Idx → EReal) (ix1 0) :=
    HostValue.v36_apply m (outsOf m) c
  refine (K1Value.out_apply (Vin1 m) c b s).trans ?_
  rw [e30, e31, e32, e33, e34, e35, e36]
  unfold outOf
  rfl

end Cert.KernelIdeal.Final

end
-- ==== Proof.Ref.RefIn.lean ====
/-
  The reference's inputs to the cell read at an index (floats are extended reals): the 12288 × 32 neighbour slots laid
  out as 393216 rows (slot (n, k) is row 32·n + k); a row of the cell's input is the slot's looked-up edge feature
  row beside its 64 time cosines; a row of the state is the slot's stored hidden state; the node's looked-up
  feature row.

  An index word reaches its table through a select that adds the table's height to a negative word and keeps any
  other: on words in range the select is the identity, and the lookup reads the row the word names (the word read
  signed and clamped into the table, which is what `Spec.rowIx` spells). The cut time of event row n is the cut
  time of event n mod 4096: the 4096 cut times are laid out three times over, one copy per block of event rows.
-/
import proofs.«401926_j12421045420080_2_alg».proof.Proof.ReadP
import proofs.«401926_j12421045420080_2_alg».proof.Proof.Spec
import proofs.«401926_j12421045420080_2_alg».proof.Proof.LibSegmentSum
import proofs.«401926_j12421045420080_2_alg».proof.Proof.KI.LibGather3
import proofs.«401926_j12421045420080_2_alg».proof.Proof.KI.LibLayout
import Idealize.ShloMosaic.Lib.Affine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

/-- Neighbour slot (n, k), as a row of the 393216-row layout. -/
def slotRowR (n : Fin 12288) (k : Fin 32) : Fin 393216 := ⟨32 * n.val + k.val, by omega⟩

/-! ## Index words -/

/-- A select on "the word is negative, read signed" keeps a word that is not negative. -/
theorem select_neg_keep (w v : BitVec 32) (h : 0 ≤ w.toInt) :
    Scalar.select (IntOp.cmpi .slt w 0#32) v w = w := by
  have hne : ¬ IntOp.cmpi .slt w 0#32 = 1#1 := fun hh => by
    have hlt := IntOp.cmpi_slt.mp hh
    rw [BitVec.toInt_zero] at hlt
    omega
  exact if_neg hne

/-- The node id of an event row is not negative when the three id arrays' words are not. -/
theorem idsAt_nonneg (x0 x1 x2 : (⟨S4096, .i32⟩ : BufTy).Contents (Elt Ideal))
    (h0 : ∀ i, 0 ≤ (x0 i).toInt ∧ (x0 i).toInt < 500000) (h1 : ∀ i, 0 ≤ (x1 i).toInt ∧ (x1 i).toInt < 500000)
    (h2 : ∀ i, 0 ≤ (x2 i).toInt ∧ (x2 i).toInt < 500000) (n : Fin 12288) : 0 ≤ (idsAt x0 x1 x2 n).toInt := by
  unfold idsAt
  split
  · exact (h0 _).1
  · split
    · exact (h1 _).1
    · exact (h2 _).1

/-- The three id arrays end to end, at event row `n`: the array whose span of 4096 rows holds `n`, at `n` less the
    rows before it. -/
theorem v0_apply (x0 x1 x2 : (⟨S4096, .i32⟩ : BufTy).Contents (Elt Ideal)) (n : Fin 12288) :
    val_main_v0 (F := Ideal) x0 x1 x2 (ix1 n) = idsAt x0 x1 x2 n := by
  unfold val_main_v0 idsAt
  by_cases h : n.val < 4096
  · rw [dif_pos h]
    exact concatenate_apply_piece (t := S12288) 0 _ _ (ix1 n) 0 (by simp) S4096 x0 rfl rfl 0 rfl
      (ix1 ⟨n.val, h⟩) (fun b hb => absurd (Subsingleton.elim _ _) hb) (by show 0 + n.val = n.val; omega)
  · rw [dif_neg h]
    by_cases h' : n.val < 8192
    · rw [dif_pos h']
      exact concatenate_apply_piece (t := S12288) 0 _ _ (ix1 n) 1 (by simp) S4096 x1 rfl rfl 4096 rfl
        (ix1 ⟨n.val - 4096, by omega⟩) (fun b hb => absurd (Subsingleton.elim _ _) hb)
        (by show 4096 + (n.val - 4096) = n.val; omega)
    · rw [dif_neg h']
      exact concatenate_apply_piece (t := S12288) 0 _ _ (ix1 n) 2 (by simp) S4096 x2 rfl rfl 8192 rfl
        (ix1 ⟨n.val - 8192, by have := n.isLt; omega⟩) (fun b hb => absurd (Subsingleton.elim _ _) hb)
        (by show 8192 + (n.val - 8192) = n.val; omega)

/-- The node-table index of event row `n`: its id word, kept by the select. -/
theorem v6_apply (x0 x1 x2 : (⟨S4096, .i32⟩ : BufTy).Contents (Elt Ideal))
    (h0 : ∀ i, 0 ≤ (x0 i).toInt ∧ (x0 i).toInt < 500000) (h1 : ∀ i, 0 ≤ (x1 i).toInt ∧ (x1 i).toInt < 500000)
    (h2 : ∀ i, 0 ≤ (x2 i).toInt ∧ (x2 i).toInt < 500000) (n : Fin 12288) :
    val_main_v6 (F := Ideal) x0 x1 x2 (ix2 n (0 : Fin 1)) = idsAt x0 x1 x2 n := by
  have e : idx_main_v6 (ix2 n (0 : Fin 1)) = ix1 n := funext fun a => Fin.ext (by match a with | ⟨0, _⟩ => rfl)
  rw [val_main_v6_apply, e, val_main_v5_apply, val_main_v2_apply, val_main_v1_apply, val_main_c_apply, v0_apply]
  exact select_neg_keep _ _ (idsAt_nonneg x0 x1 x2 h0 h1 h2 n)

/-- The node's feature row: the node table at the row its id word names (ids in range). -/
theorem v7_apply (x0 x1 x2 : (⟨S4096, .i32⟩ : BufTy).Contents (Elt Ideal)) (x8 : (⟨S500000x64, .f32⟩ : BufTy).Contents (Elt Ideal))
    (h0 : ∀ i, 0 ≤ (x0 i).toInt ∧ (x0 i).toInt < 500000) (h1 : ∀ i, 0 ≤ (x1 i).toInt ∧ (x1 i).toInt < 500000)
    (h2 : ∀ i, 0 ≤ (x2 i).toInt ∧ (x2 i).toInt < 500000) (n : Fin 12288) (q : Fin 64) :
    val_main_v7 (F := Ideal) x0 x1 x2 x8 (ix2 n q) = x8 (ix2 (rowIx 500000 (idsAt x0 x1 x2 n)) q) := by
  unfold val_main_v7
  refine (Cert.LibSegmentSum.gather_rows gather_S500000x64_S12288x1_S12288x64_1_0_n_n_0_1_164 rfl rfl rfl rfl rfl rfl rfl
    x8 (val_main_v6 (F := Ideal) x0 x1 x2) n q (by omega)).trans ?_
  refine congrArg x8 (congrArg (fun r => ix2 r q) (Fin.ext ?_))
  show min (val_main_v6 (F := Ideal) x0 x1 x2 (ix2 n 0)).toInt.toNat (500000 - 1)
    = min (idsAt x0 x1 x2 n).toInt.toNat (500000 - 1)
  rw [v6_apply x0 x1 x2 h0 h1 h2 n]

/-- The edge-table index of slot (n, k): its id word, kept by the select. -/
theorem v13_apply (x5 : (⟨S12288x32, .i32⟩ : BufTy).Contents (Elt Ideal))
    (h5 : ∀ i, 0 ≤ (x5 i).toInt ∧ (x5 i).toInt < 1000000) (n : Fin 12288) (k : Fin 32) :
    val_main_v13 (F := Ideal) x5 (ix3 n k (0 : Fin 1)) = x5 (ix2 n k) := by
  have e : idx_main_v13 (ix3 n k (0 : Fin 1)) = ix2 n k :=
    funext fun a => Fin.ext (by match a with | ⟨0, _⟩ => rfl | ⟨1, _⟩ => rfl)
  rw [val_main_v13_apply, e, val_main_v12_apply, val_main_v9_apply, val_main_v8_apply, val_main_c_1_apply]
  exact select_neg_keep _ _ (h5 _).1

/-- The slot's edge feature row: the edge table at the row the slot's id word names. -/
theorem v14_apply (x5 : (⟨S12288x32, .i32⟩ : BufTy).Contents (Elt Ideal)) (x9 : (⟨S1000000x64, .f32⟩ : BufTy).Contents (Elt Ideal))
    (h5 : ∀ i, 0 ≤ (x5 i).toInt ∧ (x5 i).toInt < 1000000) (n : Fin 12288) (k : Fin 32) (q : Fin 64) :
    val_main_v14 (F := Ideal) x5 x9 (ix3 n k q) = x9 (ix2 (rowIx 1000000 (x5 (ix2 n k))) q) := by
  unfold val_main_v14
  refine (Cert.LibGather3.gather_rows3 gather_S1000000x64_S12288x32x1_S12288x32x64_2_0_n_n_0_2_164 rfl rfl rfl rfl rfl
    x9 (val_main_v13 (F := Ideal) x5) n k q (by omega)).trans ?_
  refine congrArg x9 (congrArg (fun r => ix2 r q) (Fin.ext ?_))
  show min (val_main_v13 (F := Ideal) x5 (ix3 n k 0)).toInt.toNat (1000000 - 1)
    = min (x5 (ix2 n k)).toInt.toNat (1000000 - 1)
  rw [v13_apply x5 h5 n k]

/-! ## The time cosines -/

/-- The cut time spread over the slots: slot (n, k) carries the cut time of event `n mod 4096` (the 4096 cut times,
    as one row, are repeated for the three blocks of event rows and laid out again as 12288 numbers: number `n` is
    entry `n mod 4096` of copy `n / 4096`). -/
theorem v19_apply (x3 : (⟨S4096, .f32⟩ : BufTy).Contents (Elt Ideal)) (n : Fin 12288) (k : Fin 32) :
    val_main_v19 (F := Ideal) x3 (ix2 n k) = x3 (ix1 ⟨n.val % 4096, Nat.mod_lt _ (by norm_num)⟩) := by
  rw [val_main_v19_apply, val_main_v18_apply, val_main_v17_apply, val_main_v16_apply, val_main_v15_apply]
  refine congrArg x3 (funext fun a => Fin.ext ?_)
  match a with
  | ⟨0, _⟩ => show 0 * 4096 + n.val % 4096 = n.val % 4096; omega

/-- The time cosine of slot (n, k) at frequency `q`. -/
theorem v29_apply (x3 : (⟨S4096, .f32⟩ : BufTy).Contents (Elt Ideal)) (x6 : (⟨S12288x32, .f32⟩ : BufTy).Contents (Elt Ideal))
    (x10 x11 : (⟨S64, .f32⟩ : BufTy).Contents (Elt Ideal)) (n : Fin 12288) (k : Fin 32) (q : Fin 64) :
    val_main_v29 (F := Ideal) x3 x6 x10 x11 (ix3 n k q)
      = tsEnc (x3 (ix1 ⟨n.val % 4096, Nat.mod_lt _ (by norm_num)⟩)) (x6 (ix2 n k)) (x10 (ix1 q)) (x11 (ix1 q)) := by
  have e23 : idx_main_v21 (idx_main_v23 (ix3 n k q)) = ix2 n k :=
    funext fun a => Fin.ext (by match a with | ⟨0, _⟩ => rfl | ⟨1, _⟩ => rfl)
  have e24 : idx_main_v22 (idx_main_v24 (ix3 n k q)) = ix1 q := funext fun a => Fin.ext (by match a with | ⟨0, _⟩ => rfl)
  have e27 : idx_main_v26 (idx_main_v27 (ix3 n k q)) = ix1 q := funext fun a => Fin.ext (by match a with | ⟨0, _⟩ => rfl)
  rw [val_main_v29_apply, val_main_v28_apply, val_main_v25_apply, val_main_v23_apply, val_main_v21_apply, e23,
    val_main_v20_apply, v19_apply, val_main_v24_apply, val_main_v22_apply, e24, val_main_v27_apply, val_main_v26_apply, e27]
  rfl

/-! ## The cell's input and state rows -/

/-- The slot's input row before the slots are laid out as rows: its edge feature row beside its time cosines. -/
theorem v30_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal))
    (h5 : ∀ i, 0 ≤ (x5 i).toInt ∧ (x5 i).toInt < 1000000) (n : Fin 12288) (k : Fin 32) (j : Fin 128) :
    val_main_v30 (F := Ideal) x3 x5 x6 x9 x10 x11 (ix3 n k j)
      = sideBySide (fun q : Fin 64 => x9 (ix2 (rowIx 1000000 (x5 (ix2 n k))) q)) (fun q : Fin 64 => tsEnc (x3 (ix1 ⟨n.val % 4096, Nat.mod_lt _ (by norm_num)⟩)) (x6 (ix2 n k)) (x10 (ix1 q)) (x11 (ix1 q))) j := by
  unfold val_main_v30
  refine (Cert.LibLayout.concat_last3_apply (m := 12288) (n := 32) (a := 64) (b := 64) (val_main_v14 (F := Ideal) x5 x9)
    (val_main_v29 (F := Ideal) x3 x6 x10 x11) concatenates_S12288x32x64_S12288x32x64_S12288x32x128_d2 n k j).trans ?_
  simp only [v14_apply x5 x9 h5 n k, v29_apply x3 x6 x10 x11 n k]

/-- Row `32·n + k` of the 393216-row layout, column `j`, is entry (n, k, j) of the 12288 × 32 × 128 block. -/
theorem idx_v31_slot (n : Fin 12288) (k : Fin 32) (j : Fin 128) : idx_main_v31 (ix2 (slotRowR n k) j) = ix3 n k j :=
  funext fun a => Fin.ext (by
    have hn := n.isLt; have hk := k.isLt; have hj := j.isLt
    match a with
    | ⟨0, _⟩ => show ((32 * n.val + k.val) * 128 + j.val) / 4096 = n.val; omega
    | ⟨1, _⟩ => show ((32 * n.val + k.val) * 128 + j.val) / 128 % 32 = k.val; omega
    | ⟨2, _⟩ => show ((32 * n.val + k.val) * 128 + j.val) % 128 = j.val; omega)

/-- The cell's input rows. -/
theorem v31_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal))
    (h5 : ∀ i, 0 ≤ (x5 i).toInt ∧ (x5 i).toInt < 1000000) (n : Fin 12288) (k : Fin 32) (j : Fin 128) :
    val_main_v31 (F := Ideal) x3 x5 x6 x9 x10 x11 (ix2 (slotRowR n k) j)
      = sideBySide (fun q : Fin 64 => x9 (ix2 (rowIx 1000000 (x5 (ix2 n k))) q)) (fun q : Fin 64 => tsEnc (x3 (ix1 ⟨n.val % 4096, Nat.mod_lt _ (by norm_num)⟩)) (x6 (ix2 n k)) (x10 (ix1 q)) (x11 (ix1 q))) j := by
  rw [val_main_v31_apply, idx_v31_slot]
  exact v30_apply x3 x5 x6 x9 x10 x11 h5 n k j

/-- The state rows. -/
theorem v32_apply (x7 : (⟨S12288x32x128, .f32⟩ : BufTy).Contents (Elt Ideal)) (n : Fin 12288) (k : Fin 32) (g : Fin 128) :
    val_main_v32 (F := Ideal) x7 (ix2 (slotRowR n k) g) = x7 (ix3 n k g) := by
  rw [val_main_v32_apply]
  exact congrArg x7 (idx_v31_slot n k g)

end Cert.ReferenceIdeal.RefValue

end
-- ==== Proof.Ref.RefGru.lean ====
/-
  The reference's cell step read at an index (floats are extended reals): at every one of the 393216 rows, the new
  state at hidden unit g is the gated cell's mixture of that row of the inputs and that row of the states, with the
  two weight matrices transposed into the two matrix products and the gates taken from the products' column
  thirds.
-/
import proofs.«401926_j12421045420080_2_alg».proof.Proof.ReadP
import proofs.«401926_j12421045420080_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

/-- The input side's matrix product plus bias, read at row `r`, column `q`: the affine map of row `r` of the
    cell's inputs against row `q` of the input weights (the product's right operand is the weights transposed). -/
theorem v37_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal)) (x12 : (⟨S384x128, .f32⟩ : BufTy).Contents (Elt Ideal)) (x14 : (⟨S384, .f32⟩ : BufTy).Contents (Elt Ideal)) (r : Fin 393216) (q : Fin 384) :
    val_main_v37 (F := Ideal) x3 x5 x6 x9 x10 x11 x12 x14 (ix2 r q)
      = affine (fun j : Fin 128 => val_main_v31 (F := Ideal) x3 x5 x6 x9 x10 x11 (ix2 r j))
          (fun (a : Fin 384) (b : Fin 128) => x12 (ix2 a b)) (fun a : Fin 384 => x14 (ix1 a)) q := by
  have el : ∀ k : Fin 128, lidx_main_v34 (ix2 r q) k = ix2 r k := fun k =>
    funext fun a => by match a with | ⟨0, _⟩ => rfl | ⟨1, _⟩ => rfl
  have er : ∀ k : Fin 128, idx_main_v33 (ridx_main_v34 (ix2 r q) k) = ix2 q k := fun k =>
    funext fun a => by match a with | ⟨0, _⟩ => rfl | ⟨1, _⟩ => rfl
  have eb : idx_main_v35 (idx_main_v36 (ix2 r q)) = ix1 q :=
    funext fun a => by match a with | ⟨0, _⟩ => rfl
  rw [val_main_v37_apply, val_main_v34_apply, val_main_v36_apply, val_main_v35_apply, eb]
  have hs : (∑ k : Fin 128, val_main_v31 (F := Ideal) x3 x5 x6 x9 x10 x11 (lidx_main_v34 (ix2 r q) k)
        * val_main_v33 (F := Ideal) x12 (ridx_main_v34 (ix2 r q) k))
      = ∑ k : Fin 128, val_main_v31 (F := Ideal) x3 x5 x6 x9 x10 x11 (ix2 r k) * x12 (ix2 q k) :=
    Finset.sum_congr rfl fun k _ => by rw [el k, val_main_v33_apply, er k]
  rw [hs]
  rfl

/-- The state side's matrix product plus bias, read at row `r`, column `q`. -/
theorem v42_apply (x7 : (⟨S12288x32x128, .f32⟩ : BufTy).Contents (Elt Ideal)) (x13 : (⟨S384x128, .f32⟩ : BufTy).Contents (Elt Ideal)) (x15 : (⟨S384, .f32⟩ : BufTy).Contents (Elt Ideal)) (r : Fin 393216) (q : Fin 384) :
    val_main_v42 (F := Ideal) x7 x13 x15 (ix2 r q)
      = affine (fun j : Fin 128 => val_main_v32 (F := Ideal) x7 (ix2 r j))
          (fun (a : Fin 384) (b : Fin 128) => x13 (ix2 a b)) (fun a : Fin 384 => x15 (ix1 a)) q := by
  have el : ∀ k : Fin 128, lidx_main_v39 (ix2 r q) k = ix2 r k := fun k =>
    funext fun a => by match a with | ⟨0, _⟩ => rfl | ⟨1, _⟩ => rfl
  have er : ∀ k : Fin 128, idx_main_v38 (ridx_main_v39 (ix2 r q) k) = ix2 q k := fun k =>
    funext fun a => by match a with | ⟨0, _⟩ => rfl | ⟨1, _⟩ => rfl
  have eb : idx_main_v40 (idx_main_v41 (ix2 r q)) = ix1 q :=
    funext fun a => by match a with | ⟨0, _⟩ => rfl
  rw [val_main_v42_apply, val_main_v39_apply, val_main_v41_apply, val_main_v40_apply, eb]
  have hs : (∑ k : Fin 128, val_main_v32 (F := Ideal) x7 (lidx_main_v39 (ix2 r q) k)
        * val_main_v38 (F := Ideal) x13 (ridx_main_v39 (ix2 r q) k))
      = ∑ k : Fin 128, val_main_v32 (F := Ideal) x7 (ix2 r k) * x13 (ix2 q k) :=
    Finset.sum_congr rfl fun k _ => by rw [el k, val_main_v38_apply, er k]
  rw [hs]
  rfl

/-- The two products' column thirds at hidden unit `g`: columns `g`, `128 + g`, `256 + g`. -/
theorem v43_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal)) (x12 : (⟨S384x128, .f32⟩ : BufTy).Contents (Elt Ideal)) (x14 : (⟨S384, .f32⟩ : BufTy).Contents (Elt Ideal)) (r : Fin 393216) (g : Fin 128) :
    val_main_v43 (F := Ideal) x3 x5 x6 x9 x10 x11 x12 x14 (ix2 r g)
      = val_main_v37 (F := Ideal) x3 x5 x6 x9 x10 x11 x12 x14 (ix2 r (⟨g.val, by omega⟩ : Fin 384)) := by
  rw [val_main_v43_apply]
  exact congrArg _ (funext fun a => by match a with | ⟨0, _⟩ => rfl | ⟨1, _⟩ => rfl)

theorem v44_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal)) (x12 : (⟨S384x128, .f32⟩ : BufTy).Contents (Elt Ideal)) (x14 : (⟨S384, .f32⟩ : BufTy).Contents (Elt Ideal)) (r : Fin 393216) (g : Fin 128) :
    val_main_v44 (F := Ideal) x3 x5 x6 x9 x10 x11 x12 x14 (ix2 r g)
      = val_main_v37 (F := Ideal) x3 x5 x6 x9 x10 x11 x12 x14 (ix2 r (⟨128 + g.val, by omega⟩ : Fin 384)) := by
  rw [val_main_v44_apply]
  exact congrArg _ (funext fun a => by match a with | ⟨0, _⟩ => rfl | ⟨1, _⟩ => rfl)

theorem v45_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x9 : (⟨S1000000x64, .f32⟩ : BufTy).Contents (Elt Ideal)) (x10 x11 : (⟨S64, .f32⟩ : BufTy).Contents (Elt Ideal)) (x12 : (⟨S384x128, .f32⟩ : BufTy).Contents (Elt Ideal)) (x14 : (⟨S384, .f32⟩ : BufTy).Contents (Elt Ideal)) (r : Fin 393216) (g : Fin 128) :
    val_main_v45 (F := Ideal) x3 x5 x6 x9 x10 x11 x12 x14 (ix2 r g)
      = val_main_v37 (F := Ideal) x3 x5 x6 x9 x10 x11 x12 x14 (ix2 r (⟨256 + g.val, by omega⟩ : Fin 384)) := by
  rw [val_main_v45_apply]
  exact congrArg _ (funext fun a => by match a with | ⟨0, _⟩ => rfl | ⟨1, _⟩ => rfl)

theorem v46_apply (x7 : (⟨S12288x32x128, .f32⟩ : BufTy).Contents (Elt Ideal)) (x13 : (⟨S384x128, .f32⟩ : BufTy).Contents (Elt Ideal)) (x15 : (⟨S384, .f32⟩ : BufTy).Contents (Elt Ideal)) (r : Fin 393216) (g : Fin 128) :
    val_main_v46 (F := Ideal) x7 x13 x15 (ix2 r g)
      = val_main_v42 (F := Ideal) x7 x13 x15 (ix2 r (⟨g.val, by omega⟩ : Fin 384)) := by
  rw [val_main_v46_apply]
  exact congrArg _ (funext fun a => by match a with | ⟨0, _⟩ => rfl | ⟨1, _⟩ => rfl)

theorem v47_apply (x7 : (⟨S12288x32x128, .f32⟩ : BufTy).Contents (Elt Ideal)) (x13 : (⟨S384x128, .f32⟩ : BufTy).Contents (Elt Ideal)) (x15 : (⟨S384, .f32⟩ : BufTy).Contents (Elt Ideal)) (r : Fin 393216) (g : Fin 128) :
    val_main_v47 (F := Ideal) x7 x13 x15 (ix2 r g)
      = val_main_v42 (F := Ideal) x7 x13 x15 (ix2 r (⟨128 + g.val, by omega⟩ : Fin 384)) := by
  rw [val_main_v47_apply]
  exact congrArg _ (funext fun a => by match a with | ⟨0, _⟩ => rfl | ⟨1, _⟩ => rfl)

theorem v48_apply (x7 : (⟨S12288x32x128, .f32⟩ : BufTy).Contents (Elt Ideal)) (x13 : (⟨S384x128, .f32⟩ : BufTy).Contents (Elt Ideal)) (x15 : (⟨S384, .f32⟩ : BufTy).Contents (Elt Ideal)) (r : Fin 393216) (g : Fin 128) :
    val_main_v48 (F := Ideal) x7 x13 x15 (ix2 r g)
      = val_main_v42 (F := Ideal) x7 x13 x15 (ix2 r (⟨256 + g.val, by omega⟩ : Fin 384)) := by
  rw [val_main_v48_apply]
  exact congrArg _ (funext fun a => by match a with | ⟨0, _⟩ => rfl | ⟨1, _⟩ => rfl)

/-- The constant the gates are built from is one. -/
theorem one_f32 : FloatOps.ofBits (F := Ideal) .f32 0x3F800000#32 = (1 : EReal) := by
  rw [Ideal.ofBits_def, Ideal.ofBits_one_f32]

theorem v70_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (r : Fin 393216) (g : Fin 128) :
    val_main_v70 (F := Ideal) x3 x5 x6 x7 x9 x10 x11 x12 x13 x14 x15 (ix2 r g)
      = gru (fun j : Fin 128 => val_main_v31 (F := Ideal) x3 x5 x6 x9 x10 x11 (ix2 r j)) (fun j : Fin 128 => val_main_v32 (F := Ideal) x7 (ix2 r j))
          (fun (a : Fin 384) (b : Fin 128) => x12 (ix2 a b)) (fun (a : Fin 384) (b : Fin 128) => x13 (ix2 a b))
          (fun a : Fin 384 => x14 (ix1 a)) (fun a : Fin 384 => x15 (ix1 a)) g := by
  -- the elementwise operations, outermost first, each read at the index
  rw [val_main_v70_apply, val_main_v68_apply, val_main_v69_apply, val_main_v67_apply, val_main_v65_apply,
    val_main_v64_apply, val_main_v63_apply, val_main_v62_apply, val_main_v60_apply, val_main_v58_apply,
    val_main_v57_apply, val_main_v56_apply, val_main_v55_apply, val_main_v53_apply, val_main_v51_apply,
    val_main_v50_apply, val_main_v49_apply]
  -- the five constant blocks are one
  rw [val_main_v66_apply, val_main_cst_6_apply, val_main_v61_apply, val_main_cst_5_apply, val_main_v59_apply,
    val_main_cst_4_apply, val_main_v54_apply, val_main_cst_3_apply, val_main_v52_apply, val_main_cst_apply, one_f32]
  -- the six column thirds are the two affine maps at columns g, 128 + g, 256 + g
  rw [v43_apply, v44_apply, v45_apply, v46_apply, v47_apply, v48_apply, v37_apply, v37_apply, v37_apply,
    v42_apply, v42_apply, v42_apply]
  -- what is left is the cell's mixture, the gates spelled 1 / (1 + exp (− ·))
  rfl

end Cert.ReferenceIdeal.RefValue

end
-- ==== Proof.Ref.RefEmb.lean ====
/-
  The reference's read-out read at an index (floats are extended reals): the 393216 new states regrouped by event, the
  mean over the neighbours whose id is not the padding id (count floored at one), and the rectified affine map of
  the node's feature row beside that mean.

  The road: the mask stage is the mask of the id word (a comparison with zero read as a number); the regrouped
  states at (n, k, g) are row 32 n + k of the flat states; the two sums start from the literal zero, so they are
  plain sums and their quotient, the count floored at the literal one, is the masked mean; two blocks joined along
  the columns are the two rows side by side; a product against a transposed weight matrix plus a bias broadcast
  along the rows is the affine map; the maximum with the literal zero is the rectifier.
-/
import proofs.«401926_j12421045420080_2_alg».proof.Proof.ReadP
import proofs.«401926_j12421045420080_2_alg».proof.Proof.Spec
import proofs.«401926_j12421045420080_2_alg».proof.Proof.KI.LibLayout
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

/-- The literal 0x3F800000 is the number one. -/
theorem emb_one_f32 : Ideal.ofBits .f32 0x3F800000#32 = 1 := by
  simp [Ideal.ofBits, Ideal.ieee]
  rw [← EReal.coe_mul]
  norm_num

/-- "The id word is not the padding id", converted to a number, is the mask of that word: one when the word is not
    zero, zero when it is. -/
theorem emb_mask_of_word (w : BitVec 32) :
    (FloatOps.uitofp (F := Ideal) .f32 (IntOp.cmpi .ne w 0#32)) = maskOf w := by
  unfold maskOf
  by_cases h : w = 0#32
  · subst h
    rw [if_pos rfl]
    have e : IntOp.cmpi .ne (0#32) (0#32) = 0#1 := by decide
    rw [e]
    show (((0#1 : BitVec 1).toNat : ℝ) : EReal) = 0
    simp
  · rw [if_neg h]
    have e : IntOp.cmpi .ne w 0#32 = 1#1 := IntOp.cmpi_ne.mpr h
    rw [e]
    show (((1#1 : BitVec 1).toNat : ℝ) : EReal) = 1
    simp

/-- The mask stage with its unit axis, at any index over event n and neighbour k: the mask of that id word. -/
theorem v75_apply (x4 : (⟨S12288x32, .i32⟩ : BufTy).Contents (Elt Ideal)) (n : Fin 12288) (k : Fin 32)
    (i : S12288x32x1.Idx) (h0 : (i 0).val = n.val) (h1 : (i 1).val = k.val) :
    val_main_v75 (F := Ideal) x4 i = maskOf (x4 (ix2 n k)) := by
  have e : idx_main_v75 i = ix2 n k := funext fun a => Fin.ext (by
    match a with
    | ⟨0, _⟩ => exact h0
    | ⟨1, _⟩ => exact h1)
  rw [val_main_v75_apply, val_main_v74_apply, val_main_v73_apply, val_main_v72_apply, val_main_c_7_apply, e]
  exact emb_mask_of_word _

/-- The new states regrouped by event: entry (n, k, g) is row 32 n + k, column g. -/
theorem v71_apply (x3 : (⟨S4096, .f32⟩ : BufTy).Contents (Elt Ideal)) (x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal))
    (n : Fin 12288) (k : Fin 32) (g : Fin 128) :
    val_main_v71 (F := Ideal) x3 x5 x6 x7 x9 x10 x11 x12 x13 x14 x15 (ix3 n k g)
      = val_main_v70 (F := Ideal) x3 x5 x6 x7 x9 x10 x11 x12 x13 x14 x15 (ix2 ⟨32 * n.val + k.val, by omega⟩ g) := by
  have e : idx_main_v71 (ix3 n k g) = ix2 (⟨32 * n.val + k.val, by omega⟩ : Fin 393216) g := funext fun a => Fin.ext (by
    have hk := k.isLt
    have hg := g.isLt
    match a with
    | ⟨0, _⟩ => show ((n.val * 32 + k.val) * 128 + g.val) / 128 = 32 * n.val + k.val; omega
    | ⟨1, _⟩ => show ((n.val * 32 + k.val) * 128 + g.val) % 128 = g.val; omega)
  rw [val_main_v71_apply, e]

/-- The mean of the new states over the neighbours that count, at event n and hidden unit g. -/
theorem v83_apply (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal))
    (n : Fin 12288) (g : Fin 128) :
    val_main_v83 (F := Ideal) x3 x4 x5 x6 x7 x9 x10 x11 x12 x13 x14 x15 (ix2 n g)
      = maskedMean (fun (k : Fin 32) (g : Fin 128) => val_main_v70 (F := Ideal) x3 x5 x6 x7 x9 x10 x11 x12 x13 x14 x15 (ix2 ⟨32 * n.val + k.val, by omega⟩ g))
          (fun k : Fin 32 => x4 (ix2 n k)) g := by
  have hnum : ∀ k : Fin 32, val_main_v77 (F := Ideal) x3 x4 x5 x6 x7 x9 x10 x11 x12 x13 x14 x15 (idx_main_v78 (ix2 n g) k)
      = val_main_v70 (F := Ideal) x3 x5 x6 x7 x9 x10 x11 x12 x13 x14 x15 (ix2 ⟨32 * n.val + k.val, by omega⟩ g) * maskOf (x4 (ix2 n k)) := fun k => by
    have e : idx_main_v78 (ix2 n g) k = ix3 n k g := funext fun a => Fin.ext (by
      match a with
      | ⟨0, _⟩ => rfl
      | ⟨1, _⟩ => rfl
      | ⟨2, _⟩ => rfl)
    rw [e, val_main_v77_apply, val_main_v76_apply, v71_apply, v75_apply x4 n k _ rfl rfl, Ideal.mulf_def]
  have hden : ∀ k : Fin 32, val_main_v75 (F := Ideal) x4 (idx_main_v79 (idx_main_v82 (ix2 n g)) k) = maskOf (x4 (ix2 n k)) := fun k =>
    v75_apply x4 n k _ rfl rfl
  rw [val_main_v83_apply, val_main_v78_apply, val_main_v82_apply, val_main_v81_apply, val_main_v79_apply, val_main_v80_apply,
    val_main_cst_10_apply, val_main_cst_8_apply, val_main_cst_9_apply]
  simp only [hnum, hden, Ideal.hostDivf_def, Ideal.maximumf_def, Ideal.ofBits_def, Ideal.ofBits_zero_f32, emb_one_f32, zero_add]
  rfl

theorem v90_apply (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (n : Fin 12288) (f : Fin 64) :
    val_main_v90 (F := Ideal) x0 x1 x2 x3 x4 x5 x6 x7 x8 x9 x10 x11 x12 x13 x14 x15 x16 x17 (ix2 n f)
      = max (affine (sideBySide (fun q : Fin 64 => val_main_v7 (F := Ideal) x0 x1 x2 x8 (ix2 n q))
              (maskedMean (fun (k : Fin 32) (g : Fin 128) => val_main_v70 (F := Ideal) x3 x5 x6 x7 x9 x10 x11 x12 x13 x14 x15 (ix2 ⟨32 * n.val + k.val, by omega⟩ g))
                (fun k : Fin 32 => x4 (ix2 n k))))
          (fun (a : Fin 64) (b : Fin 192) => x16 (ix2 a b)) (fun a : Fin 64 => x17 (ix1 a)) f) 0 := by
  -- the joined row: the node's feature row beside the masked mean
  have hcat : ∀ j : Fin 192, val_main_v84 (F := Ideal) x0 x1 x2 x3 x4 x5 x6 x7 x8 x9 x10 x11 x12 x13 x14 x15 (lidx_main_v86 (ix2 n f) j)
      = sideBySide (fun q : Fin 64 => val_main_v7 (F := Ideal) x0 x1 x2 x8 (ix2 n q))
          (maskedMean (fun (k : Fin 32) (g : Fin 128) => val_main_v70 (F := Ideal) x3 x5 x6 x7 x9 x10 x11 x12 x13 x14 x15 (ix2 ⟨32 * n.val + k.val, by omega⟩ g))
            (fun k : Fin 32 => x4 (ix2 n k))) j := fun j => by
    have e : lidx_main_v86 (ix2 n f) j = ix2 n j := funext fun a => Fin.ext (by
      match a with
      | ⟨0, _⟩ => rfl
      | ⟨1, _⟩ => rfl)
    have hm : (fun q : Fin 128 => val_main_v83 (F := Ideal) x3 x4 x5 x6 x7 x9 x10 x11 x12 x13 x14 x15 (ix2 n q))
        = maskedMean (fun (k : Fin 32) (g : Fin 128) => val_main_v70 (F := Ideal) x3 x5 x6 x7 x9 x10 x11 x12 x13 x14 x15 (ix2 ⟨32 * n.val + k.val, by omega⟩ g))
            (fun k : Fin 32 => x4 (ix2 n k)) := funext fun q => v83_apply x3 x4 x5 x6 x7 x9 x10 x11 x12 x13 x14 x15 n q
    rw [e, ← hm]
    unfold val_main_v84
    exact Cert.LibLayout.concat_cols_apply (n := 12288) (a := 64) (b := 128) _ _ _ n j
  -- the transposed weights: entry (j, f) of the transpose is entry (f, j) of the weights
  have hw : ∀ j : Fin 192, val_main_v85 (F := Ideal) x16 (ridx_main_v86 (ix2 n f) j) = x16 (ix2 f j) := fun j => by
    rw [val_main_v85_apply]
    exact congrArg x16 (funext fun a => Fin.ext (by
      match a with
      | ⟨0, _⟩ => rfl
      | ⟨1, _⟩ => rfl))
  -- the bias, broadcast along the rows
  have hb : x17 (idx_main_v87 (idx_main_v88 (ix2 n f))) = x17 (ix1 f) :=
    congrArg x17 (funext fun a => Fin.ext (by
      match a with
      | ⟨0, _⟩ => rfl))
  rw [val_main_v90_apply, val_main_v89_apply, val_main_call0_v0_apply, val_main_call0_cst_apply, val_main_v88_apply,
    val_main_v87_apply, val_main_v86_apply, hb]
  simp only [hcat, hw, Ideal.maximumf_def, Ideal.addf_def, Ideal.ofBits_def, Ideal.ofBits_zero_f32]
  rfl

end Cert.ReferenceIdeal.RefValue

end
-- ==== Proof.Ref.RefTail.lean ====
/-
  The reference's merge layer read at an index (floats are extended reals): the embedded rows split into the source,
  target and negative ranges; each event's source row beside its target row (resp. its negative row) through an
  affine map, a rectifier and a second affine map to one number; the two numbers side by side.
-/
import proofs.«401926_j12421045420080_2_alg».proof.Proof.ReadP
import proofs.«401926_j12421045420080_2_alg».proof.Proof.Spec
import proofs.«401926_j12421045420080_2_alg».proof.Proof.KI.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

/-- The source range of the embedded rows: row `b` of the slice is row `b` of the whole. -/
theorem v91_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (b : Fin 4096) (q : Fin 64) :
    val_main_v91 (F := Ideal) x0 x1 x2 x3 x4 x5 x6 x7 x8 x9 x10 x11 x12 x13 x14 x15 x16 x17 (ix2 b q) = val_main_v90 (F := Ideal) x0 x1 x2 x3 x4 x5 x6 x7 x8 x9 x10 x11 x12 x13 x14 x15 x16 x17 (ix2 ⟨b.val, by omega⟩ q) := by
  rw [val_main_v91_apply]
  exact congrArg _ (funext fun a => match a with | ⟨0, _⟩ => rfl | ⟨1, _⟩ => rfl)

/-- The target range of the embedded rows: row `b` of the slice is row `4096 + b` of the whole. -/
theorem v92_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (b : Fin 4096) (q : Fin 64) :
    val_main_v92 (F := Ideal) x0 x1 x2 x3 x4 x5 x6 x7 x8 x9 x10 x11 x12 x13 x14 x15 x16 x17 (ix2 b q) = val_main_v90 (F := Ideal) x0 x1 x2 x3 x4 x5 x6 x7 x8 x9 x10 x11 x12 x13 x14 x15 x16 x17 (ix2 ⟨4096 + b.val, by omega⟩ q) := by
  rw [val_main_v92_apply]
  exact congrArg _ (funext fun a => match a with | ⟨0, _⟩ => rfl | ⟨1, _⟩ => rfl)

/-- The negative range of the embedded rows: row `b` of the slice is row `8192 + b` of the whole. -/
theorem v93_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (b : Fin 4096) (q : Fin 64) :
    val_main_v93 (F := Ideal) x0 x1 x2 x3 x4 x5 x6 x7 x8 x9 x10 x11 x12 x13 x14 x15 x16 x17 (ix2 b q) = val_main_v90 (F := Ideal) x0 x1 x2 x3 x4 x5 x6 x7 x8 x9 x10 x11 x12 x13 x14 x15 x16 x17 (ix2 ⟨8192 + b.val, by omega⟩ q) := by
  rw [val_main_v93_apply]
  exact congrArg _ (funext fun a => match a with | ⟨0, _⟩ => rfl | ⟨1, _⟩ => rfl)

/-- The target pair of rows side by side: the source row, then the target row. -/
theorem v94_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (b : Fin 4096) (j : Fin 128) :
    val_main_v94 (F := Ideal) x0 x1 x2 x3 x4 x5 x6 x7 x8 x9 x10 x11 x12 x13 x14 x15 x16 x17 (ix2 b j) = sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨4096 + b.val, by omega⟩ q)) j := by
  unfold val_main_v94
  refine (Cert.LibLayout.concat_cols_apply (n := 4096) (a := 64) (b := 64) _ _ concatenates_S4096x64_S4096x64_S4096x128_d1 b j).trans ?_
  simp only [v91_ix2, v92_ix2]

/-- The first affine map on the target pair: the pair against row `f` of the weights, plus the bias. -/
theorem v99_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (b : Fin 4096) (f : Fin 64) :
    val_main_v99 (F := Ideal) x0 x1 x2 x3 x4 x5 x6 x7 x8 x9 x10 x11 x12 x13 x14 x15 x16 x17 x18 x19 (ix2 b f) = affine (sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨4096 + b.val, by omega⟩ q))) (fun (a : Fin 64) (j : Fin 128) => x18 (ix2 a j)) (fun a : Fin 64 => x19 (ix1 a)) f := by
  rw [val_main_v99_apply, val_main_v96_apply, val_main_v98_apply, val_main_v97_apply]
  unfold affine
  have hb : idx_main_v97 (idx_main_v98 (ix2 b f)) = ix1 f := funext fun a => match a with | ⟨0, _⟩ => rfl
  rw [hb, Ideal.addf_def]
  refine congrArg₂ (· + ·) (Finset.sum_congr rfl fun k _ => ?_) rfl
  have el : lidx_main_v96 (ix2 b f) k = ix2 b k := funext fun a => match a with | ⟨0, _⟩ => rfl | ⟨1, _⟩ => rfl
  have er : idx_main_v95 (ridx_main_v96 (ix2 b f) k) = ix2 f k := funext fun a => match a with | ⟨0, _⟩ => rfl | ⟨1, _⟩ => rfl
  rw [val_main_v95_apply, el, er, v94_ix2]

/-- The rectifier after the first affine map. -/
theorem v100_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (b : Fin 4096) (f : Fin 64) :
    val_main_v100 (F := Ideal) x0 x1 x2 x3 x4 x5 x6 x7 x8 x9 x10 x11 x12 x13 x14 x15 x16 x17 x18 x19 (ix2 b f) = max (affine (sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨4096 + b.val, by omega⟩ q))) (fun (a : Fin 64) (j : Fin 128) => x18 (ix2 a j)) (fun a : Fin 64 => x19 (ix1 a)) f) 0 := by
  rw [val_main_v100_apply, val_main_call1_v0_apply, val_main_call1_cst_apply, v99_ix2, Ideal.maximumf_def, Ideal.ofBits_def,
    Ideal.ofBits_zero_f32]

/-- The second affine map, to one number: the score of the target pair. -/
theorem v105_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (x20 : (⟨S1x64, .f32⟩ : BufTy).Contents (Elt Ideal)) (x21 : (⟨S1, .f32⟩ : BufTy).Contents (Elt Ideal)) (b : Fin 4096) (u : Fin 1) :
    val_main_v105 (F := Ideal) x0 x1 x2 x3 x4 x5 x6 x7 x8 x9 x10 x11 x12 x13 x14 x15 x16 x17 x18 x19 x20 x21 (ix2 b u) = mergeRow (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨4096 + b.val, by omega⟩ q)) (fun (a : Fin 64) (j : Fin 128) => x18 (ix2 a j)) (fun a : Fin 64 => x19 (ix1 a)) (fun a : Fin 64 => x20 (ix2 0 a)) (x21 (ix1 0)) := by
  rw [val_main_v105_apply, val_main_v102_apply, val_main_v104_apply, val_main_v103_apply]
  unfold mergeRow
  have hb : idx_main_v103 (idx_main_v104 (ix2 b u)) = ix1 0 := funext fun a => match a with | ⟨0, _⟩ => rfl
  rw [hb, Ideal.addf_def]
  refine congrArg₂ (· + ·) (Finset.sum_congr rfl fun k _ => ?_) rfl
  have el : lidx_main_v102 (ix2 b u) k = ix2 b k := funext fun a => match a with | ⟨0, _⟩ => rfl | ⟨1, _⟩ => rfl
  have er : idx_main_v101 (ridx_main_v102 (ix2 b u) k) = ix2 0 k := funext fun a => match a with
    | ⟨0, _⟩ => Fin.ext (by have := u.isLt; show u.val = 0; omega)
    | ⟨1, _⟩ => rfl
  rw [val_main_v101_apply, el, er, v100_ix2]

/-- The negative pair of rows side by side: the source row, then the negative row. -/
theorem v106_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (b : Fin 4096) (j : Fin 128) :
    val_main_v106 (F := Ideal) x0 x1 x2 x3 x4 x5 x6 x7 x8 x9 x10 x11 x12 x13 x14 x15 x16 x17 (ix2 b j) = sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨8192 + b.val, by omega⟩ q)) j := by
  unfold val_main_v106
  refine (Cert.LibLayout.concat_cols_apply (n := 4096) (a := 64) (b := 64) _ _ concatenates_S4096x64_S4096x64_S4096x128_d1 b j).trans ?_
  simp only [v91_ix2, v93_ix2]

/-- The first affine map on the negative pair: the pair against row `f` of the weights, plus the bias. -/
theorem v111_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (b : Fin 4096) (f : Fin 64) :
    val_main_v111 (F := Ideal) x0 x1 x2 x3 x4 x5 x6 x7 x8 x9 x10 x11 x12 x13 x14 x15 x16 x17 x18 x19 (ix2 b f) = affine (sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨8192 + b.val, by omega⟩ q))) (fun (a : Fin 64) (j : Fin 128) => x18 (ix2 a j)) (fun a : Fin 64 => x19 (ix1 a)) f := by
  rw [val_main_v111_apply, val_main_v108_apply, val_main_v110_apply, val_main_v109_apply]
  unfold affine
  have hb : idx_main_v109 (idx_main_v110 (ix2 b f)) = ix1 f := funext fun a => match a with | ⟨0, _⟩ => rfl
  rw [hb, Ideal.addf_def]
  refine congrArg₂ (· + ·) (Finset.sum_congr rfl fun k _ => ?_) rfl
  have el : lidx_main_v108 (ix2 b f) k = ix2 b k := funext fun a => match a with | ⟨0, _⟩ => rfl | ⟨1, _⟩ => rfl
  have er : idx_main_v107 (ridx_main_v108 (ix2 b f) k) = ix2 f k := funext fun a => match a with | ⟨0, _⟩ => rfl | ⟨1, _⟩ => rfl
  rw [val_main_v107_apply, el, er, v106_ix2]

/-- The rectifier after the first affine map. -/
theorem v112_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (b : Fin 4096) (f : Fin 64) :
    val_main_v112 (F := Ideal) x0 x1 x2 x3 x4 x5 x6 x7 x8 x9 x10 x11 x12 x13 x14 x15 x16 x17 x18 x19 (ix2 b f) = max (affine (sideBySide (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨8192 + b.val, by omega⟩ q))) (fun (a : Fin 64) (j : Fin 128) => x18 (ix2 a j)) (fun a : Fin 64 => x19 (ix1 a)) f) 0 := by
  rw [val_main_v112_apply, val_main_call2_v0_apply, val_main_call2_cst_apply, v111_ix2, Ideal.maximumf_def, Ideal.ofBits_def,
    Ideal.ofBits_zero_f32]

/-- The second affine map, to one number: the score of the negative pair. -/
theorem v117_ix2 (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (x20 : (⟨S1x64, .f32⟩ : BufTy).Contents (Elt Ideal)) (x21 : (⟨S1, .f32⟩ : BufTy).Contents (Elt Ideal)) (b : Fin 4096) (u : Fin 1) :
    val_main_v117 (F := Ideal) x0 x1 x2 x3 x4 x5 x6 x7 x8 x9 x10 x11 x12 x13 x14 x15 x16 x17 x18 x19 x20 x21 (ix2 b u) = mergeRow (fun q : Fin 64 => val_main_v90 (F := Ideal) x0 x1 x2 x3 x4 x5 x6 x7 x8 x9 x10 x11 x12 x13 x14 x15 x16 x17 (ix2 ⟨b.val, by omega⟩ q)) (fun q : Fin 64 => val_main_v90 (F := Ideal) x0 x1 x2 x3 x4 x5 x6 x7 x8 x9 x10 x11 x12 x13 x14 x15 x16 x17 (ix2 ⟨8192 + b.val, by omega⟩ q)) (fun (a : Fin 64) (j : Fin 128) => x18 (ix2 a j)) (fun a : Fin 64 => x19 (ix1 a)) (fun a : Fin 64 => x20 (ix2 0 a)) (x21 (ix1 0)) := by
  rw [val_main_v117_apply, val_main_v114_apply, val_main_v116_apply, val_main_v115_apply]
  unfold mergeRow
  have hb : idx_main_v115 (idx_main_v116 (ix2 b u)) = ix1 0 := funext fun a => match a with | ⟨0, _⟩ => rfl
  rw [hb, Ideal.addf_def]
  refine congrArg₂ (· + ·) (Finset.sum_congr rfl fun k _ => ?_) rfl
  have el : lidx_main_v114 (ix2 b u) k = ix2 b k := funext fun a => match a with | ⟨0, _⟩ => rfl | ⟨1, _⟩ => rfl
  have er : idx_main_v113 (ridx_main_v114 (ix2 b u) k) = ix2 0 k := funext fun a => match a with
    | ⟨0, _⟩ => Fin.ext (by have := u.isLt; show u.val = 0; omega)
    | ⟨1, _⟩ => rfl
  rw [val_main_v113_apply, el, er, v112_ix2]

/-- The two scores side by side: column 0 the target pair's, column 1 the negative pair's. -/
theorem v118_apply (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (x20 : (⟨S1x64, .f32⟩ : BufTy).Contents (Elt Ideal)) (x21 : (⟨S1, .f32⟩ : BufTy).Contents (Elt Ideal)) (b : Fin 4096) (s : Fin 2) :
    val_main_v118 (F := Ideal) x0 x1 x2 x3 x4 x5 x6 x7 x8 x9 x10 x11 x12 x13 x14 x15 x16 x17 x18 x19 x20 x21 (ix2 b s)
      = scoreRow (fun q : Fin 64 => val_main_v90 (F := Ideal) x0 x1 x2 x3 x4 x5 x6 x7 x8 x9 x10 x11 x12 x13 x14 x15 x16 x17 (ix2 ⟨b.val, by omega⟩ q))
          (fun q : Fin 64 => val_main_v90 (F := Ideal) x0 x1 x2 x3 x4 x5 x6 x7 x8 x9 x10 x11 x12 x13 x14 x15 x16 x17 (ix2 ⟨4096 + b.val, by omega⟩ q))
          (fun q : Fin 64 => val_main_v90 (F := Ideal) x0 x1 x2 x3 x4 x5 x6 x7 x8 x9 x10 x11 x12 x13 x14 x15 x16 x17 (ix2 ⟨8192 + b.val, by omega⟩ q))
          (fun (a : Fin 64) (j : Fin 128) => x18 (ix2 a j)) (fun a : Fin 64 => x19 (ix1 a)) (fun a : Fin 64 => x20 (ix2 0 a)) (x21 (ix1 0)) s := by
  unfold val_main_v118
  refine (Cert.LibLayout.concat_cols_apply (n := 4096) (a := 1) (b := 1) _ _ concatenates_S4096x1_S4096x1_S4096x2_d1 b s).trans ?_
  unfold sideBySide scoreRow
  by_cases h : s.val < 1
  · rw [dif_pos h, if_pos (by omega)]
    exact v105_ix2 x0 x1 x2 x3 x4 x5 x6 x7 x8 x9 x10 x11 x12 x13 x14 x15 x16 x17 x18 x19 x20 x21 b _
  · rw [dif_neg h, if_neg (by omega)]
    exact v117_ix2 x0 x1 x2 x3 x4 x5 x6 x7 x8 x9 x10 x11 x12 x13 x14 x15 x16 x17 x18 x19 x20 x21 b _

end Cert.ReferenceIdeal.RefValue

end
-- ==== Proof.RefValue.lean ====
/-
  The reference computes the specification (floats are extended reals), when the index words are in range: its result
  at event b, column s, stage by stage — the merge layer over the embedded rows, the embedding over the new states
  and the node rows, the cell over the input and state rows, the rows from the argument arrays.
-/
import proofs.«401926_j12421045420080_2_alg».proof.Proof.Ref.RefIn
import proofs.«401926_j12421045420080_2_alg».proof.Proof.Ref.RefGru
import proofs.«401926_j12421045420080_2_alg».proof.Proof.Ref.RefEmb
import proofs.«401926_j12421045420080_2_alg».proof.Proof.Ref.RefTail
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

open Idealize.ShloMosaic.TcCoe

/-- The embedded row of event n, from the argument arrays. -/
theorem v90_eq (x0 x1 x2 : (⟨S4096, .i32⟩ : BufTy).Contents (Elt Ideal)) (x3 : (⟨S4096, .f32⟩ : BufTy).Contents (Elt Ideal)) (x4 x5 : (⟨S12288x32, .i32⟩ : BufTy).Contents (Elt Ideal)) (x6 : (⟨S12288x32, .f32⟩ : BufTy).Contents (Elt Ideal)) (x7 : (⟨S12288x32x128, .f32⟩ : BufTy).Contents (Elt Ideal)) (x8 : (⟨S500000x64, .f32⟩ : BufTy).Contents (Elt Ideal)) (x9 : (⟨S1000000x64, .f32⟩ : BufTy).Contents (Elt Ideal)) (x10 x11 : (⟨S64, .f32⟩ : BufTy).Contents (Elt Ideal)) (x12 x13 : (⟨S384x128, .f32⟩ : BufTy).Contents (Elt Ideal)) (x14 x15 : (⟨S384, .f32⟩ : BufTy).Contents (Elt Ideal)) (x16 : (⟨S64x192, .f32⟩ : BufTy).Contents (Elt Ideal)) (x17 : (⟨S64, .f32⟩ : BufTy).Contents (Elt Ideal))
    (hidx : IdxInRange x0 x1 x2 x5) (n : Fin 12288) (f : Fin 64) :
    val_main_v90 (F := Ideal) x0 x1 x2 x3 x4 x5 x6 x7 x8 x9 x10 x11 x12 x13 x14 x15 x16 x17 (ix2 n f) = embOf x0 x1 x2 x3 x4 x5 x6 x7 x8 x9 x10 x11 x12 x13 x14 x15 x16 x17 n f := by
  obtain ⟨h0, h1, h2, h5⟩ := hidx
  rw [v90_apply]
  simp only [v7_apply x0 x1 x2 x8 h0 h1 h2, v70_apply]
  have hrow : ∀ k : Fin 32, (⟨32 * n.val + k.val, by omega⟩ : Fin 393216) = slotRowR n k := fun _ => rfl
  simp only [hrow, v31_apply x3 x5 x6 x9 x10 x11 h5, v32_apply]
  rfl

/-- The reference's result, from the argument arrays. -/
theorem result_eq (m : (ℓ : Loc nD τ sig) → Buf (Elt Ideal) ℓ) (c : Dev nD)
    (hidx : IdxInRange (m ((c.tc : Thread nD τ).loc main_arg0)) (m ((c.tc : Thread nD τ).loc main_arg1)) (m ((c.tc : Thread nD τ).loc main_arg2)) (m ((c.tc : Thread nD τ).loc main_arg5))) :
    (Cert.ReferenceIdeal.ValueP.res_main_v118 (F := Ideal) m c : S4096x2.Idx → EReal)
      = fun i => outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (i 0) (i 1) := by
  funext i
  obtain ⟨b, s, rfl⟩ : ∃ (b : Fin 4096) (s : Fin 2), i = ix2 b s := ⟨i 0, i 1, eq_ix2 i⟩
  rw [val_main_v118_eq, v118_apply]
  simp only [v90_eq _ _ _ _ _ _ _ _ _ _ _ _ _ _ _ _ _ _ hidx]
  rfl

end Cert.ReferenceIdeal.RefValue

end
-- ==== Proof.PreDecode.lean ====
/-
  The precondition read back: when the printed predicate is all ones, every node id word is a row of the node
  table and every edge id word a row of the edge table (read signed: at least 0, below the table's row count).
  The predicate is a conjunction; each index conjunct is an all-reduction of the pointwise conjunction of two signed
  word comparisons against broadcast constants.
-/
import proofs.«401926_j12421045420080_2_alg».proof.Pre_finite_inputs
import proofs.«401926_j12421045420080_2_alg».proof.Proof.Gen.Pre_finite_inputs
import proofs.«401926_j12421045420080_2_alg».proof.Proof.Spec
import Idealize.ShloMosaic.Lib.ReduceAll
import Idealize.ShloMosaic.Lib.StableHlo.Predicate
import Idealize.ShloMosaic.Lib.ValueIdx

set_option maxRecDepth 16384

noncomputable section

namespace Cert.Pre_finite_inputs.Decode

open Cert.Pre_finite_inputs Cert.Spec
open Idealize.ShloMosaic Idealize.ShloMosaic.ValueIdx

/-- The scalar shape has one index. -/
instance : Subsingleton S_.Idx := ⟨fun a b => funext fun d => d.elim0⟩

/-- One range conjunct read back: an all-reduction by `and` of "at least the broadcast 0 and below the broadcast
    n", equal to one, says every word lies in [0, n) read signed. -/
theorem range_of_all {s : Shape} {axes : List (Fin s.rank)} (n : Nat) (hn : n < 2 ^ 31) (a : IVec s 32)
    (hb : S_.BroadcastsInDim s (![] : Fin 0 → Fin s.rank)) (hr : s.ReducesTo axes S_) (h0 : 0 < S_.numel)
    (j : S_.Idx)
    (e : Host.reduce IntOp.andi
          (andi (cmpi .sge a (broadcastInDim s ![] hb (constantI S_ 32 0#32)))
                (cmpi .slt a (broadcastInDim s ![] hb (constantI S_ 32 (BitVec.ofNat 32 n)))))
          (constantI S_ 1 1#1) hr h0 j = 1#1) :
    ∀ i, 0 ≤ (a i).toInt ∧ (a i).toInt < n := by
  intro i
  have hi := Host.reduce_andi_all _ _ hr h0 j e i
  simp only [andi, cmpi] at hi
  obtain ⟨h1, h2⟩ := IntOp.andi_eq_one.1 hi
  rw [IntOp.cmpi_sge, StableHlo.Predicate.bcast_scalar hb h0] at h1
  rw [IntOp.cmpi_slt, StableHlo.Predicate.bcast_scalar hb h0] at h2
  simp only [constantI] at h1 h2
  rw [StableHlo.Predicate.toInt_ofNat_small n hn] at h2
  have z : (0#32 : BitVec 32).toInt = 0 := by decide
  rw [z] at h1
  exact ⟨h1, h2⟩

/-- The last two parts of the predicate: its final four conjuncts are the four index ranges. -/
theorem part5 [Cert.Pre_finite_inputs.Facts] (a0 a1 a2 : IVec S4096 32) (a5 : IVec S12288x32 32) (v83 : IVec S_ 1) (j : S_.Idx)
    (h : fn_part5 (F := Ideal) a0 a1 a2 a5 v83
          (broadcastInDim S4096 ![] Facts.bcast_S_S4096 (constantI S_ 32 0#32)) j = 1#1) :
    IdxInRange a0 a1 a2 a5 := by
  dsimp only [fn_part5, fn_part6] at h
  obtain ⟨h', h5⟩ := IntOp.andi_eq_one.1 h
  obtain ⟨h', h2⟩ := IntOp.andi_eq_one.1 h'
  obtain ⟨h', h1⟩ := IntOp.andi_eq_one.1 h'
  obtain ⟨-, h0⟩ := IntOp.andi_eq_one.1 h'
  exact ⟨range_of_all 500000 (by norm_num) a0 _ _ _ j h0, range_of_all 500000 (by norm_num) a1 _ _ _ j h1,
    range_of_all 500000 (by norm_num) a2 _ _ _ j h2, range_of_all 1000000 (by norm_num) a5 _ _ _ j h5⟩

theorem idxInRange_of_pre [Cert.Pre_finite_inputs.Facts] (a0 : IVec S4096 32) (a1 : IVec S4096 32) (a2 : IVec S4096 32) (a3 : FVec Ideal S4096 .f32) (a4 : IVec S12288x32 32) (a5 : IVec S12288x32 32) (a6 : FVec Ideal S12288x32 .f32) (a7 : FVec Ideal S12288x32x128 .f32) (a8 : FVec Ideal S500000x64 .f32) (a9 : FVec Ideal S1000000x64 .f32) (a10 : FVec Ideal S64 .f32) (a11 : FVec Ideal S64 .f32) (a12 : FVec Ideal S384x128 .f32) (a13 : FVec Ideal S384x128 .f32) (a14 : FVec Ideal S384 .f32) (a15 : FVec Ideal S384 .f32) (a16 : FVec Ideal S64x192 .f32) (a17 : FVec Ideal S64 .f32) (a18 : FVec Ideal S64x128 .f32) (a19 : FVec Ideal S64 .f32) (a20 : FVec Ideal S1x64 .f32) (a21 : FVec Ideal S1 .f32)
    (h : Cert.Pre_finite_inputs.fn (F := Ideal) a0 a1 a2 a3 a4 a5 a6 a7 a8 a9 a10 a11 a12 a13 a14 a15 a16 a17 a18 a19 a20 a21 = fun _ => 1#1) :
    IdxInRange a0 a1 a2 a5 := by
  have e := congrFun h ValueIdx.ix0
  dsimp only [fn, fn_part1, fn_part2, fn_part3, fn_part4] at e
  exact part5 a0 a1 a2 a5 _ ValueIdx.ix0 e

end Cert.Pre_finite_inputs.Decode

end
-- ==== Proof.lean ====
/-
  The certificate's claim. A temporal-walk encoder scores 4096 events: for every event row (source, target and
  negative: 12288 rows) 32 stored neighbours go through one step of a gated recurrent cell on their edge features
  and cosine time encoding, are averaged over the non-padding neighbours and read out together with the node's own
  features; a merge layer scores source against target and source against negative.

  The kernel's program evaluates this in two tiled regions (128 event rows, resp. 1024 events, per grid point) and
  fuses the reset and update gates' two affine maps into one; the reference evaluates it array by array. Over the
  extended reals both are the same function of the argument arrays: tiling and changes of float format do not
  matter there, and the fused map is the sum of the two maps by commutativity and associativity of addition
  alone. The kernel's table look-ups fill out-of-range rows with a not-a-number pattern where the reference's
  clamp; so the precondition also asks every index word to name a row of its table, and under it both read the same
  rows.

  The three frames: the two regions' pipelines run their bodies at every grid point on whole blocks and write
  whole blocks back, the host operations between them neither fault nor write an argument; the reference's run is
  its operations' composed term. Nothing is rewritten by the idealization, so that claim is trivial.
-/
import proofs.«401926_j12421045420080_2_alg».proof.Defs
import proofs.«401926_j12421045420080_2_alg».proof.Proof.Gen.Kernel
import proofs.«401926_j12421045420080_2_alg».proof.Proof.Gen.KernelIdeal
import proofs.«401926_j12421045420080_2_alg».proof.Proof.Gen.ReferenceIdeal
import proofs.«401926_j12421045420080_2_alg».proof.Proof.Gen.Pre_finite_inputs
import proofs.«401926_j12421045420080_2_alg».proof.Proof.RefRunP
import proofs.«401926_j12421045420080_2_alg».proof.Proof.K.Run
import proofs.«401926_j12421045420080_2_alg».proof.Proof.KI.Final
import proofs.«401926_j12421045420080_2_alg».proof.Proof.RefValue
import proofs.«401926_j12421045420080_2_alg».proof.Proof.PreDecode
import Idealize.ShloMosaic.Adequacy
import Idealize.ShloMosaic.Init

set_option maxRecDepth 16384

noncomputable section

namespace Cert.Proof

open Idealize.ShloMosaic Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Under the precondition every index word names a row of its table. -/
theorem idx_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.IdxInRange (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) :=
  Cert.Pre_finite_inputs.Decode.idxInRange_of_pre _ _ _ _ _ _ _ _ _ _ _ _ _ _ _ _ _ _ _ _ _ _ (hpre c)

set_option maxHeartbeats 1000000 in
/-- Both programs end at the specification's function of the argument arrays. -/
theorem algebraic : Cert.algebraic_KernelIdeal_ReferenceIdeal := by
  intro m ρ m' ρ' hpre hagree
  refine ⟨fun c => fun i => Cert.Spec.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (i 0) (i 1), ?_, ?_⟩
  · exact (θ_run Cert.KernelIdeal.defs _ _).mono
      (fun _ h c => ⟨(h c).1.trans (Cert.KernelIdeal.Final.result_eq m c (idx_of_pre m hpre c)), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.ValueP.run (F := Ideal) m' ρ')
    have ha := hagree c
    have hidx := idx_of_pre m hpre c
    rw [← ha.1, ← ha.2.1, ← ha.2.2.1, ← ha.2.2.2.2.2.1] at hidx
    rw [Cert.ReferenceIdeal.RefValue.result_eq m' c hidx]
    simp only [ha.1, ha.2.1, ha.2.2.1, ha.2.2.2.1, ha.2.2.2.2.1, ha.2.2.2.2.2.1, ha.2.2.2.2.2.2.1, ha.2.2.2.2.2.2.2.1,
      ha.2.2.2.2.2.2.2.2.1, ha.2.2.2.2.2.2.2.2.2.1, ha.2.2.2.2.2.2.2.2.2.2.1, ha.2.2.2.2.2.2.2.2.2.2.2.1,
      ha.2.2.2.2.2.2.2.2.2.2.2.2.1, ha.2.2.2.2.2.2.2.2.2.2.2.2.2.1, ha.2.2.2.2.2.2.2.2.2.2.2.2.2.2.1,
      ha.2.2.2.2.2.2.2.2.2.2.2.2.2.2.2.1, ha.2.2.2.2.2.2.2.2.2.2.2.2.2.2.2.2.1, ha.2.2.2.2.2.2.2.2.2.2.2.2.2.2.2.2.2.1,
      ha.2.2.2.2.2.2.2.2.2.2.2.2.2.2.2.2.2.2.1, ha.2.2.2.2.2.2.2.2.2.2.2.2.2.2.2.2.2.2.2.1,
      ha.2.2.2.2.2.2.2.2.2.2.2.2.2.2.2.2.2.2.2.2.1, ha.2.2.2.2.2.2.2.2.2.2.2.2.2.2.2.2.2.2.2.2.2]
    rfl

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
